-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S1024x1024 .f32) (main_arg3 : FVec F S1024 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x1x1024 : Shape := ⟨3, ![1, 1, 1024]⟩
abbrev S1x512x1024 : Shape := ⟨3, ![1, 512, 1024]⟩
abbrev S1x1024x1024 : Shape := ⟨3, ![1, 1024, 1024]⟩
abbrev S1x512x1 : Shape := ⟨3, ![1, 512, 1]⟩
abbrev S1x512 : Shape := ⟨2, ![1, 512]⟩
abbrev S512x1024 : Shape := ⟨2, ![512, 1024]⟩

abbrev nBuf : Space → Nat
  | .hbm => 18
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S1024x1024, .f32⟩
  | .hbm, ⟨8, _⟩ => ⟨S1024x1024, .bf16⟩
  | .hbm, ⟨9, _⟩ => ⟨S4x2048x1024, .bf16⟩
  | .hbm, ⟨10, _⟩ => ⟨S1x1024, .f32⟩
  | .hbm, ⟨11, _⟩ => ⟨S8192x1024, .bf16⟩
  | .hbm, ⟨12, _⟩ => ⟨S4x2048x1024, .bf16⟩
  | .hbm, ⟨13, _⟩ => ⟨S1024x1024, .f32⟩
  | .hbm, ⟨14, _⟩ => ⟨S1024x1024, .bf16⟩
  | .hbm, ⟨15, _⟩ => ⟨S1x1x1024, .f32⟩
  | .hbm, ⟨16, _⟩ => ⟨S4x2048x1024, .f32⟩
  | .hbm, ⟨17, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .bf16⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1, .f32⟩
  | .local _ .vmem, ⟨19, _⟩ => ⟨S1x512x1, .f32⟩
  | .local _ .vmem, ⟨20, _⟩ => ⟨S1x512x1024, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v47 : BitVec 1 := Scalar.cmpi .eq arg2 c1_i32
  let v48 : BitVec 32 := Scalar.extui v47
  let c0_i32_37 : BitVec 32 := 0#32
  let v49 : BitVec 1 := Scalar.cmpi .ne v48 c0_i32_37
  v49

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  shapeCasts_S1024_S1x1x1024 : S1024.ShapeCasts S1x1x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  reduces_S1x512x1024_S1x512 : S1x512x1024.Reduces [2] S1x512
  shapeCasts_S1x512_S1x512x1 : S1x512.ShapeCasts S1x512x1
  broadcasts_S1x512x1_S1x512x1024 : S1x512x1.Broadcasts S1x512x1024
  shapeCasts_S1x512x1024_S512x1024 : S1x512x1024.ShapeCasts S512x1024
  shapeCasts_S512x1024_S1x512x1024 : S512x1024.ShapeCasts S1x512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1x1024_S1x512x1024 : S1x1x1024.Broadcasts S1x512x1024
  dot_S1024x1024_S1024x1024_S1024x1024_1_0_0_1_n_n_wf : DotDims.WF S1024x1024 S1024x1024 S1024x1024 [1] [0] [0] [1] [] []
  dot_S1x512x1024_S1x1024x1024_S1x512x1024_2_2_1_1_0_0_wf : DotDims.WF S1x512x1024 S1x1024x1024 S1x512x1024 [2] [2] [1] [1] [0] [0]
  dot_S1x512x1024_S1x1024x1024_S1x512x1024_2_1_1_2_0_0_wf : DotDims.WF S1x512x1024 S1x1024x1024 S1x512x1024 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S1x1x1024.size a
  hwx1_4 : ∀ i : grid1.Coords, EltTy.bits .f32 = 32 ∨ (Rect.block (s := S1x1x1024) S1x1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S4x2048x1024.size a
  hwx1_6 : ∀ i : grid1.Coords, EltTy.bits .f32 = 32 ∨ (Rect.block (s := S4x2048x1024) S1x512x1024.size (cc1_transform_6 i) (hinb1_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x512x1024_S1x1024x1024_S1x512x1024_2_2_1_1_0_0 : DotDims S1x512x1024 S1x1024x1024 S1x512x1024 where
  lhsContracting := [2]
  rhsContracting := [2]
  lhsNonContracting := [1]
  rhsNonContracting := [1]
  lhsBatch := [0]
  rhsBatch := [0]
  wf := dot_S1x512x1024_S1x1024x1024_S1x512x1024_2_2_1_1_0_0_wf
def dot_S1x512x1024_S1x1024x1024_S1x512x1024_2_1_1_2_0_0 : DotDims S1x512x1024 S1x1024x1024 S1x512x1024 where
  lhsContracting := [2]
  rhsContracting := [1]
  lhsNonContracting := [1]
  rhsNonContracting := [2]
  lhsBatch := [0]
  rhsBatch := [0]
  wf := dot_S1x512x1024_S1x1024x1024_S1x512x1024_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S1x512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4x2048x1024, .f32⟩
  | .hbm, ⟨7, _⟩ => ⟨S1x1x1024, .f32⟩
  | .hbm, ⟨8, _⟩ => ⟨S4x2048x1024, .f32⟩
  | .hbm, ⟨9, _⟩ => ⟨S4x2048x1024, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KI.R0.lean ====
/-
  Region 0 of @main (custom_call 0, the linear kernel; pipeline 0), at the buffer contents `V` the region is
  entered with. The body reads its three input staging buffers whole, and leaves in the output staging buffer
  ONE whole-buffer payload: the matrix product of the first two inputs plus the broadcast third, narrowed.
  So what it leaves is a closed function of the three input blocks at the point (`out0_3`, equal to the payload
  itself: `out0_3_eq`), the inputs stay as they were, and the body obligation of the pipeline's proof data
  `dat0` holds at every point.
-/
import proofs.«430366_j13881334301213_3_alg».proof.Proof.Gen.KernelIdeal.Launch
import proofs.«430366_j13881334301213_3_alg».proof.Proof.Gen.KernelIdeal.Skeleton
import proofs.«430366_j13881334301213_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a fresh block at every point) holds its block when the body starts, for any proof data over
    `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (one block, brought in at the first point and kept) holds its block at every point: where it
    is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, brought in at the first point and kept), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

/-- The whole 1024×1024 buffer as a rectangle: zero offsets, the buffer's own extents. -/
abbrev rM : Rect S1024x1024 := Rect.unit (s := S1024x1024) ![0, 0] S1024x1024.size inb_S1024x1024_S1024x1024_0_0
/-- The whole 1×1024 row buffer as a rectangle. -/
abbrev rB : Rect S1x1024 := Rect.unit (s := S1x1024) ![0, 0] S1x1024.size inb_S1x1024_S1x1024_0_0

/-- The offsets of both rectangles are zero on every axis. -/
theorem hz : (![0, 0] : Fin 2 → Nat) = fun _ => 0 := funext fun a => by fin_cases a <;> rfl

/-! ## What the body leaves in the output window's buffer -/

/-- Window 3's staging buffer after the body, from the three input blocks: its one store as a one-piece list. -/
def out0_3 (x0 : Vec F S1024x1024 .f32) (x1 : Vec F S1024x1024 .bf16) (x2 : Vec F S1x1024 .f32) : Vec F S1024x1024 .bf16 :=
  View.canon [⟨rM, k0_pay1 (View.ld x0 rM) (View.ld x1 rM) (View.ld x2 rB)⟩]

/-- One whole-buffer piece over whole-buffer loads IS the payload at the buffers' contents. -/
theorem out0_3_eq (x0 : Vec F S1024x1024 .f32) (x1 : Vec F S1024x1024 .bf16) (x2 : Vec F S1x1024 .f32) :
    out0_3 x0 x1 x2 = k0_pay1 x0 x1 x2 := by
  unfold out0_3
  rw [View.canon_unit_zero hz]
  simp only [View.ld_unit_zero (S := S1024x1024) hz, View.ld_unit_zero (S := S1x1024) hz]

/-- The one store covers the buffer: every index is in the whole-buffer rectangle. -/
theorem cover0_3 (p0 : Vec F S1024x1024 .bf16) (y : S1024x1024.Idx) :
    ∃ pc ∈ ([⟨rM, p0⟩] : List (View.Piece (Elt F) S1024x1024 .bf16)), y ∈ pc.1.set :=
  ⟨_, List.mem_singleton_self _, View.mem_set_unit_zero hz inb_S1024x1024_S1024x1024_0_0 y⟩

/-! ## The body's triple -/

set_option maxHeartbeats 1000000 in
/-- The kernel body on whole staging memrefs, the three inputs' at read contents `x0 x1 x2` and the output's at
    anything, runs to the continuation holding the inputs' as they were and the output's at `out0_3 x0 x1 x2`:
    three loads, a load of the output whose value nothing reads, and one covering store. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the three input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/-
  Region 1 (the attention kernel): what its two runs are stated over. The kernel's two conditionals test the
  innermost grid coordinate: the first (reset the running maximum, denominator and numerators) holds at the
  even points, the second (normalise and write the two outputs) at the odd ones, so a point is in one of two
  cases. The output windows are idle at the even points and live at the odd ones, where they are written back.
-/
import proofs.«430366_j13881334301213_3_alg».proof.Proof.Gen.KernelIdeal.Launch
import proofs.«430366_j13881334301213_3_alg».proof.Proof.Gen.KernelIdeal.Skeleton
import proofs.«430366_j13881334301213_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions, decided over the grid -/

/-- The first conditional's condition: the innermost coordinate is zero. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition: the innermost coordinate is the last. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem liveAt1_5_B : ∀ t : Fin cfg1.N, ¬cond1_0 (grid1.coords t) → cond1_1 (grid1.coords t) → cfg1.idle 5 (grid1.coords t) = false := by decide +kernel
theorem liveAt1_6_B : ∀ t : Fin cfg1.N, ¬cond1_0 (grid1.coords t) → cond1_1 (grid1.coords t) → cfg1.idle 6 (grid1.coords t) = false := by decide +kernel

/-! ## The memrefs the body is called with -/

abbrev VO1_5 : View sig .tc .vmem S1x512x1024 .f32 := (Memref.whole cc1_stg5_0 : Memref sig .tc .vmem S1x512x1024 .f32).view
abbrev VO1_6 : View sig .tc .vmem S1x512x1024 .f32 := (Memref.whole cc1_stg6_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The four scratch operands: the running maximum, the running denominator and the two running numerators. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev scM1_3 : Memref sig .tc .vmem S1x512x1024 .f32 := Memref.whole cc1_scratch3
abbrev VS1_0 : View sig .tc .vmem S1x512x1 .f32 := scM1_0.view
abbrev VS1_1 : View sig .tc .vmem S1x512x1 .f32 := scM1_1.view
abbrev VS1_2 : View sig .tc .vmem S1x512x1024 .f32 := scM1_2.view
abbrev VS1_3 : View sig .tc .vmem S1x512x1024 .f32 := scM1_3.view

/-- The class invariant with the scratch operands as memrefs owned at some contents, and the buffers of the other
    region's pipeline at some contents beside them. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.R1RunA.lean ====
/-
  Region 1, the case of an even grid point: the reset is taken and the outputs are not written. On whole
  memrefs, the inputs' at their blocks, the two output buffers at any contents (handed back untouched), the four
  scratch buffers at anything, the body runs and leaves each scratch buffer at the pieces its stores wrote.
-/
import proofs.«430366_j13881334301213_3_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the four scratch buffers at an even point, with the body's triple. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : cond1_0 i) (hc1 : ¬cond1_1 i)
    (x3 : Vec F S1x512x1024 .bf16) (x4 : Vec F S1x1024x1024 .bf16) (x5 : Vec F S1x1024x1024 .bf16) (x6 : Vec F S1024x1024 .bf16) (x7 : Vec F S1x1x1024 .f32) :
    Σ' (LS0 : List (View.Piece (Elt F) S1x512x1 .f32)) (LS1 : List (View.Piece (Elt F) S1x512x1 .f32)) (LS2 : List (View.Piece (Elt F) S1x512x1024 .f32)), { LS3 : List (View.Piece (Elt F) S1x512x1024 .f32) //
      ∀ (xi8 xi9 : Vec F S1x512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare xi9
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare xi9
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13) K } := by
  refine ⟨?_, ?_, ?_, ?_, fun xi8 xi9 E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, HS0⟩, ⟨%d11, %f11, -, HS1⟩, ⟨%d12, %f12, -, HS2⟩, ⟨%d13, %f13, -, HS3⟩, Hk⟩
    obtain rfl := harg3.eq_unread hf3; obtain rfl := harg4.eq_unread hf4; obtain rfl := harg5.eq_unread hf5
    obtain rfl := harg6.eq_unread hf6; obtain rfl := harg7.eq_unread hf7
    obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HS0]; · iexists _; iexact HS0
    isplitl [HS1]; · iexists _; iexact HS1
    isplitl [HS2]; · iexists _; iexact HS2
    iexists _; iexact HS3

end Cert.KernelIdeal.Hand

end
-- ==== Proof.KI.R1RunB.lean ====
/-
  Region 1, the case of an odd grid point: no reset, and the two outputs are normalised and written. On whole
  memrefs, the inputs' at their blocks, the output buffers at anything, the four scratch buffers at what the point
  before left, the body runs and leaves each output and each scratch buffer at the pieces its stores wrote.
-/
import proofs.«430366_j13881334301213_3_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two output buffers and the four scratch buffers at an odd point, with the
    body's triple. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i)
    (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    Σ' (L8 : List (View.Piece (Elt F) S1x512x1024 .f32)) (L9 : List (View.Piece (Elt F) S1x512x1024 .f32)) (LS0 : List (View.Piece (Elt F) S1x512x1 .f32)) (LS1 : List (View.Piece (Elt F) S1x512x1 .f32)) (LS2 : List (View.Piece (Elt F) S1x512x1024 .f32)), { LS3 : List (View.Piece (Elt F) S1x512x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg3.eq_unread hf3; obtain rfl := harg4.eq_unread hf4; obtain rfl := harg5.eq_unread hf5
    obtain rfl := harg6.eq_unread hf6; obtain rfl := harg7.eq_unread hf7
    obtain rfl := harg10.eq_unread hfs0; obtain rfl := harg11.eq_unread hfs1
    obtain rfl := harg12.eq_unread hfs2; obtain rfl := harg13.eq_unread hfs3
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.KernelIdeal.Hand

end
-- ==== Proof.KI.R1.lean ====
/-
  Region 1 (the attention kernel): what its buffers hold point by point, the pipeline's proof data and the body
  obligation. The four scratch buffers (running maximum, denominator, two numerators) are carried from each point
  to the next: after an even point they hold what the reset followed by one update leaves, after an odd point what
  one more update of the previous contents leaves; the two output buffers are written at the odd points only.
-/
import proofs.«430366_j13881334301213_3_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-- The run of the body at an even point `t`, at the point's memrefs and input blocks. -/
def runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)

/-- The run of the body at an odd point `t`, the scratch buffers at `xs·`. -/
def runB (c : Dev nD) (t : Fin cfg1.N) (h0 : ¬t.val % 2 = 0) (xs0 xs1 : Vec F S1x512x1 .f32) (xs2 xs3 : Vec F S1x512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

/-- What an even point leaves in scratch buffer 0: its pieces read back. -/
def sA_0 (c : Dev nD) (t : Fin cfg1.N) (h0 : t.val % 2 = 0) : Vec F S1x512x1 .f32 :=
  VS1_0.read (Elt F) (VS1_0.writes (Elt F) VS1_0.junk (runA V c t h0).1)
theorem scoverA_0 (c : Dev nD) (t : Fin cfg1.N) (h0 : t.val % 2 = 0) (y : S1x512x1.Idx) :
    ∃ pc ∈ (runA V c t h0).1, y ∈ pc.1.set :=
  View.cover_of_tiledL (runA V c t h0).1 S1x512x1.size (by sl_kernel_rfl) y
/-- What an odd point leaves in scratch buffer 0. -/
def sB_0 (c : Dev nD) (t : Fin cfg1.N) (h0 : ¬t.val % 2 = 0) (xs0 xs1 : Vec F S1x512x1 .f32) (xs2 xs3 : Vec F S1x512x1024 .f32) : Vec F S1x512x1 .f32 :=
  VS1_0.read (Elt F) (VS1_0.writes (Elt F) VS1_0.junk (runB V c t h0 xs0 xs1 xs2 xs3).2.2.1)
theorem scoverB_0 (c : Dev nD) (t : Fin cfg1.N) (h0 : ¬t.val % 2 = 0) (xs0 xs1 : Vec F S1x512x1 .f32) (xs2 xs3 : Vec F S1x512x1024 .f32) (y : S1x512x1.Idx) :
    ∃ pc ∈ (runB V c t h0 xs0 xs1 xs2 xs3).2.2.1, y ∈ pc.1.set :=
  View.cover_of_tiledL (runB V c t h0 xs0 xs1 xs2 xs3).2.2.1 S1x512x1.size (by sl_kernel_rfl) y
/-- What an even point leaves in scratch buffer 1: its pieces read back. -/
def sA_1 (c : Dev nD) (t : Fin cfg1.N) (h0 : t.val % 2 = 0) : Vec F S1x512x1 .f32 :=
  VS1_1.read (Elt F) (VS1_1.writes (Elt F) VS1_1.junk (runA V c t h0).2.1)
theorem scoverA_1 (c : Dev nD) (t : Fin cfg1.N) (h0 : t.val % 2 = 0) (y : S1x512x1.Idx) :
    ∃ pc ∈ (runA V c t h0).2.1, y ∈ pc.1.set :=
  View.cover_of_tiledL (runA V c t h0).2.1 S1x512x1.size (by sl_kernel_rfl) y
/-- What an odd point leaves in scratch buffer 1. -/
def sB_1 (c : Dev nD) (t : Fin cfg1.N) (h0 : ¬t.val % 2 = 0) (xs0 xs1 : Vec F S1x512x1 .f32) (xs2 xs3 : Vec F S1x512x1024 .f32) : Vec F S1x512x1 .f32 :=
  VS1_1.read (Elt F) (VS1_1.writes (Elt F) VS1_1.junk (runB V c t h0 xs0 xs1 xs2 xs3).2.2.2.1)
theorem scoverB_1 (c : Dev nD) (t : Fin cfg1.N) (h0 : ¬t.val % 2 = 0) (xs0 xs1 : Vec F S1x512x1 .f32) (xs2 xs3 : Vec F S1x512x1024 .f32) (y : S1x512x1.Idx) :
    ∃ pc ∈ (runB V c t h0 xs0 xs1 xs2 xs3).2.2.2.1, y ∈ pc.1.set :=
  View.cover_of_tiledL (runB V c t h0 xs0 xs1 xs2 xs3).2.2.2.1 S1x512x1.size (by sl_kernel_rfl) y
/-- What an even point leaves in scratch buffer 2: its pieces read back. -/
def sA_2 (c : Dev nD) (t : Fin cfg1.N) (h0 : t.val % 2 = 0) : Vec F S1x512x1024 .f32 :=
  VS1_2.read (Elt F) (VS1_2.writes (Elt F) VS1_2.junk (runA V c t h0).2.2.1)
theorem scoverA_2 (c : Dev nD) (t : Fin cfg1.N) (h0 : t.val % 2 = 0) (y : S1x512x1024.Idx) :
    ∃ pc ∈ (runA V c t h0).2.2.1, y ∈ pc.1.set :=
  View.cover_of_tiledL (runA V c t h0).2.2.1 S1x512x1024.size (by sl_kernel_rfl) y
/-- What an odd point leaves in scratch buffer 2. -/
def sB_2 (c : Dev nD) (t : Fin cfg1.N) (h0 : ¬t.val % 2 = 0) (xs0 xs1 : Vec F S1x512x1 .f32) (xs2 xs3 : Vec F S1x512x1024 .f32) : Vec F S1x512x1024 .f32 :=
  VS1_2.read (Elt F) (VS1_2.writes (Elt F) VS1_2.junk (runB V c t h0 xs0 xs1 xs2 xs3).2.2.2.2.1)
theorem scoverB_2 (c : Dev nD) (t : Fin cfg1.N) (h0 : ¬t.val % 2 = 0) (xs0 xs1 : Vec F S1x512x1 .f32) (xs2 xs3 : Vec F S1x512x1024 .f32) (y : S1x512x1024.Idx) :
    ∃ pc ∈ (runB V c t h0 xs0 xs1 xs2 xs3).2.2.2.2.1, y ∈ pc.1.set :=
  View.cover_of_tiledL (runB V c t h0 xs0 xs1 xs2 xs3).2.2.2.2.1 S1x512x1024.size (by sl_kernel_rfl) y
/-- What an even point leaves in scratch buffer 3: its pieces read back. -/
def sA_3 (c : Dev nD) (t : Fin cfg1.N) (h0 : t.val % 2 = 0) : Vec F S1x512x1024 .f32 :=
  VS1_3.read (Elt F) (VS1_3.writes (Elt F) VS1_3.junk (runA V c t h0).2.2.2.1)
theorem scoverA_3 (c : Dev nD) (t : Fin cfg1.N) (h0 : t.val % 2 = 0) (y : S1x512x1024.Idx) :
    ∃ pc ∈ (runA V c t h0).2.2.2.1, y ∈ pc.1.set :=
  View.cover_of_tiledL (runA V c t h0).2.2.2.1 S1x512x1024.size (by sl_kernel_rfl) y
/-- What an odd point leaves in scratch buffer 3. -/
def sB_3 (c : Dev nD) (t : Fin cfg1.N) (h0 : ¬t.val % 2 = 0) (xs0 xs1 : Vec F S1x512x1 .f32) (xs2 xs3 : Vec F S1x512x1024 .f32) : Vec F S1x512x1024 .f32 :=
  VS1_3.read (Elt F) (VS1_3.writes (Elt F) VS1_3.junk (runB V c t h0 xs0 xs1 xs2 xs3).2.2.2.2.2.1)
theorem scoverB_3 (c : Dev nD) (t : Fin cfg1.N) (h0 : ¬t.val % 2 = 0) (xs0 xs1 : Vec F S1x512x1 .f32) (xs2 xs3 : Vec F S1x512x1024 .f32) (y : S1x512x1024.Idx) :
    ∃ pc ∈ (runB V c t h0 xs0 xs1 xs2 xs3).2.2.2.2.2.1, y ∈ pc.1.set :=
  View.cover_of_tiledL (runB V c t h0 xs0 xs1 xs2 xs3).2.2.2.2.2.1 S1x512x1024.size (by sl_kernel_rfl) y

/-- What an odd point leaves in the first output's buffer. -/
def oB_5 (c : Dev nD) (t : Fin cfg1.N) (h0 : ¬t.val % 2 = 0) (xs0 xs1 : Vec F S1x512x1 .f32) (xs2 xs3 : Vec F S1x512x1024 .f32) : Vec F S1x512x1024 .f32 :=
  VO1_5.read (Elt F) (VO1_5.writes (Elt F) VO1_5.junk (runB V c t h0 xs0 xs1 xs2 xs3).1)
theorem coverB_5 (c : Dev nD) (t : Fin cfg1.N) (h0 : ¬t.val % 2 = 0) (xs0 xs1 : Vec F S1x512x1 .f32) (xs2 xs3 : Vec F S1x512x1024 .f32) (y : S1x512x1024.Idx) :
    ∃ pc ∈ (runB V c t h0 xs0 xs1 xs2 xs3).1, y ∈ pc.1.set :=
  View.cover_of_tiledL (runB V c t h0 xs0 xs1 xs2 xs3).1 S1x512x1024.size (by sl_kernel_rfl) y
/-- What an odd point leaves in the second output's buffer. -/
def oB_6 (c : Dev nD) (t : Fin cfg1.N) (h0 : ¬t.val % 2 = 0) (xs0 xs1 : Vec F S1x512x1 .f32) (xs2 xs3 : Vec F S1x512x1024 .f32) : Vec F S1x512x1024 .f32 :=
  VO1_6.read (Elt F) (VO1_6.writes (Elt F) VO1_6.junk (runB V c t h0 xs0 xs1 xs2 xs3).2.1)
theorem coverB_6 (c : Dev nD) (t : Fin cfg1.N) (h0 : ¬t.val % 2 = 0) (xs0 xs1 : Vec F S1x512x1 .f32) (xs2 xs3 : Vec F S1x512x1024 .f32) (y : S1x512x1024.Idx) :
    ∃ pc ∈ (runB V c t h0 xs0 xs1 xs2 xs3).2.1, y ∈ pc.1.set :=
  View.cover_of_tiledL (runB V c t h0 xs0 xs1 xs2 xs3).2.1 S1x512x1024.size (by sl_kernel_rfl) y

/-- The six buffers after an even point: the outputs' are not the kernel's to name there (placeholders nothing
    consults), the scratch buffers' what the reset and one update leave. -/
def tupA (c : Dev nD) (t : Fin cfg1.N) (h0 : t.val % 2 = 0) : Vec F S1x512x1024 .f32 × Vec F S1x512x1024 .f32 × Vec F S1x512x1 .f32 × Vec F S1x512x1 .f32 × Vec F S1x512x1024 .f32 × Vec F S1x512x1024 .f32 :=
  (VO1_5.read (Elt F) VO1_5.junk, VO1_6.read (Elt F) VO1_6.junk, sA_0 V c t h0, sA_1 V c t h0, sA_2 V c t h0, sA_3 V c t h0)

/-- The six buffers after an odd point, over what the point before left in the scratch buffers. -/
def tupB (c : Dev nD) (t : Fin cfg1.N) (h0 : ¬t.val % 2 = 0) (xs0 xs1 : Vec F S1x512x1 .f32) (xs2 xs3 : Vec F S1x512x1024 .f32) : Vec F S1x512x1024 .f32 × Vec F S1x512x1024 .f32 × Vec F S1x512x1 .f32 × Vec F S1x512x1 .f32 × Vec F S1x512x1024 .f32 × Vec F S1x512x1024 .f32 :=
  (oB_5 V c t h0 xs0 xs1 xs2 xs3, oB_6 V c t h0 xs0 xs1 xs2 xs3, sB_0 V c t h0 xs0 xs1 xs2 xs3, sB_1 V c t h0 xs0 xs1 xs2 xs3, sB_2 V c t h0 xs0 xs1 xs2 xs3, sB_3 V c t h0 xs0 xs1 xs2 xs3)

/-- What the two output buffers and the four scratch buffers hold after the body at position `n`. -/
def outsAt1 (c : Dev nD) : (n : ℕ) → n < cfg1.N → Vec F S1x512x1024 .f32 × Vec F S1x512x1024 .f32 × Vec F S1x512x1 .f32 × Vec F S1x512x1 .f32 × Vec F S1x512x1024 .f32 × Vec F S1x512x1024 .f32
  | 0, hn => tupA V c ⟨0, hn⟩ (Nat.zero_mod 2)
  | n + 1, hn =>
    if h0 : (n + 1) % 2 = 0 then tupA V c ⟨n + 1, hn⟩ h0
    else tupB V c ⟨n + 1, hn⟩ h0 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2

theorem outsAt1_A (c : Dev nD) (t : Fin cfg1.N) (h0 : t.val % 2 = 0) : outsAt1 V c t.val t.isLt = tupA V c t h0 := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = tupB V c t h0 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2 := by
  obtain ⟨n, hn⟩ := t
  cases n with
  | zero => exact absurd (Nat.zero_mod 2) h0
  | succ n => exact (dif_neg h0).trans rfl

/-- The region invariant before position `n`: at the first point the class's; afterwards the buffers of the other
    region's pipeline at anything, each scratch buffer at what the point before left, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2.1) ∗ owns (c : Thread nD τ) scM1_3 fullShare ((outsAt1 V c n hn).2.2.2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2.1) ∗ owns (c : Thread nD τ) scM1_3 fullShare ((outsAt1 V c n hn).2.2.2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.2.1) ∗ owns (c : Thread nD τ) scM1_1 fullShare ((outsAt1 V c (n - 1) (by omega)).2.2.2.1) ∗ owns (c : Thread nD τ) scM1_2 fullShare ((outsAt1 V c (n - 1) (by omega)).2.2.2.2.1) ∗ owns (c : Thread nD τ) scM1_3 fullShare ((outsAt1 V c (n - 1) (by omega)).2.2.2.2.2)) ∗ (∃ r, prngReg c r)) := by
  cases n with
  | zero => exact absurd rfl hz
  | succ n => rfl

/-- The proof data of the attention pipeline on core `c`: the arrays as the region finds them; after the body each
    input's buffer at its block and the outputs' at `outsAt1`; the array two windows read is held by each at one
    half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q w := match w with
    | ⟨0, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point's parity says which case it is in; the
    invariant hands the body the scratch buffers at what the point before left (at anything at the first point) and takes
    them back at this point's contents; at an even point the output buffers are handed back as found, at an odd point
    they hold what the body wrote. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  by_cases h0 : t.val % 2 = 0
  · rw [Dat.leavesExact_idle (dat1 V c) 5 t (idleAt1_5_A t ((hcond1_0 t).mpr h0) (fun h => absurd ((hcond1_1 t).mp h) (by omega))) (noFlush1_5_A t ((hcond1_0 t).mpr h0) (fun h => absurd ((hcond1_1 t).mp h) (by omega)))]
    rw [Dat.leavesExact_idle (dat1 V c) 6 t (idleAt1_6_A t ((hcond1_0 t).mpr h0) (fun h => absurd ((hcond1_1 t).mp h) (by omega))) (noFlush1_6_A t ((hcond1_0 t).mpr h0) (fun h => absurd ((hcond1_1 t).mp h) (by omega)))]
    rw [outsAt1_A V c t h0]
    unfold tupA sA_0 sA_1 sA_2 sA_3; (try dsimp only)
    by_cases hz : t.val = 0
    · rw [PhiS1_castSucc V c t, PhiS1_zero V c _ _ hz, PhiA1_eq]
      iintro ⟨⟨⟨Hr0, Hr1, Hr2, Hr3, Hr4, Hr5, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [Hr0 Hr1 Hr2 Hr3 Hr4 Hr5 HS0 HS1 HS2 HS3 Hg]
      · isplitl [Hr0 Hr1 Hr2 Hr3 Hr4 Hr5 HS0 HS1 HS2 HS3]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          isplitl [HS2]
          · unfold owns; iexists _; isplitr
            swap; · iexact HS2
            ipureintro; exact View.read_writes_of_cover _ _ _ _ _ (scoverA_2 V c t h0)
          unfold owns; iexists _; isplitr
          swap; · iexact HS3
          ipureintro; exact View.read_writes_of_cover _ _ _ _ _ (scoverA_3 V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS1_castSucc V c t, PhiS1_pos V c _ _ hz]
      iintro ⟨⟨⟨Hr0, Hr1, Hr2, Hr3, Hr4, Hr5, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [Hr0 Hr1 Hr2 Hr3 Hr4 Hr5 HS0 HS1 HS2 HS3 Hg]
      · isplitl [Hr0 Hr1 Hr2 Hr3 Hr4 Hr5 HS0 HS1 HS2 HS3]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          isplitl [HS2]
          · unfold owns; iexists _; isplitr
            swap; · iexact HS2
            ipureintro; exact View.read_writes_of_cover _ _ _ _ _ (scoverA_2 V c t h0)
          unfold owns; iexists _; isplitr
          swap; · iexact HS3
          ipureintro; exact View.read_writes_of_cover _ _ _ _ _ (scoverA_3 V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · rw [show (dat1 V c).leavesExact 5 t = owns (c : Thread nD τ) (ms1_5 t) fullShare ((dat1 V c).after 5 t) from by
        unfold Dat.leavesExact; rw [liveAt1_5_B t (fun h => h0 ((hcond1_0 t).mp h)) ((hcond1_1 t).mpr (by omega))], after1_5]
    rw [show (dat1 V c).leavesExact 6 t = owns (c : Thread nD τ) (ms1_6 t) fullShare ((dat1 V c).after 6 t) from by
        unfold Dat.leavesExact; rw [liveAt1_6_B t (fun h => h0 ((hcond1_0 t).mp h)) ((hcond1_1 t).mpr (by omega))], after1_6]
    rw [outsAt1_B V c t h0]
    unfold tupB oB_5 oB_6 sB_0 sB_1 sB_2 sB_3; (try dsimp only)
    have hz : t.val ≠ 0 := fun e => h0 (by rw [e])
    rw [PhiS1_castSucc V c t, PhiS1_pos V c _ _ hz]
    iintro ⟨⟨⟨Hr0, Hr1, Hr2, Hr3, Hr4, Hr5, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((runB V c t h0 _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%e5, H5⟩, ⟨%e6, H6⟩, ⟨%es0, HS0⟩, ⟨%es1, HS1⟩, ⟨%es2, HS2⟩, ⟨%es3, HS3⟩⟩
    isplitl [Hr0 Hr1 Hr2 Hr3 Hr4 Hr5 HS0 HS1 HS2 HS3 Hg]
    · isplitl [Hr0 Hr1 Hr2 Hr3 Hr4 Hr5 HS0 HS1 HS2 HS3]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [HS0]
        · unfold owns; iexists _; isplitr
          swap; · iexact HS0
          ipureintro; exact View.read_writes_of_cover _ _ _ _ _ (scoverB_0 V c t h0 _ _ _ _)
        isplitl [HS1]
        · unfold owns; iexists _; isplitr
          swap; · iexact HS1
          ipureintro; exact View.read_writes_of_cover _ _ _ _ _ (scoverB_1 V c t h0 _ _ _ _)
        isplitl [HS2]
        · unfold owns; iexists _; isplitr
          swap; · iexact HS2
          ipureintro; exact View.read_writes_of_cover _ _ _ _ _ (scoverB_2 V c t h0 _ _ _ _)
        unfold owns; iexists _; isplitr
        swap; · iexact HS3
        ipureintro; exact View.read_writes_of_cover _ _ _ _ _ (scoverB_3 V c t h0 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB_5 V c t h0 _ _ _ _)
    unfold owns; iexists _; isplitr
    swap; · iexact H6
    ipureintro; exact View.read_writes_of_cover _ _ _ _ _ (coverB_6 V c t h0 _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Hr0, Hr1, Hr2, Hr3, Hr4, Hr5, HS0, HS1, HS2, HS3⟩, Hg⟩
  isplitl [Hr0 Hr1 Hr2 Hr3 Hr4 Hr5 HS0 HS1 HS2 HS3]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [HS0]; · iexists _; iexact HS0
    isplitl [HS1]; · iexists _; iexact HS1
    isplitl [HS2]; · iexists _; iexact HS2
    iexists _; iexact HS3
  iexact Hg

end R1

end Cert.KernelIdeal.Hand

end
-- ==== Proof.KI.Outs.lean ====
/-
  What the two regions leave in the arrays they write, named: region 0's result array after its eight write-backs,
  and region 1's two result arrays after its write-backs, each as the pipeline's proof data computes it from the
  contents the region is entered with. The contents at a region's entry are the launch memory pushed through the
  host operations before it, with the earlier region's result in place.
-/
import proofs.«430366_j13881334301213_3_alg».proof.Proof.Gen.KernelIdeal.Regions
import proofs.«430366_j13881334301213_3_alg».proof.Proof.KI.R0
import proofs.«430366_j13881334301213_3_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents region 0 is entered with: the launch memory after the first stretch of host operations. -/
abbrev E1 (c : Dev nD) (b : Ref sig .tc) : Buf (Elt F) ((c : Thread nD τ).loc b) := Gen.V1 m c b

/-- What region 0 leaves in its result array. -/
def X5 (c : Dev nD) : Buf (Elt F) ((c : Thread nD τ).loc main_v5) := (dat0 (E1 m) c).arrAt 3 cfg0.N

/-- The regions' results as far as region 1's entry needs them: region 0's result array. -/
def outsA : Gen.Outs (F := F) := fun _ r c =>
  if h : r = main_v5 then h ▸ X5 m c else m ((c : Thread nD τ).loc r)

theorem outsA_v5 (J : ℕ) (c : Dev nD) : outsA m J main_v5 c = X5 m c := by
  unfold outsA; rw [dif_pos rfl]

/-- The contents region 1 is entered with: region 0's result in place, then the second stretch of host operations. -/
abbrev E3 (c : Dev nD) (b : Ref sig .tc) : Buf (Elt F) ((c : Thread nD τ).loc b) := Gen.V3 m (outsA m) c b

/-- What region 1 leaves in its two result arrays. -/
def X10_0 (c : Dev nD) : Buf (Elt F) ((c : Thread nD τ).loc main_v10_0) := (dat1 (E3 m) c).arrAt 5 cfg1.N
def X10_1 (c : Dev nD) : Buf (Elt F) ((c : Thread nD τ).loc main_v10_1) := (dat1 (E3 m) c).arrAt 6 cfg1.N

/-- The regions' results, all three. -/
def outs : Gen.Outs (F := F) := fun _ r c =>
  if h : r = main_v5 then h ▸ X5 m c
  else if h0 : r = main_v10_0 then h0 ▸ X10_0 m c
  else if h1 : r = main_v10_1 then h1 ▸ X10_1 m c
  else m ((c : Thread nD τ).loc r)

theorem outs_v5 (J : ℕ) (c : Dev nD) : outs m J main_v5 c = X5 m c := by
  unfold outs; rw [dif_pos rfl]
theorem outs_v10_0 (J : ℕ) (c : Dev nD) : outs m J main_v10_0 c = X10_0 m c := by
  unfold outs; rw [dif_neg (by decide), dif_pos rfl]
theorem outs_v10_1 (J : ℕ) (c : Dev nD) : outs m J main_v10_1 c = X10_1 m c := by
  unfold outs; rw [dif_neg (by decide), dif_neg (by decide), dif_pos rfl]

/-- Region 1's entry contents read only region 0's result of the regions' results. -/
theorem V3_outs (c : Dev nD) : Gen.V3 m (outs m) c = Gen.V3 m (outsA m) c := by
  unfold Gen.V3 Gen.V2; rw [outs_v5, outsA_v5]

end Cert.KernelIdeal.Hand

end
-- ==== Proof.KI.Run.lean ====
/-
  The run of the whole program. @main is a stretch of host operations, region 0 (custom_call 0), a second stretch of
  host operations, and region 1 (custom_call 1). Between two items every core holds each of its unscoped buffers
  whole, at contents that are a fold from the launch memory: a host stretch applies its operations, a region replaces
  its result arrays by what its pipeline's proof data compute. Beside the buffers ride the core's generator register
  and the fact that the core owes nothing.

  Region 0's four arrays are distinct buffers: at its entry they are taken whole out of the unscoped buffers and at
  its exit they are put back. Region 1 hands ONE array to two of its windows: at its entry that array's full share is
  split in two halves, one per window, and at its exit the halves are joined again; the six distinct buffers behind
  its seven windows are otherwise handled as region 0's four.

  From the two regions' records follow the frame of the program (every argument array ends as launched) and, reading
  the last thread state also at the two result arrays, the run's results: they hold what region 1's pipeline leaves.
-/
import proofs.«430366_j13881334301213_3_alg».proof.Proof.KI.Outs
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 1's arrays: seven windows over six distinct buffers -/

/-- The six distinct buffers behind region 1's seven windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v6) ↦{fullShare} Vv main_v6) ∗ (((c : Thread nD τ).loc main_v3) ↦{fullShare} Vv main_v3)
          ∗ (((c : Thread nD τ).loc main_v8) ↦{fullShare} Vv main_v8) ∗ (((c : Thread nD τ).loc main_v9) ↦{fullShare} Vv main_v9)
          ∗ (((c : Thread nD τ).loc main_v10_0) ↦{fullShare} Vv main_v10_0) ∗ (((c : Thread nD τ).loc main_v10_1) ↦{fullShare} Vv main_v10_1)) := by
  unfold Pipeline.arrBufs
  exact bigSep_eq_bigSepL_of_eq [main_v6, main_v3, main_v8, main_v9, main_v10_0, main_v10_1] (by decide) (by decide) _

/-- Region 1's windowed arrays at a valuation's contents, for proof data that hold the array windows 0 and 2 share at
    the two halves of the full share and every other input at the full share: the seven windows' holdings one by one. -/
theorem arrays1_eq (c : Dev nD) (dat : Dat τ (Elt F) Unit ℕ (UR sig nD τ) ℕ cfg1 c)
    (hq0 : dat.q 0 = fullShare.left) (hq1 : dat.q 1 = fullShare) (hq2 : dat.q 2 = fullShare.right)
    (hq3 : dat.q 3 = fullShare) (hq4 : dat.q 4 = fullShare)
    (Vv : (b : Ref sig .tc) → Buf (Elt F) ((c : Thread nD τ).loc b)) :
    (dat.arrays (fun w => Vv (Pipeline.arrRef spec1 w)) : sProp 𝕄)
      = iprop((((c : Thread nD τ).loc main_v6) ↦{fullShare.left} Vv main_v6) ∗ (((c : Thread nD τ).loc main_v3) ↦{fullShare} Vv main_v3)
          ∗ (((c : Thread nD τ).loc main_v6) ↦{fullShare.right} Vv main_v6)
          ∗ (((c : Thread nD τ).loc main_v8) ↦{fullShare} Vv main_v8) ∗ (((c : Thread nD τ).loc main_v9) ↦{fullShare} Vv main_v9)
          ∗ (((c : Thread nD τ).loc main_v10_0) ↦{fullShare} Vv main_v10_0) ∗ (((c : Thread nD τ).loc main_v10_1) ↦{fullShare} Vv main_v10_1)) := by
  unfold Dat.arrays
  refine (bigSep_congr (Ψ := fun w : Fin 7 => (((c : Thread nD τ).loc (Pipeline.arrRef spec1 w)) ↦{dat.share w} Vv (Pipeline.arrRef spec1 w) : sProp 𝕄))
    fun w _ => by rw [(arr_whole1 w).set_eq_univ]).trans ?_
  rw [bigSep_W1]
  rw [show dat.share 0 = fullShare.left from hq0, show dat.share 1 = fullShare from hq1, show dat.share 2 = fullShare.right from hq2,
    show dat.share 3 = fullShare from hq3, show dat.share 4 = fullShare from hq4, show dat.share 5 = fullShare from rfl,
    show dat.share 6 = fullShare from rfl]

/-- The shared array's full share splits into the two windows' halves, and the halves join back: region 1's arrays at a
    valuation ARE the six distinct buffers at it. -/
theorem arrays1_iff (c : Dev nD) (dat : Dat τ (Elt F) Unit ℕ (UR sig nD τ) ℕ cfg1 c)
    (hq0 : dat.q 0 = fullShare.left) (hq1 : dat.q 1 = fullShare) (hq2 : dat.q 2 = fullShare.right)
    (hq3 : dat.q 3 = fullShare) (hq4 : dat.q 4 = fullShare)
    (Vv : (b : Ref sig .tc) → Buf (Elt F) ((c : Thread nD τ).loc b)) :
    (Pipeline.arrBufs (Ix := Unit) (Name := ℕ) (U := UR sig nD τ) (Lvl := ℕ) spec1 c Vv : sProp 𝕄)
      ⊣⊢ dat.arrays (fun w => Vv (Pipeline.arrRef spec1 w)) := by
  rw [arrBufs1_eq, arrays1_eq c dat hq0 hq1 hq2 hq3 hq4]
  constructor
  · iintro ⟨H6, H3, H8, H9, H0, H1⟩
    ihave H := (pointsTo_share (PosShare.mem_left_op_right fullShare)).1 $$ H6
    icases H with ⟨Hl, Hr⟩
    isplitl [Hl]; · iexact Hl
    isplitl [H3]; · iexact H3
    isplitl [Hr]; · iexact Hr
    isplitl [H8]; · iexact H8
    isplitl [H9]; · iexact H9
    isplitl [H0]; · iexact H0
    iexact H1
  · iintro ⟨Hl, H3, Hr, H8, H9, H0, H1⟩
    isplitl [Hl Hr]
    · iapply (pointsTo_share (PosShare.mem_left_op_right fullShare)).2
      isplitl [Hl]; · iexact Hl
      iexact Hr
    isplitl [H3]; · iexact H3
    isplitl [H8]; · iexact H8
    isplitl [H9]; · iexact H9
    isplitl [H0]; · iexact H0
    iexact H1

variable (m : (ℓ : Loc nD τ sig) → Buf (Elt F) ℓ) (ρ : Dev nD → PrngReg)

/-! ## The buffer contents at the regions' exits, read at the TensorCore's references -/

/-- The contents region 0 leaves: its entry contents with its result array at what the pipeline computed. -/
abbrev E2 (c : Dev nD) (b : Ref sig .tc) : Buf (Elt F) ((c : Thread nD τ).loc b) := Gen.V2 m (outs m) c b
/-- The contents region 1 leaves: its entry contents with its two result arrays at what the pipeline computed. -/
abbrev E4 (c : Dev nD) (b : Ref sig .tc) : Buf (Elt F) ((c : Thread nD τ).loc b) := Gen.V4 m (outs m) c b

/-- The valuations after the regions at the arrays the regions write: what the pipelines' proof data compute. -/
theorem V2_v5 (c : Dev nD) : Gen.V2 m (outs m) c main_v5 = X5 m c := by
  show Function.update (Gen.V1 m c) (Proc.devRef .tc main_v5) (outs m 2 main_v5 c) (Proc.devRef .tc main_v5) = _
  rw [Function.update_self, outs_v5]
theorem V4_v10_0 (c : Dev nD) : Gen.V4 m (outs m) c main_v10_0 = X10_0 m c := by
  show Function.update (Function.update (Gen.V3 m (outs m) c) (Proc.devRef .tc main_v10_0) (outs m 4 main_v10_0 c))
    (Proc.devRef .tc main_v10_1) (outs m 4 main_v10_1 c) (Proc.devRef .tc main_v10_0) = _
  rw [Function.update_of_ne (StableHlo.devRef_ne_of_ne (by decide : (main_v10_0 : Ref sig .tc) ≠ main_v10_1)), Function.update_self, outs_v10_0]
theorem V4_v10_1 (c : Dev nD) : Gen.V4 m (outs m) c main_v10_1 = X10_1 m c := by
  show Function.update (Function.update (Gen.V3 m (outs m) c) (Proc.devRef .tc main_v10_0) (outs m 4 main_v10_0 c))
    (Proc.devRef .tc main_v10_1) (outs m 4 main_v10_1 c) (Proc.devRef .tc main_v10_1) = _
  rw [Function.update_self, outs_v10_1]

/-- At region 0's exit each of its arrays holds what the pipeline leaves: an input what it held at entry, the
    result array its folded write-backs. -/
theorem hF0 (c : Dev nD) (w : Fin cfg0.W) : (dat0 (E1 m) c).arrAt w cfg0.N = E2 m c (Pipeline.arrRef spec0 w) :=
  match w with
  | ⟨0, _⟩ => ((dat0 (E1 m) c).arrAt_in 0 rfl _).trans (Gen.V2_of m (outs m) c main_v0 (by decide)).symm
  | ⟨1, _⟩ => ((dat0 (E1 m) c).arrAt_in 1 rfl _).trans (Gen.V2_of m (outs m) c main_v2 (by decide)).symm
  | ⟨2, _⟩ => ((dat0 (E1 m) c).arrAt_in 2 rfl _).trans (Gen.V2_of m (outs m) c main_v4 (by decide)).symm
  | ⟨3, _⟩ => (V2_v5 m c).symm
/-- Every buffer that is no array of region 0 holds at its exit what it held at its entry. -/
theorem hrest0 (c : Dev nD) : ∀ b, b ∉ Finset.univ.image (Pipeline.arrRef spec0) → E2 m c b = E1 m c b := fun b hb =>
  Gen.V2_of m (outs m) c b fun h => hb (Finset.mem_image.mpr ⟨3, Finset.mem_univ _, (List.mem_singleton.mp h).symm⟩)

/-- At region 1's exit each of its arrays holds what the pipeline leaves: an input (the shared one through either
    window) what it held at entry, each result array its folded write-backs. -/
theorem hF1 (c : Dev nD) (w : Fin cfg1.W) : (dat1 (E3 m) c).arrAt w cfg1.N = E4 m c (Pipeline.arrRef spec1 w) :=
  match w with
  | ⟨0, _⟩ => ((dat1 (E3 m) c).arrAt_in 0 rfl _).trans (((Gen.V4_of m (outs m) c main_v6 (by decide)).trans (congrFun (V3_outs m c) _)).symm)
  | ⟨1, _⟩ => ((dat1 (E3 m) c).arrAt_in 1 rfl _).trans (((Gen.V4_of m (outs m) c main_v3 (by decide)).trans (congrFun (V3_outs m c) _)).symm)
  | ⟨2, _⟩ => ((dat1 (E3 m) c).arrAt_in 2 rfl _).trans (((Gen.V4_of m (outs m) c main_v6 (by decide)).trans (congrFun (V3_outs m c) _)).symm)
  | ⟨3, _⟩ => ((dat1 (E3 m) c).arrAt_in 3 rfl _).trans (((Gen.V4_of m (outs m) c main_v8 (by decide)).trans (congrFun (V3_outs m c) _)).symm)
  | ⟨4, _⟩ => ((dat1 (E3 m) c).arrAt_in 4 rfl _).trans (((Gen.V4_of m (outs m) c main_v9 (by decide)).trans (congrFun (V3_outs m c) _)).symm)
  | ⟨5, _⟩ => (V4_v10_0 m c).symm
  | ⟨6, _⟩ => (V4_v10_1 m c).symm
/-- Every buffer that is no array of region 1 holds at its exit what it held at its entry. -/
theorem hrest1 (c : Dev nD) : ∀ b, b ∉ Finset.univ.image (Pipeline.arrRef spec1) → E4 m c b = E3 m c b := fun b hb =>
  (Gen.V4_of m (outs m) c b fun h => by
    rcases List.mem_cons.mp h with h | h
    · exact hb (Finset.mem_image.mpr ⟨5, Finset.mem_univ _, h.symm⟩)
    · exact hb (Finset.mem_image.mpr ⟨6, Finset.mem_univ _, (List.mem_singleton.mp h).symm⟩)).trans
    (congrFun (V3_outs m c) _)

/-! ## Region 1's arrays in and out of the core's unscoped buffers -/

/-- ENTRY of region 1: the core's unscoped buffers at the entry contents are the pipeline's arrays at those contents —
    the shared array's full share split between the two windows that stage it — and the buffers no window stages. -/
theorem entry1 (c : Dev nD) :
    (StableHlo.held (c : Thread nD τ) (Pipeline.ucRefs τ sig) (Gen.V3 m (outs m) c) : sProp 𝕄)
      ⊢ iprop((dat1 (E3 m) c).arrays ((dat1 (E3 m) c).arrAt · 0) ∗ Pipeline.unscopedRest spec1 c (E3 m c)) := by
  have h1 : (StableHlo.held (c : Thread nD τ) (Pipeline.ucRefs τ sig) (Gen.V3 m (outs m) c) : sProp 𝕄) = unscopedBufs c (E3 m c) := by
    rw [V3_outs m c]; exact (Pipeline.unscopedBufs_held c (Gen.V3 m (outsA m) c)).symm
  have h2 : (unscopedBufs c (E3 m c) : sProp 𝕄) = iprop(Pipeline.arrBufs spec1 c (E3 m c) ∗ Pipeline.unscopedRest spec1 c (E3 m c)) :=
    Pipeline.unscopedBufs_split₀ cfgs 1 winFacts₀1.arr_unscoped c (E3 m c)
  rw [h1, h2]
  exact sep_mono (arrays1_iff c (dat1 (E3 m) c) rfl rfl rfl rfl rfl (E3 m c)).1 .rfl

/-- EXIT of region 1: the pipeline's arrays at their final contents — the two halves of the shared array joined back —
    and the buffers no window stages are the core's unscoped buffers at the exit contents. -/
theorem exit1 (c : Dev nD) :
    iprop((dat1 (E3 m) c).arrays ((dat1 (E3 m) c).arrAt · cfg1.N) ∗ Pipeline.unscopedRest spec1 c (E3 m c))
      ⊢ (StableHlo.held (c : Thread nD τ) (Pipeline.ucRefs τ sig) (Gen.V4 m (outs m) c) : sProp 𝕄) := by
  have h1 : (StableHlo.held (c : Thread nD τ) (Pipeline.ucRefs τ sig) (Gen.V4 m (outs m) c) : sProp 𝕄) = unscopedBufs c (E4 m c) :=
    (Pipeline.unscopedBufs_held c (Gen.V4 m (outs m) c)).symm
  have h2 : (unscopedBufs c (E4 m c) : sProp 𝕄) = iprop(Pipeline.arrBufs spec1 c (E4 m c) ∗ Pipeline.unscopedRest spec1 c (E4 m c)) :=
    Pipeline.unscopedBufs_split₀ cfgs 1 winFacts₀1.arr_unscoped c (E4 m c)
  have h3 : ((dat1 (E3 m) c).arrAt · cfg1.N) = fun w => E4 m c (Pipeline.arrRef spec1 w) := funext fun w => hF1 m c w
  have h4 : (Pipeline.unscopedRest (Ix := Unit) (Name := ℕ) (U := UR sig nD τ) (Lvl := ℕ) spec1 c (E3 m c) : sProp 𝕄) = Pipeline.unscopedRest spec1 c (E4 m c) := by
    unfold Pipeline.unscopedRest
    exact bigSep_congr fun b hb => by rw [hrest1 m c b (Finset.mem_sdiff.mp hb).2]
  rw [h1, h2, h3, h4]
  exact sep_mono (arrays1_iff c (dat1 (E3 m) c) rfl rfl rfl rfl rfl (E4 m c)).2 .rfl

/-! ## The proof data family and what rides beside the buffers -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
/-- No core owes another anything: no level is assigned. -/
abbrev L : GSem nD τ sig → Finset Unit := fun _ => ∅
abbrev lv : GSem nD τ sig → Unit → ℕ := fun _ _ => 0
/-- What rides beside the buffers through every item of @main: the core's generator register at some state (a
    region's invariant takes it in and gives it back) and that the core owes nothing. -/
abbrev R (c : Dev nD) : sProp 𝕄 := iprop((∃ r, prngReg c r) ∗ ∃ W, owes (c : Thread nD τ) (0 : CellTallies nD τ sig Unit) W)
/-- The same rest state between any two items. -/
def E : Fin 3 → Dev nD → sProp 𝕄 := fun _ c => R (F := F) c

/-! ## The regions as segments -/

set_option backward.isDefEq.respectTransparency.types false in
/-- REGION 0 over the thread state: entered from every unscoped buffer at the contents after the first host stretch,
    left at those contents with its result array at what the pipeline computed. Its four arrays are distinct: they
    split out of the unscoped buffers whole and go back whole; the generator register passes through the invariant;
    nothing is owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the second host
    stretch, left at those contents with its two result arrays at what the pipeline computed. Two of its windows
    stage ONE array: at the entry that array's full share is split between them, at the exit the halves are joined
    (`entry1`, `exit1`). The invariant before the first point is the class's, and after the last point gives it back. -/
def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The launch's pieces -/

/-- The launch element is the pipeline library's, and no core holds a ghost resource. -/
theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core makes its first rest state from what the launch deals it: its generator register, and that it owes
    nothing. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  unfold E
  iintro ⟨⟨-, HO, -, Hp, -⟩, -⟩
  imodintro
  isplitl [Hp]; · iexists _; iexact Hp
  iexists ∅; iexact HO

/-- The last rest state owes nothing. -/
theorem hE2 (c : Dev nD) : E (F := F) 2 c ⊢ (iprop(∃ W, owes (c : Thread nD τ) (0 : CellTallies nD τ sig Unit) W) : sProp 𝕄) := by
  unfold E; iintro ⟨-, HO⟩; iexact HO

/-! ## The run -/

set_option backward.isDefEq.respectTransparency.types false in
/-- THE FRAME: from any memory with zero counters, every weakly fair execution of @main on the TensorCores
    terminates and every final memory has the six argument arrays as launched: the conditional frame at the regions'
    records, the regions' results being what the pipelines' proof data compute. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := E) (hE0 := hE0 ρ) (hE2 := hE2)
    (R0 := reg0 m) (hpre0 := fun _ => .rfl) (hpost0 := fun _ => .rfl)
    (R1 := reg1 m) (hpre1 := fun _ => .rfl) (hpost1 := fun _ => .rfl)

set_option backward.isDefEq.respectTransparency.types false in
/-- THE RUN WITH ITS RESULTS: as the frame, and every final memory holds in the two result arrays what region 1's
    pipeline leaves there (`X10_0`, `X10_1`): the same launch over the same segments, the last thread state read
    at the two result arrays beside the six arguments. -/
theorem run_outs : θ_run defs (onTc (τ := τ) (main (F := F))) ⟨m, fun _ => 0, ρ⟩ (fun r => ∀ c : Dev nD,
      r.2.mem ((c.tc : Thread nD τ).loc main_v10_0) = X10_0 m c
      ∧ r.2.mem ((c.tc : Thread nD τ).loc main_v10_1) = X10_1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, .rfl, .rfl, sep_mono .rfl (hE2 c)⟩)
    (hinit := ?_)
    (QY := fun c s => s.mem ((c.tc : Thread nD τ).loc main_v10_0) = X10_0 m c
      ∧ s.mem ((c.tc : Thread nD τ).loc main_v10_1) = X10_1 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held at the launch contents; the rest makes the first rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: the two result arrays and each argument's buffer read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v10_0) (Finset.mem_filter.mpr ⟨StableHlo.devRef_mem_tcRefs main_v10_0, by decide⟩)).trans (V4_v10_0 m c),
        (h (Proc.devRef .tc main_v10_1) (Finset.mem_filter.mpr ⟨StableHlo.devRef_mem_tcRefs main_v10_1, by decide⟩)).trans (V4_v10_1 m c),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c)⟩
    · iexact HSI

end Cert.KernelIdeal.Hand

end
-- ==== Proof.Spec.lean ====
/-
  The two results as functions of the six argument arrays, index by index, on the extended reals.

  With t1 = features_1 · W1ᵀ + b1 (row by row), the score of query row r against key row j of one
  batch is the inner product of t1's row r with features_2's row j; the attention weight is the
  softmax of a query's scores over all 2048 keys, written with the row maximum subtracted; the first
  result is the weighted sum of features_2's rows, the second the weighted sum of t1's rows mapped
  through W2ᵀ with b2 added.
-/
import Idealize.ShloMosaic.PureOps.Ideal
import Idealize.ShloMosaic.Lib.ValueIdx
import Mathlib.Data.EReal.Basic
import Mathlib.Algebra.BigOperators.Group.Finset.Basic

noncomputable section

namespace Cert.Spec

open Idealize.ShloMosaic Idealize.ShloMosaic.ValueIdx
open scoped BigOperators

/-- The largest of finitely many extended reals, from the bottom element. -/
def rowMax {κ : Type} [Fintype κ] (s : κ → EReal) : EReal := (Finset.univ : Finset κ).fold max ⊥ s

variable (f1 f2 : (⟨3, ![4, 2048, 1024]⟩ : Shape).Idx → EReal)
  (W1 : (⟨2, ![1024, 1024]⟩ : Shape).Idx → EReal) (b1 : (⟨1, ![1024]⟩ : Shape).Idx → EReal)
  (W2 : (⟨2, ![1024, 1024]⟩ : Shape).Idx → EReal) (b2 : (⟨1, ![1024]⟩ : Shape).Idx → EReal)

/-- t1: row r of features_1 (batch b) against row e of W1, plus b1 at e. -/
def T1 (b : Fin 4) (r : Fin 2048) (e : Fin 1024) : EReal :=
  (∑ k : Fin 1024, f1 (ix3 b r k) * W1 (ix2 e k)) + b1 (ix1 e)

/-- The score of query row r against key row j. -/
def Sc (b : Fin 4) (r j : Fin 2048) : EReal :=
  ∑ e : Fin 1024, T1 f1 W1 b1 b r e * f2 (ix3 b j e)

/-- A query row's largest score. -/
def Mx (b : Fin 4) (r : Fin 2048) : EReal := rowMax (Sc f1 f2 W1 b1 b r)

/-- The softmax's denominator. -/
def Zx (b : Fin 4) (r : Fin 2048) : EReal :=
  ∑ j : Fin 2048, Ideal.exp (Sc f1 f2 W1 b1 b r j - Mx f1 f2 W1 b1 b r)

/-- The attention weight of key j for query r. -/
def Pr (b : Fin 4) (r j : Fin 2048) : EReal :=
  Ideal.div (Ideal.exp (Sc f1 f2 W1 b1 b r j - Mx f1 f2 W1 b1 b r)) (Zx f1 f2 W1 b1 b r)

/-- The first result: features_2's rows weighted. -/
def O1 (b : Fin 4) (r : Fin 2048) (d : Fin 1024) : EReal :=
  ∑ j : Fin 2048, Pr f1 f2 W1 b1 b r j * f2 (ix3 b j d)

/-- t1's rows weighted. -/
def A2 (b : Fin 4) (r : Fin 2048) (e : Fin 1024) : EReal :=
  ∑ j : Fin 2048, Pr f1 f2 W1 b1 b r j * T1 f1 W1 b1 b j e

/-- The second result: the weighted t1 rows against row d of W2, plus b2 at d. -/
def O2 (b : Fin 4) (r : Fin 2048) (d : Fin 1024) : EReal :=
  (∑ e : Fin 1024, A2 f1 f2 W1 b1 b r e * W2 (ix2 d e)) + b2 (ix1 d)

end Cert.Spec

end
-- ==== Proof.KI.Val0.lean ====
/-
  What region 0 (the linear map t1 = features_1 · W1ᵀ + b1) leaves in its result array, and what the buffers hold
  when region 1 is entered, index by index, in terms of the six argument arrays, on the extended reals.

  The first stretch of host operations flattens features_1 to 8192 rows (row r of batch b is row b·2048 + r),
  transposes W1 and adds a unit axis to b1; narrowing is the identity on the extended reals. The region's body
  multiplies a block of 1024 rows by the whole transposed matrix into a zero accumulator and adds the bias row, so
  what a grid point writes back is its block of ONE whole-array function of the three entry arrays; the eight row
  blocks tile the result array, so the array ends holding that function: entry (b·2048 + r, e) is
  Σₖ features_1[b, r, k] · W1[e, k] + b1[e]. The second stretch reshapes the result back to [4, 2048, 1024],
  transposes W2 and adds two unit axes to b2.
-/
import proofs.«430366_j13881334301213_3_alg».proof.Proof.KI.Outs
import proofs.«430366_j13881334301213_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Lin

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The six argument arrays of core c as launched. -/
abbrev a0 (c : Dev nD) : S4x2048x1024.Idx → EReal := m ((c : Thread nD τ).loc main_arg0)
abbrev a1 (c : Dev nD) : S4x2048x1024.Idx → EReal := m ((c : Thread nD τ).loc main_arg1)
abbrev a2 (c : Dev nD) : S1024x1024.Idx → EReal := m ((c : Thread nD τ).loc main_arg2)
abbrev a3 (c : Dev nD) : S1024.Idx → EReal := m ((c : Thread nD τ).loc main_arg3)
abbrev a4 (c : Dev nD) : S1024x1024.Idx → EReal := m ((c : Thread nD τ).loc main_arg4)
abbrev a5 (c : Dev nD) : S1024.Idx → EReal := m ((c : Thread nD τ).loc main_arg5)

theorem V1_v0 (c : Dev nD) : (Gen.V1 m c main_v0 : S8192x1024.Idx → EReal) = shapeCast S8192x1024 (a0 m c) shapeCasts_S4x2048x1024_S8192x1024 := by
  show StableHlo.after hostOps0 _ (Proc.devRef .tc main_v0) = _
  simp only [Gen.hostOps0]
  after_results
  rfl

theorem V1_v2 (c : Dev nD) : (Gen.V1 m c main_v2 : S1024x1024.Idx → EReal)
    = truncf (F := Ideal) (s := S1024x1024) (φ := .f32) .bf16 (transpose S1024x1024 [1, 0] (a2 m c) transposes_S1024x1024_S1024x1024_1_0) bitsLt_bf16_f32 := by
  show StableHlo.after hostOps0 _ (Proc.devRef .tc main_v2) = _
  simp only [Gen.hostOps0]
  after_results

theorem V1_v3 (c : Dev nD) : (Gen.V1 m c main_v3 : S4x2048x1024.Idx → EReal)
    = truncf (F := Ideal) (s := S4x2048x1024) (φ := .f32) .bf16 (a1 m c) bitsLt_bf16_f32 := by
  show StableHlo.after hostOps0 _ (Proc.devRef .tc main_v3) = _
  simp only [Gen.hostOps0]
  after_results

theorem V1_v4 (c : Dev nD) : (Gen.V1 m c main_v4 : S1x1024.Idx → EReal) = shapeCast S1x1024 (a3 m c) shapeCasts_S1024_S1x1024 := by
  show StableHlo.after hostOps0 _ (Proc.devRef .tc main_v4) = _
  simp only [Gen.hostOps0]
  after_results
  rfl

/-- Row r of batch b in the flat array of 8192 rows. -/
def row8192 (b : Fin 4) (r : Fin 2048) : Fin 8192 := ⟨b.val * 2048 + r.val, by have := b.isLt; have := r.isLt; omega⟩

theorem V1_v0_apply (c : Dev nD) (b : Fin 4) (r : Fin 2048) (k : Fin 1024) :
    (Gen.V1 m c main_v0 : S8192x1024.Idx → EReal) (ix2 (row8192 b r) k) = a0 m c (ix3 b r k) := by
  rw [V1_v0]
  refine shapeCast_apply _ _ _ _ ?_
  rw [Shape.rowMajor_val_three, Shape.rowMajor_val_two]
  rfl

theorem V1_v2_apply (c : Dev nD) (k e : Fin 1024) :
    (Gen.V1 m c main_v2 : S1024x1024.Idx → EReal) (ix2 k e) = a2 m c (ix2 e k) := by
  rw [V1_v2]
  exact transpose_ix2_apply (a2 m c) transposes_S1024x1024_S1024x1024_1_0 k e

theorem V1_v3_apply (c : Dev nD) (i : S4x2048x1024.Idx) :
    (Gen.V1 m c main_v3 : S4x2048x1024.Idx → EReal) i = a1 m c i := by
  rw [V1_v3]; rfl

theorem V1_v4_apply (c : Dev nD) (u : Fin 1) (e : Fin 1024) :
    (Gen.V1 m c main_v4 : S1x1024.Idx → EReal) (ix2 u e) = a3 m c (ix1 e) := by
  rw [V1_v4]
  exact shapeCast_a_1a_apply (a3 m c) shapeCasts_S1024_S1x1024 u e

/-- The matrix product's operand indices, coordinate by coordinate. -/
theorem mm_lhs0 (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm_lhs1 (j : S1024x1024.Idx) (q : dot_S1024x1024_S1024x1024_S1024x1024_1_0_0_1_n_n.contr.Idx) : (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem mm_rhs0 (j : S1024x1024.Idx) (q : dot_S1024x1024_S1024x1024_S1024x1024_1_0_0_1_n_n.contr.Idx) : (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem mm_rhs1 (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The region's matrix product into a zero accumulator, at an entry: the sum over its one contracted axis. -/
theorem mm_at (l r : FVec Ideal S1024x1024 .bf16) (p e : Fin 1024) :
    FloatOps.matmul dot_S1024x1024_S1024x1024_S1024x1024_1_0_0_1_n_n none l r (constant S1024x1024 .f32 0x00000000#32) (ix2 p e)
      = ∑ k : Fin 1024, l (ix2 p k) * r (ix2 k e) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p e) ((contrEquiv1 dot_S1024x1024_S1024x1024_S1024x1024_1_0_0_1_n_n 1024 rfl rfl).symm k) = ix2 p k :=
    funext fun a => Fin.ext (by
      match a with
      | ⟨0, _⟩ => exact mm_lhs0 _ _
      | ⟨1, _⟩ => exact (mm_lhs1 _ _).trans hk)
  have er : dot_S1024x1024_S1024x1024_S1024x1024_1_0_0_1_n_n.rhsIdx (ix2 p e) ((contrEquiv1 dot_S1024x1024_S1024x1024_S1024x1024_1_0_0_1_n_n 1024 rfl rfl).symm k) = ix2 k e :=
    funext fun a => Fin.ext (by
      match a with
      | ⟨0, _⟩ => exact (mm_rhs0 _ _).trans hk
      | ⟨1, _⟩ => exact mm_rhs1 _ _)
  rw [el, er]

/-- The body's payload at an entry: row p of the first block against column e of the second, plus the bias row at e. -/
theorem pay1_at (x0 : Vec Ideal S1024x1024 .f32) (x1 : Vec Ideal S1024x1024 .bf16) (x2 : Vec Ideal S1x1024 .f32) (p e : Fin 1024) :
    k0_pay1 x0 x1 x2 (ix2 p e) = (∑ k : Fin 1024, x0 (ix2 p k) * x1 (ix2 k e)) + x2 (ix2 (0 : Fin 1) e) := by
  unfold k0_pay1
  simp only [shapeCast_self]
  have key : ∀ (M Bc : FVec Ideal S1024x1024 .f32), truncf (F := Ideal) (φ := .f32) .bf16 (addf M Bc) bitsLt_bf16_f32 (ix2 p e) = M (ix2 p e) + Bc (ix2 p e) := fun _ _ => rfl
  refine (key _ _).trans ?_
  exact congrArg₂ (· + ·) (mm_at _ _ p e) (broadcastTo_1b_ab_apply x2 broadcasts_S1x1024_S1024x1024 p e)

/-- Region 0's three arrays when it is entered. -/
abbrev A0 (c : Dev nD) : S8192x1024.Idx → EReal := Gen.V1 m c main_v0
abbrev W0 (c : Dev nD) : S1024x1024.Idx → EReal := Gen.V1 m c main_v2
abbrev B0 (c : Dev nD) : S1x1024.Idx → EReal := Gen.V1 m c main_v4

/-- The whole result array as one function of the three: entry (i, e) is row i of the first against column e of
    the second, plus the bias row at e. -/
def G5 (A : S8192x1024.Idx → EReal) (W : S1024x1024.Idx → EReal) (B : S1x1024.Idx → EReal) : S8192x1024.Idx → EReal :=
  fun i => (∑ k : Fin 1024, A (ix2 (i 0) k) * W (ix2 k (i 1))) + B (ix2 (0 : Fin 1) (i 1))

/-- The payload of blocks that read the three arrays where the entry's row and column say is the entry of G5. -/
theorem point_eq (A : S8192x1024.Idx → EReal) (W : S1024x1024.Idx → EReal) (B : S1x1024.Idx → EReal)
    (x0 : Vec Ideal S1024x1024 .f32) (x1 : Vec Ideal S1024x1024 .bf16) (x2 : Vec Ideal S1x1024 .f32)
    (p e : Fin 1024) (i : S8192x1024.Idx)
    (h0 : ∀ k : Fin 1024, x0 (ix2 p k) = A (ix2 (i 0) k))
    (h1 : ∀ k : Fin 1024, x1 (ix2 k e) = W (ix2 k (i 1)))
    (h2 : x2 (ix2 (0 : Fin 1) e) = B (ix2 (0 : Fin 1) (i 1))) :
    k0_pay1 x0 x1 x2 (ix2 p e) = G5 A W B i :=
  (pay1_at x0 x1 x2 p e).trans
    (congrArg₂ (· + ·) (Finset.sum_congr rfl fun k _ => congrArg₂ (· * ·) (h0 k) (h1 k)) h2)

/-- The windows' block indices over the grid: the first input moves with the output down the rows, the other two
    inputs stay at their one block, and the output's row block is the point's number. -/
theorem idx_facts5 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of G5 of the arrays the region is entered with. -/
theorem flushed5_eq (c : Dev nD) (t : Fin cfg0.N) :
    (dat0 (E1 m) c).flushed 3 t = ((cfg0.win 3).blk t).view.read (Elt Ideal) (G5 (A0 m c) (W0 m c) (B0 m c)) := by
  show (cfg0.win 3).cut (grid0.coords t) ((dat0 (E1 m) c).after 3 t) = _
  rw [after0_3, out0_3_eq]
  obtain ⟨e0, e1, e2, e3, e4, e5, e6, e7⟩ := idx_facts5 t
  funext j
  have hp : (j 0).val < 1024 := (j 0).isLt
  have he : (j 1).val < 1024 := (j 1).isLt
  show k0_pay1 (iblk0 (E1 m) c 0 t) (iblk0 (E1 m) c 1 t) (iblk0 (E1 m) c 2 t) ((cfg0.win 3).xinj (grid0.coords t) j)
    = G5 (A0 m c) (W0 m c) (B0 m c) (((cfg0.win 3).blk t).view.emb j)
  have hx : ((cfg0.win 3).xinj (grid0.coords t) j : S1024x1024.Idx) = ix2 (⟨(j 0).val, hp⟩ : Fin 1024) (⟨(j 1).val, he⟩ : Fin 1024) :=
    funext fun a => match a with | ⟨0, _⟩ => rfl | ⟨1, _⟩ => rfl
  refine (congrArg (k0_pay1 (iblk0 (E1 m) c 0 t) (iblk0 (E1 m) c 1 t) (iblk0 (E1 m) c 2 t)) hx).trans ?_
  refine point_eq (A0 m c) (W0 m c) (B0 m c) (iblk0 (E1 m) c 0 t) (iblk0 (E1 m) c 1 t) (iblk0 (E1 m) c 2 t)
    (⟨(j 0).val, hp⟩ : Fin 1024) (⟨(j 1).val, he⟩ : Fin 1024) (((cfg0.win 3).blk t).view.emb j) ?_ ?_ ?_
  · intro k
    show A0 m c (((cfg0.win 0).blk t).view.emb (ix2 (⟨(j 0).val, hp⟩ : Fin 1024) k)) = A0 m c (ix2 ((((cfg0.win 3).blk t).view.emb j) 0) k)
    refine congrArg (A0 m c) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · intro k
    show W0 m c (((cfg0.win 1).blk t).view.emb (ix2 k (⟨(j 1).val, he⟩ : Fin 1024))) = W0 m c (ix2 k ((((cfg0.win 3).blk t).view.emb j) 1))
    refine congrArg (W0 m c) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  · show B0 m c (((cfg0.win 2).blk t).view.emb (ix2 (0 : Fin 1) (⟨(j 1).val, he⟩ : Fin 1024))) = B0 m c (ix2 (0 : Fin 1) ((((cfg0.win 3).blk t).view.emb j) 1))
    refine congrArg (B0 m c) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the result array is in point t's block iff each coordinate is in the block's range on its axis. -/
theorem mem_blk5 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- The eight row blocks tile the array: row i lies in the block of point i / 1024. -/
theorem cover5 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  obtain ⟨-, -, -, -, -, -, q0, q1⟩ := idx_facts5 t
  have q0' : win0_3.index t (0 : Fin 2) = (i 0).val / 1024 := q0
  refine ⟨t, flush0_3 t, ?_⟩
  rw [mem_blk5]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- So the result array ends holding G5 of the arrays the region is entered with. -/
theorem X5_eq (c : Dev nD) : X5 m c = G5 (A0 m c) (W0 m c) (B0 m c) := by
  unfold X5
  exact (dat0 (E1 m) c).arrAt_eq_of_cover 3 (G5 (A0 m c) (W0 m c) (B0 m c)) (fun t _ => flushed5_eq m c t) cover5

/-- THE RESULT ARRAY, index by index: t1 of the first three argument arrays. -/
theorem X5_val (c : Dev nD) (b : Fin 4) (r : Fin 2048) (e : Fin 1024) :
    (X5 m c : S8192x1024.Idx → EReal) (ix2 (row8192 b r) e) = Cert.Spec.T1 (a0 m c) (a2 m c) (a3 m c) b r e := by
  rw [X5_eq]
  show (∑ k : Fin 1024, A0 m c (ix2 (row8192 b r) k) * W0 m c (ix2 k e)) + B0 m c (ix2 (0 : Fin 1) e) = _
  unfold Cert.Spec.T1
  exact congrArg₂ (· + ·) (Finset.sum_congr rfl fun k _ => congrArg₂ (· * ·) (V1_v0_apply m c b r k) (V1_v2_apply m c k e)) (V1_v4_apply m c 0 e)

/-! ## The buffers when region 1 is entered -/

/-- Region 0's result array is in place after the region. -/
theorem V2_v5 (c : Dev nD) : Gen.V2 m (outsA m) c (Proc.devRef .tc main_v5) = X5 m c := by
  exact (Function.update_self (Proc.devRef .tc main_v5) _ _).trans (outsA_v5 m 2 c)

/-- The second stretch's reshape of the result array. -/
theorem E3_v6_eq (c : Dev nD) : (E3 m c main_v6 : S4x2048x1024.Idx → EReal)
    = shapeCast S4x2048x1024 (X5 m c : S8192x1024.Idx → EReal) shapeCasts_S8192x1024_S4x2048x1024 := by
  show StableHlo.after hostOps1 _ (Proc.devRef .tc main_v6) = _
  simp only [Gen.hostOps1]
  after_results
  exact congrArg (fun X : S8192x1024.Idx → EReal => shapeCast S4x2048x1024 X shapeCasts_S8192x1024_S4x2048x1024) (V2_v5 m c)

theorem E3_v8_eq (c : Dev nD) : (E3 m c main_v8 : S1024x1024.Idx → EReal)
    = truncf (F := Ideal) (s := S1024x1024) (φ := .f32) .bf16 (transpose S1024x1024 [1, 0] (a4 m c) transposes_S1024x1024_S1024x1024_1_0) bitsLt_bf16_f32 := by
  show StableHlo.after hostOps1 _ (Proc.devRef .tc main_v8) = _
  simp only [Gen.hostOps1]
  after_results
  have h4 : Gen.V2 m (outsA m) c main_arg4 = a4 m c :=
    (Gen.V2_of m (outsA m) c main_arg4 (by decide)).trans ((Gen.V1_of m c main_arg4 (by decide)).trans rfl)
  exact congrArg (fun X : S1024x1024.Idx → EReal => truncf (F := Ideal) (s := S1024x1024) (φ := .f32) .bf16 (transpose S1024x1024 [1, 0] X transposes_S1024x1024_S1024x1024_1_0) bitsLt_bf16_f32) h4

theorem E3_v9_eq (c : Dev nD) : (E3 m c main_v9 : S1x1x1024.Idx → EReal) = shapeCast S1x1x1024 (a5 m c) shapeCasts_S1024_S1x1x1024 := by
  show StableHlo.after hostOps1 _ (Proc.devRef .tc main_v9) = _
  simp only [Gen.hostOps1]
  after_results
  have h5 : Gen.V2 m (outsA m) c main_arg5 = a5 m c :=
    (Gen.V2_of m (outsA m) c main_arg5 (by decide)).trans ((Gen.V1_of m c main_arg5 (by decide)).trans rfl)
  exact congrArg (fun X : S1024.Idx → EReal => shapeCast S1x1x1024 X shapeCasts_S1024_S1x1x1024) h5

/-- t1 as region 1 reads it: the result array by batch and row. -/
theorem E3_v6 (c : Dev nD) (b : Fin 4) (r : Fin 2048) (e : Fin 1024) :
    (E3 m c main_v6 : S4x2048x1024.Idx → EReal) (ix3 b r e) = Cert.Spec.T1 (a0 m c) (a2 m c) (a3 m c) b r e := by
  rw [E3_v6_eq]
  refine (shapeCast_apply (s := S8192x1024) (t := S4x2048x1024) (X5 m c) shapeCasts_S8192x1024_S4x2048x1024 (ix3 b r e) (ix2 (row8192 b r) e) ?_).trans (X5_val m c b r e)
  show (S8192x1024.rowMajor (ix2 (row8192 b r) e)).val = (S4x2048x1024.rowMajor (ix3 b r e)).val
  rw [Shape.rowMajor_val_three, Shape.rowMajor_val_two]
  rfl

/-- features_2 narrowed: the second argument array itself. -/
theorem E3_v3 (c : Dev nD) (b : Fin 4) (r : Fin 2048) (e : Fin 1024) :
    (E3 m c main_v3 : S4x2048x1024.Idx → EReal) (ix3 b r e) = a1 m c (ix3 b r e) := by
  have h : (E3 m c main_v3 : S4x2048x1024.Idx → EReal) = Gen.V1 m c main_v3 :=
    (Gen.V3_of m (outsA m) c main_v3 (by decide)).trans (Gen.V2_of m (outsA m) c main_v3 (by decide))
  exact (congrFun h _).trans (V1_v3_apply m c _)

/-- W2 transposed and narrowed. -/
theorem E3_v8 (c : Dev nD) (e d : Fin 1024) :
    (E3 m c main_v8 : S1024x1024.Idx → EReal) (ix2 e d) = a4 m c (ix2 d e) := by
  rw [E3_v8_eq]
  exact transpose_ix2_apply (a4 m c) transposes_S1024x1024_S1024x1024_1_0 e d

/-- b2 as a [1, 1, 1024] array. -/
theorem E3_v9 (c : Dev nD) (d : Fin 1024) :
    (E3 m c main_v9 : S1x1x1024.Idx → EReal) (ix3 (0 : Fin 1) (0 : Fin 1) d) = a5 m c (ix1 d) := by
  rw [E3_v9_eq]
  refine shapeCast_apply (a5 m c) shapeCasts_S1024_S1x1x1024 _ _ ?_
  rw [Shape.rowMajor_val_three, Shape.rowMajor_val_one]
  show d.val = (0 * 1 + 0) * 1024 + d.val
  omega

end Cert.KernelIdeal.Lin

end
-- ==== Proof.KI.Val1Blocks.lean ====
/-
  Region 1 (the attention kernel): where its blocks sit in their arrays. The grid's point t is (batch, query tile,
  key tile) = (t / 8, t / 2 % 4, t % 2). Each input block read at an index is its array at the global index; each
  result block sits at rows [512 * tile, 512 * tile + 512) of its batch; the result arrays are written back at the
  odd points only, and the odd points' blocks cover them.
-/
import proofs.«430366_j13881334301213_3_alg».proof.Proof.KI.R1Runs
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The block index maps, decided over the grid

Point `t` of the grid has coordinates (batch, query tile, key tile) = (t / 8, t / 2 % 4, t % 2). The query block and
the two result blocks sit at (batch, query tile), the key and value blocks at (batch, key tile), the last two inputs
are whole. -/

theorem idx_q : ∀ t : Fin cfg1.N, win1_0.index t (0 : Fin 3) = t.val / 8 ∧ win1_0.index t (1 : Fin 3) = t.val / 2 % 4
    ∧ win1_0.index t (2 : Fin 3) = 0 :=
  (by decide +kernel : ∀ t : Fin grid1.N, _)

theorem idx_k : ∀ t : Fin cfg1.N, win1_1.index t (0 : Fin 3) = t.val / 8 ∧ win1_1.index t (1 : Fin 3) = t.val % 2
    ∧ win1_1.index t (2 : Fin 3) = 0 :=
  (by decide +kernel : ∀ t : Fin grid1.N, _)

theorem idx_v : ∀ t : Fin cfg1.N, win1_2.index t (0 : Fin 3) = t.val / 8 ∧ win1_2.index t (1 : Fin 3) = t.val % 2
    ∧ win1_2.index t (2 : Fin 3) = 0 :=
  (by decide +kernel : ∀ t : Fin grid1.N, _)

theorem idx_w : ∀ t : Fin cfg1.N, win1_3.index t (0 : Fin 2) = 0 ∧ win1_3.index t (1 : Fin 2) = 0 :=
  (by decide +kernel : ∀ t : Fin grid1.N, _)

theorem idx_bias : ∀ t : Fin cfg1.N, win1_4.index t (0 : Fin 3) = 0 ∧ win1_4.index t (1 : Fin 3) = 0
    ∧ win1_4.index t (2 : Fin 3) = 0 :=
  (by decide +kernel : ∀ t : Fin grid1.N, _)

theorem idx_o5 : ∀ t : Fin cfg1.N, win1_5.index t (0 : Fin 3) = t.val / 8 ∧ win1_5.index t (1 : Fin 3) = t.val / 2 % 4
    ∧ win1_5.index t (2 : Fin 3) = 0 :=
  (by decide +kernel : ∀ t : Fin grid1.N, _)

theorem idx_o6 : ∀ t : Fin cfg1.N, win1_6.index t (0 : Fin 3) = t.val / 8 ∧ win1_6.index t (1 : Fin 3) = t.val / 2 % 4
    ∧ win1_6.index t (2 : Fin 3) = 0 :=
  (by decide +kernel : ∀ t : Fin grid1.N, _)

/-! ## The arrays the region reads, at their literal types -/

/-- The query array (also the second value array): the first kernel's result, [4, 2048, 1024]. -/
abbrev aQ (c : Dev nD) : FVec Ideal S4x2048x1024 .bf16 := V c main_v6
/-- The key array (also the first value array), [4, 2048, 1024]. -/
abbrev aK (c : Dev nD) : FVec Ideal S4x2048x1024 .bf16 := V c main_v3
/-- The output weights, [1024, 1024]. -/
abbrev aW (c : Dev nD) : FVec Ideal S1024x1024 .bf16 := V c main_v8
/-- The output bias, [1, 1, 1024]. -/
abbrev aB (c : Dev nD) : FVec Ideal S1x1x1024 .f32 := V c main_v9

/-! ## The input blocks, read at an index

An element of a block sits in its array, on each axis, at the block index times the block's extent plus its own
coordinate. -/

/-- The query block at point `t`, row `q`, is row `r` of batch `b` of the query array when `t` is a point of batch
    `b` and of the query tile that holds `r`. -/
theorem qblk_apply (c : Dev nD) (t : Fin cfg1.N) (b : Fin 4) (r : Fin 2048) (q : Fin 512) (e : Fin 1024)
    (hb : t.val / 8 = b.val) (hr : t.val / 2 % 4 * 512 + q.val = r.val) :
    @Eq EReal ((iblk1 V c 0 t : FVec Ideal S1x512x1024 .bf16) (ix3 0 q e)) (aQ V c (ix3 b r e)) := by
  obtain ⟨e0, e1, e2⟩ := idx_q t
  unfold iblk1
  rw [View.read_apply]
  show V c main_v6 (((cfg1.win 0).blk t).view.emb (ix3 0 q e)) = V c main_v6 (ix3 b r e)
  congr 1
  funext a
  apply Fin.ext
  match a with
  | ⟨0, _⟩ => show win1_0.index t (0 : Fin 3) * 1 + 1 * 0 = b.val; omega
  | ⟨1, _⟩ => show win1_0.index t (1 : Fin 3) * 512 + 1 * q.val = r.val; omega
  | ⟨2, _⟩ => show win1_0.index t (2 : Fin 3) * 1024 + 1 * e.val = e.val; omega

/-- The key block at point `t`, row `k`, is row `kr` of batch `b` of the key array when `t` is a point of batch `b`
    and of the key tile that holds `kr`. -/
theorem kblk_apply (c : Dev nD) (t : Fin cfg1.N) (b : Fin 4) (kr : Fin 2048) (k : Fin 1024) (e : Fin 1024)
    (hb : t.val / 8 = b.val) (hk : t.val % 2 * 1024 + k.val = kr.val) :
    @Eq EReal ((iblk1 V c 1 t : FVec Ideal S1x1024x1024 .bf16) (ix3 0 k e)) (aK V c (ix3 b kr e)) := by
  obtain ⟨e0, e1, e2⟩ := idx_k t
  unfold iblk1
  rw [View.read_apply]
  show V c main_v3 (((cfg1.win 1).blk t).view.emb (ix3 0 k e)) = V c main_v3 (ix3 b kr e)
  congr 1
  funext a
  apply Fin.ext
  match a with
  | ⟨0, _⟩ => show win1_1.index t (0 : Fin 3) * 1 + 1 * 0 = b.val; omega
  | ⟨1, _⟩ => show win1_1.index t (1 : Fin 3) * 1024 + 1 * k.val = kr.val; omega
  | ⟨2, _⟩ => show win1_1.index t (2 : Fin 3) * 1024 + 1 * e.val = e.val; omega

/-- The second value block at point `t`, row `k`, is row `kr` of batch `b` of the query array. -/
theorem vblk_apply (c : Dev nD) (t : Fin cfg1.N) (b : Fin 4) (kr : Fin 2048) (k : Fin 1024) (e : Fin 1024)
    (hb : t.val / 8 = b.val) (hk : t.val % 2 * 1024 + k.val = kr.val) :
    @Eq EReal ((iblk1 V c 2 t : FVec Ideal S1x1024x1024 .bf16) (ix3 0 k e)) (aQ V c (ix3 b kr e)) := by
  obtain ⟨e0, e1, e2⟩ := idx_v t
  unfold iblk1
  rw [View.read_apply]
  show V c main_v6 (((cfg1.win 2).blk t).view.emb (ix3 0 k e)) = V c main_v6 (ix3 b kr e)
  congr 1
  funext a
  apply Fin.ext
  match a with
  | ⟨0, _⟩ => show win1_2.index t (0 : Fin 3) * 1 + 1 * 0 = b.val; omega
  | ⟨1, _⟩ => show win1_2.index t (1 : Fin 3) * 1024 + 1 * k.val = kr.val; omega
  | ⟨2, _⟩ => show win1_2.index t (2 : Fin 3) * 1024 + 1 * e.val = e.val; omega

/-- The weight block is the whole weight array at every point. -/
theorem wblk_apply (c : Dev nD) (t : Fin cfg1.N) (e d : Fin 1024) :
    @Eq EReal ((iblk1 V c 3 t : FVec Ideal S1024x1024 .bf16) (ix2 e d)) (aW V c (ix2 e d)) := by
  obtain ⟨e0, e1⟩ := idx_w t
  unfold iblk1
  rw [View.read_apply]
  show V c main_v8 (((cfg1.win 3).blk t).view.emb (ix2 e d)) = V c main_v8 (ix2 e d)
  congr 1
  funext a
  apply Fin.ext
  match a with
  | ⟨0, _⟩ => show win1_3.index t (0 : Fin 2) * 1024 + 1 * e.val = e.val; omega
  | ⟨1, _⟩ => show win1_3.index t (1 : Fin 2) * 1024 + 1 * d.val = d.val; omega

/-- The bias block is the whole bias array at every point. -/
theorem bblk_apply (c : Dev nD) (t : Fin cfg1.N) (d : Fin 1024) :
    @Eq EReal ((iblk1 V c 4 t : FVec Ideal S1x1x1024 .f32) (ix3 0 0 d)) (aB V c (ix3 0 0 d)) := by
  obtain ⟨e0, e1, e2⟩ := idx_bias t
  unfold iblk1
  rw [View.read_apply]
  show V c main_v9 (((cfg1.win 4).blk t).view.emb (ix3 0 0 d)) = V c main_v9 (ix3 0 0 d)
  congr 1
  funext a
  apply Fin.ext
  match a with
  | ⟨0, _⟩ => show win1_4.index t (0 : Fin 3) * 1 + 1 * 0 = 0; omega
  | ⟨1, _⟩ => show win1_4.index t (1 : Fin 3) * 1 + 1 * 0 = 0; omega
  | ⟨2, _⟩ => show win1_4.index t (2 : Fin 3) * 1024 + 1 * d.val = d.val; omega

/-! ## The result blocks inside their arrays -/

/-- An element of the first result's block at point `t`, row `q`, is row `r` of batch `b` of the result array when
    `t` is a point of batch `b` and of the query tile that holds `r`. -/
theorem oblk5_emb (t : Fin cfg1.N) (b : Fin 4) (r : Fin 2048) (q : Fin 512) (d : Fin 1024)
    (hb : t.val / 8 = b.val) (hr : t.val / 2 % 4 * 512 + q.val = r.val) :
    ((cfg1.win 5).blk t).view.emb (ix3 0 q d) = (ix3 b r d : S4x2048x1024.Idx) := by
  obtain ⟨e0, e1, e2⟩ := idx_o5 t
  funext a
  apply Fin.ext
  match a with
  | ⟨0, _⟩ => show win1_5.index t (0 : Fin 3) * 1 + 1 * 0 = b.val; omega
  | ⟨1, _⟩ => show win1_5.index t (1 : Fin 3) * 512 + 1 * q.val = r.val; omega
  | ⟨2, _⟩ => show win1_5.index t (2 : Fin 3) * 1024 + 1 * d.val = d.val; omega

/-- The same for the second result's block. -/
theorem oblk6_emb (t : Fin cfg1.N) (b : Fin 4) (r : Fin 2048) (q : Fin 512) (d : Fin 1024)
    (hb : t.val / 8 = b.val) (hr : t.val / 2 % 4 * 512 + q.val = r.val) :
    ((cfg1.win 6).blk t).view.emb (ix3 0 q d) = (ix3 b r d : S4x2048x1024.Idx) := by
  obtain ⟨e0, e1, e2⟩ := idx_o6 t
  funext a
  apply Fin.ext
  match a with
  | ⟨0, _⟩ => show win1_6.index t (0 : Fin 3) * 1 + 1 * 0 = b.val; omega
  | ⟨1, _⟩ => show win1_6.index t (1 : Fin 3) * 512 + 1 * q.val = r.val; omega
  | ⟨2, _⟩ => show win1_6.index t (2 : Fin 3) * 1024 + 1 * d.val = d.val; omega

/-- An index of the first result array is in point `t`'s block iff each coordinate is in the block's range on its axis. -/
theorem mem_blk5 (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v10_0).slice (win1_5.rect t)).set ↔ _
  rw [View.set_slice_whole, Rect.mem_set_unit]
  exact Iff.rfl

/-- The same for the second result array. -/
theorem mem_blk6 (t : Fin cfg1.N) (i : S4x2048x1024.Idx) :
    i ∈ ((cfg1.win 6).blk t).view.set ↔ ∀ a : Fin 3, win1_6.index t a * S1x512x1024.size a ≤ (i a).val
      ∧ (i a).val < win1_6.index t a * S1x512x1024.size a + S1x512x1024.size a := by
  show i ∈ ((View.whole main_v10_1).slice (win1_6.rect t)).set ↔ _
  rw [View.set_slice_whole, Rect.mem_set_unit]
  exact Iff.rfl

/-! ## The cover by the points that write back

The result blocks are written back at the odd points only: the last key tile of each (batch, query tile). Row `r` of
batch `b` is in the block of the odd point of batch `b` and query tile `r / 512`. -/

/-- The odd point of batch `b` and of the query tile that holds row `r`. -/
def ptOdd (b : Fin 4) (r : Fin 2048) : Fin cfg1.N :=
  ⟨b.val * 8 + r.val / 512 * 2 + 1, by
    have hb := b.isLt
    have hr := r.isLt
    rw [show cfg1.N = 32 from N_1]
    omega⟩

theorem ptOdd_val (b : Fin 4) (r : Fin 2048) : (ptOdd b r).val = b.val * 8 + r.val / 512 * 2 + 1 := rfl

/-- Every index of the first result array is in the block of a point that writes back. -/
theorem cover5 (i : S4x2048x1024.Idx) :
    ∃ t : Fin cfg1.N, (cfg1.win 5).flush t = true ∧ i ∈ ((cfg1.win 5).blk t).view.set := by
  obtain ⟨b, r, d, rfl⟩ : ∃ (b : Fin 4) (r : Fin 2048) (d : Fin 1024), i = ix3 b r d := ⟨i 0, i 1, i 2, eq_ix3 i⟩
  have hb := b.isLt
  have hr := r.isLt
  have hd := d.isLt
  have hv := ptOdd_val b r
  obtain ⟨e0, e1, e2⟩ := idx_o5 (ptOdd b r)
  refine ⟨ptOdd b r, (flush1_5 _).mpr (by omega), ?_⟩
  rw [mem_blk5]
  intro a
  match a with
  | ⟨0, _⟩ => show win1_5.index (ptOdd b r) (0 : Fin 3) * 1 ≤ b.val ∧ b.val < win1_5.index (ptOdd b r) (0 : Fin 3) * 1 + 1; omega
  | ⟨1, _⟩ => show win1_5.index (ptOdd b r) (1 : Fin 3) * 512 ≤ r.val ∧ r.val < win1_5.index (ptOdd b r) (1 : Fin 3) * 512 + 512; omega
  | ⟨2, _⟩ => show win1_5.index (ptOdd b r) (2 : Fin 3) * 1024 ≤ d.val ∧ d.val < win1_5.index (ptOdd b r) (2 : Fin 3) * 1024 + 1024; omega

/-- Every index of the second result array is in the block of a point that writes back. -/
theorem cover6 (i : S4x2048x1024.Idx) :
    ∃ t : Fin cfg1.N, (cfg1.win 6).flush t = true ∧ i ∈ ((cfg1.win 6).blk t).view.set := by
  obtain ⟨b, r, d, rfl⟩ : ∃ (b : Fin 4) (r : Fin 2048) (d : Fin 1024), i = ix3 b r d := ⟨i 0, i 1, i 2, eq_ix3 i⟩
  have hb := b.isLt
  have hr := r.isLt
  have hd := d.isLt
  have hv := ptOdd_val b r
  obtain ⟨e0, e1, e2⟩ := idx_o6 (ptOdd b r)
  refine ⟨ptOdd b r, (flush1_6 _).mpr (by omega), ?_⟩
  rw [mem_blk6]
  intro a
  match a with
  | ⟨0, _⟩ => show win1_6.index (ptOdd b r) (0 : Fin 3) * 1 ≤ b.val ∧ b.val < win1_6.index (ptOdd b r) (0 : Fin 3) * 1 + 1; omega
  | ⟨1, _⟩ => show win1_6.index (ptOdd b r) (1 : Fin 3) * 512 ≤ r.val ∧ r.val < win1_6.index (ptOdd b r) (1 : Fin 3) * 512 + 512; omega
  | ⟨2, _⟩ => show win1_6.index (ptOdd b r) (2 : Fin 3) * 1024 ≤ d.val ∧ d.val < win1_6.index (ptOdd b r) (2 : Fin 3) * 1024 + 1024; omega

end Cert.KernelIdeal.Val

end
-- ==== Proof.KI.Val1Pieces.lean ====
/-
  Region 1 (the attention kernel): what the body leaves in its four scratch buffers and, at an odd point, in its two
  output buffers, as the payload terms of the point's input blocks. Every store of the body writes a whole buffer
  and every load reads a whole buffer, so each buffer reads back as the payload of its last store, and a load that
  follows a store of the same run reads that store's payload. At an even point the reset payloads are stored first
  and the update reads them back; at an odd point the update reads what the point before left.
-/
import proofs.«430366_j13881334301213_3_alg».proof.Proof.KI.R1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access of rank 3, and of rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-! ## The even point, on any whole memrefs

Each scratch buffer is stored twice, the reset payload and then the update's; the later store covers, and the
update's loads of the scratch buffers read the reset payloads back. -/

set_option maxHeartbeats 2000000 in
/-- The pieces an even point leaves in scratch buffer 0 (running maximum) read as the update of the reset values. -/
theorem canonA_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : cond1_0 i) (hc1 : ¬cond1_1 i) (x3 : Vec F S1x512x1024 .bf16) (x4 : Vec F S1x1024x1024 .bf16) (x5 : Vec F S1x1024x1024 .bf16) (x6 : Vec F S1024x1024 .bf16) (x7 : Vec F S1x1x1024 .f32) :
    View.canon (kernelRun1_A (F := F) c i arg3 harg3 arg4 harg4 arg5 harg5 arg6 harg6 arg7 harg7 arg8 harg8 arg9 harg9 arg10 harg10 arg11 harg11 arg12 harg12 arg13 harg13 hc0 hc1 x3 x4 x5 x6 x7).1 = k1_pay3 (k1_pay13 x3 x4 (k1_pay6 (F := F))) := by
  unfold kernelRun1_A
  dsimp only
  sl_unfold_words
  rw [View.canon_cons_unit_zero (S := S1x512x1) hz3]
  simp only [View.readAt_eq_ld, harg3.read_unread, harg4.read_unread, harg5.read_unread,
    View.ld_unit_zero (S := S1x512x1024) hz3, View.ld_unit_zero (S := S1x1024x1024) hz3, View.ld_unit_zero (S := S1x512x1) hz3,
    View.readCov_unit_zero (S := S1x512x1) _ hz3, View.readCov_unit_zero (S := S1x512x1024) _ hz3]

set_option maxHeartbeats 2000000 in
/-- The pieces an even point leaves in scratch buffer 1 (running denominator) read as the update of the reset values. -/
theorem canonA_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : cond1_0 i) (hc1 : ¬cond1_1 i) (x3 : Vec F S1x512x1024 .bf16) (x4 : Vec F S1x1024x1024 .bf16) (x5 : Vec F S1x1024x1024 .bf16) (x6 : Vec F S1024x1024 .bf16) (x7 : Vec F S1x1x1024 .f32) :
    View.canon (kernelRun1_A (F := F) c i arg3 harg3 arg4 harg4 arg5 harg5 arg6 harg6 arg7 harg7 arg8 harg8 arg9 harg9 arg10 harg10 arg11 harg11 arg12 harg12 arg13 harg13 hc0 hc1 x3 x4 x5 x6 x7).2.1 = k1_pay16 x3 x4 (k1_pay6 (F := F)) (k1_pay7 (F := F)) := by
  unfold kernelRun1_A
  dsimp only
  sl_unfold_words
  rw [View.canon_cons_unit_zero (S := S1x512x1) hz3]
  simp only [View.readAt_eq_ld, harg3.read_unread, harg4.read_unread, harg5.read_unread,
    View.ld_unit_zero (S := S1x512x1024) hz3, View.ld_unit_zero (S := S1x1024x1024) hz3, View.ld_unit_zero (S := S1x512x1) hz3,
    View.readCov_unit_zero (S := S1x512x1) _ hz3, View.readCov_unit_zero (S := S1x512x1024) _ hz3]

set_option maxHeartbeats 2000000 in
/-- The pieces an even point leaves in scratch buffer 2 (first numerator) read as the update of the reset values. -/
theorem canonA_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : cond1_0 i) (hc1 : ¬cond1_1 i) (x3 : Vec F S1x512x1024 .bf16) (x4 : Vec F S1x1024x1024 .bf16) (x5 : Vec F S1x1024x1024 .bf16) (x6 : Vec F S1024x1024 .bf16) (x7 : Vec F S1x1x1024 .f32) :
    View.canon (kernelRun1_A (F := F) c i arg3 harg3 arg4 harg4 arg5 harg5 arg6 harg6 arg7 harg7 arg8 harg8 arg9 harg9 arg10 harg10 arg11 harg11 arg12 harg12 arg13 harg13 hc0 hc1 x3 x4 x5 x6 x7).2.2.1 = k1_pay1 (k1_pay10 x4) (k1_pay14 x3 x4 (k1_pay6 (F := F))) (k1_pay17 x3 x4 (k1_pay6 (F := F))) (k1_pay8 (F := F)) := by
  unfold kernelRun1_A
  dsimp only
  sl_unfold_words
  rw [View.canon_cons_unit_zero (S := S1x512x1024) hz3]
  simp only [View.readAt_eq_ld, harg3.read_unread, harg4.read_unread, harg5.read_unread,
    View.ld_unit_zero (S := S1x512x1024) hz3, View.ld_unit_zero (S := S1x1024x1024) hz3, View.ld_unit_zero (S := S1x512x1) hz3,
    View.readCov_unit_zero (S := S1x512x1) _ hz3, View.readCov_unit_zero (S := S1x512x1024) _ hz3]

set_option maxHeartbeats 2000000 in
/-- The pieces an even point leaves in scratch buffer 3 (second numerator) read as the update of the reset values. -/
theorem canonA_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : cond1_0 i) (hc1 : ¬cond1_1 i) (x3 : Vec F S1x512x1024 .bf16) (x4 : Vec F S1x1024x1024 .bf16) (x5 : Vec F S1x1024x1024 .bf16) (x6 : Vec F S1024x1024 .bf16) (x7 : Vec F S1x1x1024 .f32) :
    View.canon (kernelRun1_A (F := F) c i arg3 harg3 arg4 harg4 arg5 harg5 arg6 harg6 arg7 harg7 arg8 harg8 arg9 harg9 arg10 harg10 arg11 harg11 arg12 harg12 arg13 harg13 hc0 hc1 x3 x4 x5 x6 x7).2.2.2.1 = k1_pay2 (k1_pay11 x5) (k1_pay14 x3 x4 (k1_pay6 (F := F))) (k1_pay17 x3 x4 (k1_pay6 (F := F))) (k1_pay9 (F := F)) := by
  unfold kernelRun1_A
  dsimp only
  sl_unfold_words
  rw [View.canon_cons_unit_zero (S := S1x512x1024) hz3]
  simp only [View.readAt_eq_ld, harg3.read_unread, harg4.read_unread, harg5.read_unread,
    View.ld_unit_zero (S := S1x512x1024) hz3, View.ld_unit_zero (S := S1x1024x1024) hz3, View.ld_unit_zero (S := S1x512x1) hz3,
    View.readCov_unit_zero (S := S1x512x1) _ hz3, View.readCov_unit_zero (S := S1x512x1024) _ hz3]

/-! ## The odd point, on any whole memrefs

No reset: each scratch buffer is stored once, over payloads that read what the point before left; the two outputs are
stored once each, over loads of the scratch buffers that follow the update's stores. -/

set_option maxHeartbeats 2000000 in
/-- The piece an odd point leaves in scratch buffer 0 (running maximum). -/
theorem canonB_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i) (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    View.canon (kernelRun1_B (F := F) c i arg3 harg3 arg4 harg4 arg5 harg5 arg6 harg6 arg7 harg7 arg8 harg8 arg9 harg9 arg10 harg10 arg11 harg11 arg12 harg12 arg13 harg13 hc0 hc1 x3 x4 x5 x6 x7 xs0 xs1 xs2 xs3).2.2.1 = k1_pay3 (k1_pay13 x3 x4 xs0) := by
  unfold kernelRun1_B
  dsimp only
  sl_unfold_words
  rw [View.canon_unit_zero (S := S1x512x1) hz3]
  simp only [View.readAt_eq_ld, harg3.read_unread, harg4.read_unread, harg5.read_unread, harg6.read_unread, harg7.read_unread,
    harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1x1x1024) hz3, View.ld_unit_zero (S := S1024x1024) hz2,
    View.readCov_unit_zero (S := S1x512x1) _ hz3, View.readCov_unit_zero (S := S1x512x1024) _ hz3]

set_option maxHeartbeats 2000000 in
/-- The piece an odd point leaves in scratch buffer 1 (running denominator). -/
theorem canonB_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i) (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    View.canon (kernelRun1_B (F := F) c i arg3 harg3 arg4 harg4 arg5 harg5 arg6 harg6 arg7 harg7 arg8 harg8 arg9 harg9 arg10 harg10 arg11 harg11 arg12 harg12 arg13 harg13 hc0 hc1 x3 x4 x5 x6 x7 xs0 xs1 xs2 xs3).2.2.2.1 = k1_pay16 x3 x4 xs0 xs1 := by
  unfold kernelRun1_B
  dsimp only
  sl_unfold_words
  rw [View.canon_unit_zero (S := S1x512x1) hz3]
  simp only [View.readAt_eq_ld, harg3.read_unread, harg4.read_unread, harg5.read_unread, harg6.read_unread, harg7.read_unread,
    harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1x1x1024) hz3, View.ld_unit_zero (S := S1024x1024) hz2,
    View.readCov_unit_zero (S := S1x512x1) _ hz3, View.readCov_unit_zero (S := S1x512x1024) _ hz3]

set_option maxHeartbeats 2000000 in
/-- The piece an odd point leaves in scratch buffer 2 (first numerator). -/
theorem canonB_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i) (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    View.canon (kernelRun1_B (F := F) c i arg3 harg3 arg4 harg4 arg5 harg5 arg6 harg6 arg7 harg7 arg8 harg8 arg9 harg9 arg10 harg10 arg11 harg11 arg12 harg12 arg13 harg13 hc0 hc1 x3 x4 x5 x6 x7 xs0 xs1 xs2 xs3).2.2.2.2.1 = k1_pay1 (k1_pay10 x4) (k1_pay14 x3 x4 xs0) (k1_pay17 x3 x4 xs0) xs2 := by
  unfold kernelRun1_B
  dsimp only
  sl_unfold_words
  rw [View.canon_unit_zero (S := S1x512x1024) hz3]
  simp only [View.readAt_eq_ld, harg3.read_unread, harg4.read_unread, harg5.read_unread, harg6.read_unread, harg7.read_unread,
    harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1x1x1024) hz3, View.ld_unit_zero (S := S1024x1024) hz2,
    View.readCov_unit_zero (S := S1x512x1) _ hz3, View.readCov_unit_zero (S := S1x512x1024) _ hz3]

set_option maxHeartbeats 2000000 in
/-- The piece an odd point leaves in scratch buffer 3 (second numerator). -/
theorem canonB_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i) (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    View.canon (kernelRun1_B (F := F) c i arg3 harg3 arg4 harg4 arg5 harg5 arg6 harg6 arg7 harg7 arg8 harg8 arg9 harg9 arg10 harg10 arg11 harg11 arg12 harg12 arg13 harg13 hc0 hc1 x3 x4 x5 x6 x7 xs0 xs1 xs2 xs3).2.2.2.2.2.1 = k1_pay2 (k1_pay11 x5) (k1_pay14 x3 x4 xs0) (k1_pay17 x3 x4 xs0) xs3 := by
  unfold kernelRun1_B
  dsimp only
  sl_unfold_words
  rw [View.canon_unit_zero (S := S1x512x1024) hz3]
  simp only [View.readAt_eq_ld, harg3.read_unread, harg4.read_unread, harg5.read_unread, harg6.read_unread, harg7.read_unread,
    harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1x1x1024) hz3, View.ld_unit_zero (S := S1024x1024) hz2,
    View.readCov_unit_zero (S := S1x512x1) _ hz3, View.readCov_unit_zero (S := S1x512x1024) _ hz3]

set_option maxHeartbeats 2000000 in
/-- The piece an odd point leaves in the first output's buffer (the first numerator over the denominator). -/
theorem canonB_5 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i) (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    View.canon (kernelRun1_B (F := F) c i arg3 harg3 arg4 harg4 arg5 harg5 arg6 harg6 arg7 harg7 arg8 harg8 arg9 harg9 arg10 harg10 arg11 harg11 arg12 harg12 arg13 harg13 hc0 hc1 x3 x4 x5 x6 x7 xs0 xs1 xs2 xs3).1 = k1_pay4 (k1_pay16 x3 x4 xs0 xs1) (k1_pay1 (k1_pay10 x4) (k1_pay14 x3 x4 xs0) (k1_pay17 x3 x4 xs0) xs2) := by
  unfold kernelRun1_B
  dsimp only
  sl_unfold_words
  rw [View.canon_unit_zero (S := S1x512x1024) hz3]
  simp only [View.readAt_eq_ld, harg3.read_unread, harg4.read_unread, harg5.read_unread, harg6.read_unread, harg7.read_unread,
    harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1x1x1024) hz3, View.ld_unit_zero (S := S1024x1024) hz2,
    View.readCov_unit_zero (S := S1x512x1) _ hz3, View.readCov_unit_zero (S := S1x512x1024) _ hz3]

set_option maxHeartbeats 2000000 in
/-- The piece an odd point leaves in the second output's buffer (the second numerator over the denominator, projected, plus the bias). -/
theorem canonB_6 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1 .f32) (harg10 : arg10.IsWhole) (arg11 : Memref sig .tc .vmem S1x512x1 .f32) (harg11 : arg11.IsWhole) (arg12 : Memref sig .tc .vmem S1x512x1024 .f32) (harg12 : arg12.IsWhole) (arg13 : Memref sig .tc .vmem S1x512x1024 .f32) (harg13 : arg13.IsWhole) (hc0 : ¬cond1_0 i) (hc1 : cond1_1 i) (x3 : Vec F S1x512x1024 .bf16) (x4 : Vec F S1x1024x1024 .bf16) (x5 : Vec F S1x1024x1024 .bf16) (x6 : Vec F S1024x1024 .bf16) (x7 : Vec F S1x1x1024 .f32) (xs0 xs1 : Vec F S1x512x1 .f32) (xs2 xs3 : Vec F S1x512x1024 .f32) :
    View.canon (kernelRun1_B (F := F) c i arg3 harg3 arg4 harg4 arg5 harg5 arg6 harg6 arg7 harg7 arg8 harg8 arg9 harg9 arg10 harg10 arg11 harg11 arg12 harg12 arg13 harg13 hc0 hc1 x3 x4 x5 x6 x7 xs0 xs1 xs2 xs3).2.1 = k1_pay5 (k1_pay16 x3 x4 xs0 xs1) (k1_pay2 (k1_pay11 x5) (k1_pay14 x3 x4 xs0) (k1_pay17 x3 x4 xs0) xs3) x6 x7 := by
  unfold kernelRun1_B
  dsimp only
  sl_unfold_words
  rw [View.canon_unit_zero (S := S1x512x1024) hz3]
  simp only [View.readAt_eq_ld, harg3.read_unread, harg4.read_unread, harg5.read_unread, harg6.read_unread, harg7.read_unread,
    harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1x1x1024) hz3, View.ld_unit_zero (S := S1024x1024) hz2,
    View.readCov_unit_zero (S := S1x512x1) _ hz3, View.readCov_unit_zero (S := S1x512x1024) _ hz3]

/-! ## At the grid's points -/

section Pieces
variable (V : (c : Dev nD) → (b : Ref sig .tc) → Buf (Elt F) ((c : Thread nD τ).loc b))

set_option maxHeartbeats 2000000 in
/-- After an even point scratch buffer 0 holds the running maximum of the reset values updated by the point's blocks. -/
theorem sA_0_eq (c : Dev nD) (t : Fin cfg1.N) (h0 : t.val % 2 = 0) :
    sA_0 V c t h0 = k1_pay3 (k1_pay13 (iblk1 V c 0 t) (iblk1 V c 1 t) (k1_pay6 (F := F))) := by
  unfold sA_0
  rw [View.read_writes_eq_canon _ _ _ (scoverA_0 V c t h0)]
  unfold runA
  exact canonA_0 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)

set_option maxHeartbeats 2000000 in
/-- After an even point scratch buffer 1 holds the running denominator of the reset values updated by the point's blocks. -/
theorem sA_1_eq (c : Dev nD) (t : Fin cfg1.N) (h0 : t.val % 2 = 0) :
    sA_1 V c t h0 = k1_pay16 (iblk1 V c 0 t) (iblk1 V c 1 t) (k1_pay6 (F := F)) (k1_pay7 (F := F)) := by
  unfold sA_1
  rw [View.read_writes_eq_canon _ _ _ (scoverA_1 V c t h0)]
  unfold runA
  exact canonA_1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)

set_option maxHeartbeats 2000000 in
/-- After an even point scratch buffer 2 holds the first running numerator of the reset values updated by the point's blocks. -/
theorem sA_2_eq (c : Dev nD) (t : Fin cfg1.N) (h0 : t.val % 2 = 0) :
    sA_2 V c t h0 = k1_pay1 (k1_pay10 (iblk1 V c 1 t)) (k1_pay14 (iblk1 V c 0 t) (iblk1 V c 1 t) (k1_pay6 (F := F))) (k1_pay17 (iblk1 V c 0 t) (iblk1 V c 1 t) (k1_pay6 (F := F))) (k1_pay8 (F := F)) := by
  unfold sA_2
  rw [View.read_writes_eq_canon _ _ _ (scoverA_2 V c t h0)]
  unfold runA
  exact canonA_2 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)

set_option maxHeartbeats 2000000 in
/-- After an even point scratch buffer 3 holds the second running numerator of the reset values updated by the point's blocks. -/
theorem sA_3_eq (c : Dev nD) (t : Fin cfg1.N) (h0 : t.val % 2 = 0) :
    sA_3 V c t h0 = k1_pay2 (k1_pay11 (iblk1 V c 2 t)) (k1_pay14 (iblk1 V c 0 t) (iblk1 V c 1 t) (k1_pay6 (F := F))) (k1_pay17 (iblk1 V c 0 t) (iblk1 V c 1 t) (k1_pay6 (F := F))) (k1_pay9 (F := F)) := by
  unfold sA_3
  rw [View.read_writes_eq_canon _ _ _ (scoverA_3 V c t h0)]
  unfold runA
  exact canonA_3 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)

set_option maxHeartbeats 2000000 in
/-- After an odd point scratch buffer 0 holds the running maximum of the previous contents updated by the point's blocks. -/
theorem sB_0_eq (c : Dev nD) (t : Fin cfg1.N) (h0 : ¬t.val % 2 = 0) (xs0 xs1 : Vec F S1x512x1 .f32) (xs2 xs3 : Vec F S1x512x1024 .f32) :
    sB_0 V c t h0 xs0 xs1 xs2 xs3 = k1_pay3 (k1_pay13 (iblk1 V c 0 t) (iblk1 V c 1 t) xs0) := by
  unfold sB_0
  rw [View.read_writes_eq_canon _ _ _ (scoverB_0 V c t h0 xs0 xs1 xs2 xs3)]
  unfold runB
  exact canonB_0 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

set_option maxHeartbeats 2000000 in
/-- After an odd point scratch buffer 1 holds the running denominator of the previous contents updated by the point's blocks. -/
theorem sB_1_eq (c : Dev nD) (t : Fin cfg1.N) (h0 : ¬t.val % 2 = 0) (xs0 xs1 : Vec F S1x512x1 .f32) (xs2 xs3 : Vec F S1x512x1024 .f32) :
    sB_1 V c t h0 xs0 xs1 xs2 xs3 = k1_pay16 (iblk1 V c 0 t) (iblk1 V c 1 t) xs0 xs1 := by
  unfold sB_1
  rw [View.read_writes_eq_canon _ _ _ (scoverB_1 V c t h0 xs0 xs1 xs2 xs3)]
  unfold runB
  exact canonB_1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

set_option maxHeartbeats 2000000 in
/-- After an odd point scratch buffer 2 holds the first running numerator of the previous contents updated by the point's blocks. -/
theorem sB_2_eq (c : Dev nD) (t : Fin cfg1.N) (h0 : ¬t.val % 2 = 0) (xs0 xs1 : Vec F S1x512x1 .f32) (xs2 xs3 : Vec F S1x512x1024 .f32) :
    sB_2 V c t h0 xs0 xs1 xs2 xs3 = k1_pay1 (k1_pay10 (iblk1 V c 1 t)) (k1_pay14 (iblk1 V c 0 t) (iblk1 V c 1 t) xs0) (k1_pay17 (iblk1 V c 0 t) (iblk1 V c 1 t) xs0) xs2 := by
  unfold sB_2
  rw [View.read_writes_eq_canon _ _ _ (scoverB_2 V c t h0 xs0 xs1 xs2 xs3)]
  unfold runB
  exact canonB_2 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

set_option maxHeartbeats 2000000 in
/-- After an odd point scratch buffer 3 holds the second running numerator of the previous contents updated by the point's blocks. -/
theorem sB_3_eq (c : Dev nD) (t : Fin cfg1.N) (h0 : ¬t.val % 2 = 0) (xs0 xs1 : Vec F S1x512x1 .f32) (xs2 xs3 : Vec F S1x512x1024 .f32) :
    sB_3 V c t h0 xs0 xs1 xs2 xs3 = k1_pay2 (k1_pay11 (iblk1 V c 2 t)) (k1_pay14 (iblk1 V c 0 t) (iblk1 V c 1 t) xs0) (k1_pay17 (iblk1 V c 0 t) (iblk1 V c 1 t) xs0) xs3 := by
  unfold sB_3
  rw [View.read_writes_eq_canon _ _ _ (scoverB_3 V c t h0 xs0 xs1 xs2 xs3)]
  unfold runB
  exact canonB_3 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

set_option maxHeartbeats 2000000 in
/-- After an odd point the first output's buffer holds the updated first numerator divided by the updated denominator. -/
theorem oB_5_eq (c : Dev nD) (t : Fin cfg1.N) (h0 : ¬t.val % 2 = 0) (xs0 xs1 : Vec F S1x512x1 .f32) (xs2 xs3 : Vec F S1x512x1024 .f32) :
    oB_5 V c t h0 xs0 xs1 xs2 xs3 = k1_pay4 (k1_pay16 (iblk1 V c 0 t) (iblk1 V c 1 t) xs0 xs1) (k1_pay1 (k1_pay10 (iblk1 V c 1 t)) (k1_pay14 (iblk1 V c 0 t) (iblk1 V c 1 t) xs0) (k1_pay17 (iblk1 V c 0 t) (iblk1 V c 1 t) xs0) xs2) := by
  unfold oB_5
  rw [View.read_writes_eq_canon _ _ _ (coverB_5 V c t h0 xs0 xs1 xs2 xs3)]
  unfold runB
  exact canonB_5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

set_option maxHeartbeats 2000000 in
/-- After an odd point the second output's buffer holds the updated second numerator divided by the updated denominator, projected, plus the bias. -/
theorem oB_6_eq (c : Dev nD) (t : Fin cfg1.N) (h0 : ¬t.val % 2 = 0) (xs0 xs1 : Vec F S1x512x1 .f32) (xs2 xs3 : Vec F S1x512x1024 .f32) :
    oB_6 V c t h0 xs0 xs1 xs2 xs3 = k1_pay5 (k1_pay16 (iblk1 V c 0 t) (iblk1 V c 1 t) xs0 xs1) (k1_pay2 (k1_pay11 (iblk1 V c 2 t)) (k1_pay14 (iblk1 V c 0 t) (iblk1 V c 1 t) xs0) (k1_pay17 (iblk1 V c 0 t) (iblk1 V c 1 t) xs0) xs3) (iblk1 V c 3 t) (iblk1 V c 4 t) := by
  unfold oB_6
  rw [View.read_writes_eq_canon _ _ _ (coverB_6 V c t h0 xs0 xs1 xs2 xs3)]
  unfold runB
  exact canonB_6 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr (by omega)) (iblk1 V c 0 t) (iblk1 V c 1 t) (iblk1 V c 2 t) (iblk1 V c 3 t) (iblk1 V c 4 t) xs0 xs1 xs2 xs3

end Pieces

end Cert.KernelIdeal.Hand

end
-- ==== Proof.LibIdealReal.lean ====
/-
  Finiteness of the extended reals a graph convolution computes.

  At the ideal float values every float is an extended real.  `IsReal x` says `x` is
  the image of a real number; the lemmas below show that the operations the network uses
  (sum, product, difference, maximum, division by a positive real, the reciprocal square
  root of a positive real, the exponential, `exp - 1`, a selection between two reals, a
  change of format) carry reals to reals, so that distributivity, which fails at the
  infinities, is available along the whole computation.
-/
import Idealize.ShloMosaic.PureOps.Ideal
import Idealize.ShloMosaic.PureOps.Ideal.Laws

namespace IdealReal

open Idealize.ShloMosaic
open scoped BigOperators

/-- An extended real that is a real number. -/
def IsReal (x : EReal) : Prop := ∃ r : ℝ, x = r

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem isReal_coe (r : ℝ) : IsReal (r : EReal) := ⟨r, rfl⟩

theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

/-- A real is its own `toReal`. -/
theorem IsReal.coe_toReal {x : EReal} (h : IsReal x) : ((x.toReal : ℝ) : EReal) = x := by
  obtain ⟨r, rfl⟩ := h
  rw [EReal.toReal_coe]

theorem isReal_zero : IsReal 0 := ⟨0, rfl⟩
theorem isReal_one : IsReal 1 := ⟨1, rfl⟩

/-! ## The arithmetic of `EReal` -/

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {x y : EReal} (p : Prop) [Decidable p] (hx : IsReal x) (hy : IsReal y) :
    IsReal (if p then x else y) := by
  split_ifs <;> assumption

/-- A finite sum of reals is a real. -/
theorem IsReal.sum {ι : Type*} (s : Finset ι) (f : ι → EReal) (hf : ∀ i ∈ s, IsReal (f i)) :
    IsReal (∑ i ∈ s, f i) := by
  refine ⟨∑ i ∈ s, (f i).toReal, ?_⟩
  rw [coe_finset_sum]
  exact Finset.sum_congr rfl fun i hi => ((hf i hi).coe_toReal).symm

/-- A finite sum of products of reals is a real. -/
theorem IsReal.sum_mul {ι : Type*} (s : Finset ι) (f g : ι → EReal) (hf : ∀ i ∈ s, IsReal (f i))
    (hg : ∀ i ∈ s, IsReal (g i)) : IsReal (∑ i ∈ s, f i * g i) := by
  exact IsReal.sum s _ fun i hi => (hf i hi).mul (hg i hi)

/-- A count, a finite sum of ones, is the cardinality as a real. -/
theorem sum_one_eq_card {ι : Type*} (s : Finset ι) : (∑ _i ∈ s, (1 : EReal)) = ((s.card : ℝ) : EReal) := by
  have h := coe_finset_sum s (fun _ => (1 : ℝ))
  rw [Finset.sum_const, nsmul_eq_mul, mul_one] at h
  rw [h]
  exact Finset.sum_congr rfl fun _ _ => EReal.coe_one.symm

/-- An initial real plus a count is a real at least the initial value. -/
theorem add_sum_one_eq {ι : Type*} (s : Finset ι) (c : ℝ) :
    (c : EReal) + ∑ _i ∈ s, (1 : EReal) = ((c + s.card : ℝ) : EReal) := by
  rw [sum_one_eq_card, ← EReal.coe_add]

/-! ## The fields of the ideal instance, at a scalar -/

section Fields
variable {φ : FTy} {x y : Ideal φ}

theorem IsReal.addf (hx : IsReal x) (hy : IsReal y) : IsReal (FloatOps.addf x y) := hx.add hy
theorem IsReal.subf (hx : IsReal x) (hy : IsReal y) : IsReal (FloatOps.subf x y) := hx.sub hy
theorem IsReal.mulf (hx : IsReal x) (hy : IsReal y) : IsReal (FloatOps.mulf x y) := hx.mul hy
theorem IsReal.maximumf (hx : IsReal x) (hy : IsReal y) : IsReal (FloatOps.maximumf x y) := hx.max hy
theorem IsReal.minimumf (hx : IsReal x) (hy : IsReal y) : IsReal (FloatOps.minimumf x y) := hx.min hy
theorem IsReal.negf (hx : IsReal x) : IsReal (FloatOps.negf x) := hx.neg
theorem IsReal.extf (ψ : FTy) (h : φ.bits < ψ.bits) (hx : IsReal x) :
    IsReal (FloatOps.extf (F := Ideal) ψ h x) := hx
theorem IsReal.truncf (ψ : FTy) (h : ψ.bits < φ.bits) (hx : IsReal x) :
    IsReal (FloatOps.truncf (F := Ideal) ψ h x) := hx

end Fields

/-! ## Division by a real that is not zero -/

/-- The quotient of two reals, the divisor not zero, is the real quotient. -/
theorem div_coe_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem IsReal.div_of_ne_zero {x y : EReal} (hx : IsReal x) (hy : ∃ r : ℝ, r ≠ 0 ∧ y = r) :
    IsReal (Ideal.div x y) := by
  obtain ⟨a, rfl⟩ := hx
  obtain ⟨b, hb, rfl⟩ := hy
  exact ⟨a / b, div_coe_coe a hb⟩

theorem IsReal.div_of_pos {x y : EReal} (hx : IsReal x) (hy : ∃ r : ℝ, 0 < r ∧ y = r) :
    IsReal (Ideal.div x y) := by
  obtain ⟨b, hb, rfl⟩ := hy
  exact hx.div_of_ne_zero ⟨b, hb.ne', rfl⟩

theorem IsReal.hostDivf {φ : FTy} {x y : Ideal φ} (hx : IsReal x) (hy : ∃ r : ℝ, 0 < r ∧ y = r) :
    IsReal (FloatOps.hostDivf x y) := hx.div_of_pos hy

theorem IsReal.divf {φ : FTy} {x y : Ideal φ} (hx : IsReal x) (hy : ∃ r : ℝ, 0 < r ∧ y = r) :
    IsReal (FloatOps.divf x y) := hx.div_of_pos hy

/-! ## The reciprocal square root of a positive real -/

/-- At a positive real the reciprocal square root is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- `(√r)⁻¹` is positive for positive `r`. -/
theorem inv_sqrt_pos {r : ℝ} (hr : 0 < r) : 0 < (Real.sqrt r)⁻¹ := by
  exact inv_pos.mpr (Real.sqrt_pos.mpr hr)

theorem isReal_rsqrt_of_pos {x : EReal} (hx : ∃ r : ℝ, 0 < r ∧ x = r) : IsReal (Ideal.rsqrt x) := by
  obtain ⟨r, hr, rfl⟩ := hx
  exact ⟨_, rsqrt_coe_of_pos hr⟩

/-- The reciprocal square root of a real at least one is a positive real. -/
theorem rsqrt_pos_real_of_one_le {x : EReal} (hx : ∃ r : ℝ, 1 ≤ r ∧ x = r) :
    ∃ q : ℝ, 0 < q ∧ Ideal.rsqrt x = q := by
  obtain ⟨r, hr, rfl⟩ := hx
  have h0 : 0 < r := lt_of_lt_of_le one_pos hr
  exact ⟨_, inv_sqrt_pos h0, rsqrt_coe_of_pos h0⟩

theorem isReal_hostRsqrt_of_pos {φ : FTy} {x : Ideal φ} (hx : ∃ r : ℝ, 0 < r ∧ x = r) :
    IsReal (FloatOps.hostUnary .rsqrt x) := isReal_rsqrt_of_pos hx

theorem isReal_rsqrtf_of_pos {φ : FTy} {x : Ideal φ} (hx : ∃ r : ℝ, 0 < r ∧ x = r) :
    IsReal (FloatOps.rsqrt x) := isReal_rsqrt_of_pos hx

/-! ## The exponential and `exp - 1` -/

theorem IsReal.exp {x : EReal} (hx : IsReal x) : IsReal (Ideal.exp x) := by
  obtain ⟨r, rfl⟩ := hx
  exact ⟨Real.exp r, rfl⟩

/-- The exponential of a real is a positive real. -/
theorem exp_pos_real {x : EReal} (hx : IsReal x) : ∃ q : ℝ, 0 < q ∧ Ideal.exp x = q := by
  obtain ⟨r, rfl⟩ := hx
  exact ⟨Real.exp r, Real.exp_pos r, rfl⟩

theorem IsReal.expm1 {x : EReal} (hx : IsReal x) : IsReal (Ideal.expm1 x) := by
  exact hx.exp.sub isReal_one

theorem IsReal.hostExp {φ : FTy} {x : Ideal φ} (hx : IsReal x) : IsReal (FloatOps.hostUnary .exp x) := hx.exp
theorem IsReal.expf {φ : FTy} {x : Ideal φ} (hx : IsReal x) : IsReal (FloatOps.exp x) := hx.exp
theorem IsReal.hostExpm1 {φ : FTy} {x : Ideal φ} (hx : IsReal x) : IsReal (FloatOps.hostUnary .expm1 x) := hx.expm1

/-! ## Selection -/

theorem IsReal.select {x y : EReal} (c : BitVec 1) (hx : IsReal x) (hy : IsReal y) :
    IsReal (Scalar.select c x y) := by
  unfold Scalar.select
  split_ifs <;> assumption

/-- A selection on a comparison of floats. -/
theorem IsReal.select_cmpf {φ : FTy} (p : CmpFPredicate) (a b : Ideal φ) {x y : EReal} (hx : IsReal x) (hy : IsReal y) :
    IsReal (Scalar.select (FloatOps.cmpf p a b) x y) := hx.select _ hy

/-! ## Literals -/

theorem ofBits_f32_zero : Ideal.ofBits .f32 0x00000000#32 = 0 := Ideal.ofBits_zero_f32

theorem ofBits_f32_one : Ideal.ofBits .f32 0x3F800000#32 = 1 := by
  simp [Ideal.ofBits, Ideal.ieee]
  rw [← EReal.coe_mul]
  norm_num

theorem ofBits_bf16_zero : Ideal.ofBits .bf16 0x0000#16 = 0 := by
  simp [Ideal.ofBits, Ideal.ieee]

theorem isReal_ofBits_f32_zero : IsReal (Ideal.ofBits .f32 0x00000000#32) := ofBits_f32_zero ▸ isReal_zero
theorem isReal_ofBits_f32_one : IsReal (Ideal.ofBits .f32 0x3F800000#32) := ofBits_f32_one ▸ isReal_one
theorem isReal_ofBits_bf16_zero : IsReal (Ideal.ofBits .bf16 0x0000#16) := ofBits_bf16_zero ▸ isReal_zero

end IdealReal
-- ==== Proof.LibIdealPos.lean ====
/-
  Positive reals among the extended reals.

  `IsPos x` says the extended real `x` is a positive real number.  Sums, products and
  quotients of positive reals are positive reals; the exponential of a real is one; so is the
  reciprocal square root of a real at least one; and the maximum of a real with one is a real
  at least one.  These carry a degree count through `max · 1` and the reciprocal square root
  to a positive edge weight, and a softmax's denominator to a positive real.
-/
import proofs.«430366_j13881334301213_3_alg».proof.Proof.LibIdealReal

namespace IdealReal

open Idealize.ShloMosaic
open scoped BigOperators

/-- An extended real that is a positive real number. -/
def IsPos (x : EReal) : Prop := ∃ q : ℝ, 0 < q ∧ x = q

theorem IsPos.isReal {x : EReal} (h : IsPos x) : IsReal x := by
  obtain ⟨q, _, rfl⟩ := h
  exact ⟨q, rfl⟩

theorem isPos_coe {q : ℝ} (hq : 0 < q) : IsPos (q : EReal) := ⟨q, hq, rfl⟩

theorem isPos_one : IsPos 1 := ⟨1, one_pos, rfl⟩

theorem IsPos.pos {x : EReal} (h : IsPos x) : 0 < x := by
  obtain ⟨q, hq, rfl⟩ := h
  exact EReal.coe_pos.mpr hq

theorem IsPos.ne_zero {x : EReal} (h : IsPos x) : x ≠ 0 := h.pos.ne'

theorem IsPos.add {x y : EReal} (hx : IsPos x) (hy : IsPos y) : IsPos (x + y) := by
  obtain ⟨a, ha, rfl⟩ := hx
  obtain ⟨b, hb, rfl⟩ := hy
  exact ⟨a + b, add_pos ha hb, (EReal.coe_add a b).symm⟩

theorem IsPos.mul {x y : EReal} (hx : IsPos x) (hy : IsPos y) : IsPos (x * y) := by
  obtain ⟨a, ha, rfl⟩ := hx
  obtain ⟨b, hb, rfl⟩ := hy
  exact ⟨a * b, mul_pos ha hb, (EReal.coe_mul a b).symm⟩

/-- Zero plus a positive real, the shape of a sum started from a zero accumulator. -/
theorem IsPos.zero_add {x : EReal} (hx : IsPos x) : IsPos (0 + x) := by
  rw [_root_.zero_add]; exact hx

/-- A sum of positive reals over a set that is not empty is a positive real. -/
theorem IsPos.sum {ι : Type*} (s : Finset ι) (hs : s.Nonempty) (f : ι → EReal)
    (hf : ∀ i ∈ s, IsPos (f i)) : IsPos (∑ i ∈ s, f i) := by
  refine ⟨∑ i ∈ s, (f i).toReal, ?_, ?_⟩
  · refine Finset.sum_pos (fun i hi => ?_) hs
    obtain ⟨q, hq, hqe⟩ := hf i hi
    rw [hqe, EReal.toReal_coe]; exact hq
  · rw [coe_finset_sum]
    exact Finset.sum_congr rfl fun i hi => ((hf i hi).isReal.coe_toReal).symm

/-- The quotient of two positive reals is a positive real. -/
theorem IsPos.div {x y : EReal} (hx : IsPos x) (hy : IsPos y) : IsPos (Ideal.div x y) := by
  obtain ⟨a, ha, rfl⟩ := hx
  obtain ⟨b, hb, rfl⟩ := hy
  exact ⟨a / b, div_pos ha hb, div_coe_coe a hb.ne'⟩

/-- The quotient of a real by a positive real is a real. -/
theorem IsReal.div_isPos {x y : EReal} (hx : IsReal x) (hy : IsPos y) : IsReal (Ideal.div x y) :=
  hx.div_of_pos hy

/-- The exponential of a real is a positive real. -/
theorem IsReal.isPos_exp {x : EReal} (hx : IsReal x) : IsPos (Ideal.exp x) := exp_pos_real hx

/-- The maximum of a real with one is a real at least one. -/
theorem one_le_max_one_of_isReal {x : EReal} (hx : IsReal x) : ∃ r : ℝ, 1 ≤ r ∧ max x 1 = r := by
  obtain ⟨a, rfl⟩ := hx
  refine ⟨max a 1, le_max_right a 1, ?_⟩
  rcases le_total a 1 with h | h
  · rw [max_eq_right h, max_eq_right (by exact_mod_cast h)]; rfl
  · rw [max_eq_left h, max_eq_left (by exact_mod_cast h)]

/-- The same with the one on the left. -/
theorem one_le_one_max_of_isReal {x : EReal} (hx : IsReal x) : ∃ r : ℝ, 1 ≤ r ∧ max 1 x = r := by
  rw [max_comm]; exact one_le_max_one_of_isReal hx

/-- The reciprocal square root of a real at least one is a positive real. -/
theorem isPos_rsqrt_of_one_le {x : EReal} (hx : ∃ r : ℝ, 1 ≤ r ∧ x = r) : IsPos (Ideal.rsqrt x) :=
  rsqrt_pos_real_of_one_le hx

/-- The reciprocal square root of the maximum of a real with one is a positive real: a degree
    count clamped below by one, then inverted. -/
theorem isPos_rsqrt_max_one {x : EReal} (hx : IsReal x) : IsPos (Ideal.rsqrt (max x 1)) :=
  isPos_rsqrt_of_one_le (one_le_max_one_of_isReal hx)

/-- The maximum against the bottom element is the other operand: a maximum folded from `-∞`. -/
theorem isReal_max_bot_left {x : EReal} (hx : IsReal x) : IsReal (max ⊥ x) := by
  rw [max_eq_right bot_le]; exact hx

end IdealReal
-- ==== Proof.Math.lean ====
/-
  The two-block online softmax equals the softmax.

  A row of attention keeps a running maximum m, a running denominator l and running numerators
  acc.  A block of keys with scores s and values v updates them by
    m' = max m (max s),  l' = e^(m - m') l + Σ e^(s k - m'),  acc' = e^(m - m') acc + Σ e^(s k - m') v k.
  Started from a finite m with l = 0 and acc = 0 and run over two blocks, acc / l is the softmax of
  all the scores applied to all the values, written with the overall maximum M subtracted:
    Σ (e^(s0 k - M) / Z) v0 k + Σ (e^(s1 k - M) / Z) v1 k,  Z = Σ e^(s0 k - M) + Σ e^(s1 k - M).

  With real inputs every quantity is a real number, so the identity is one of real numbers:
  e^(a - c) = e^(d - c) e^(a - d), hence for any two shifts c and d the sums Σ e^(a k - c) w k and
  Σ e^(a k - d) w k differ by the common factor e^(d - c), which cancels in a quotient.  Neither the
  running maxima nor M enter beyond being real.
-/
import Idealize.ShloMosaic.PureOps.Ideal
import Idealize.ShloMosaic.PureOps.Ideal.Laws
import Mathlib.Data.Finset.Lattice.Fold
import Mathlib.Algebra.BigOperators.Fin
import Mathlib.Analysis.SpecialFunctions.Exp
import proofs.«430366_j13881334301213_3_alg».proof.Proof.Spec
import proofs.«430366_j13881334301213_3_alg».proof.Proof.LibIdealReal
import proofs.«430366_j13881334301213_3_alg».proof.Proof.LibIdealPos

noncomputable section

namespace Cert.Attn

open Idealize.ShloMosaic IdealReal Cert.Spec
open scoped BigOperators

/-! ## The row maximum -/

section RowMax
variable {κ : Type} [Fintype κ]

/-- The row maximum is the supremum over all keys. -/
theorem rowMax_eq_sup (s : κ → EReal) : rowMax s = (Finset.univ : Finset κ).sup s := rfl

/-- Every entry is at most the row maximum. -/
theorem le_rowMax (s : κ → EReal) (k : κ) : s k ≤ rowMax s := by
  rw [rowMax_eq_sup]
  exact Finset.le_sup (Finset.mem_univ k)

/-- The row maximum is at most any bound of all entries. -/
theorem rowMax_le (s : κ → EReal) (b : EReal) (h : ∀ k, s k ≤ b) : rowMax s ≤ b := by
  rw [rowMax_eq_sup]
  exact Finset.sup_le fun k _ => h k

/-- Over a nonempty key type the row maximum is one of the entries. -/
theorem exists_rowMax_eq [Nonempty κ] (s : κ → EReal) : ∃ k, rowMax s = s k := by
  obtain ⟨k, _, hk⟩ := Finset.exists_mem_eq_sup (Finset.univ : Finset κ) Finset.univ_nonempty s
  exact ⟨k, hk⟩

/-- The row maximum of reals over a nonempty key type is a real. -/
theorem isReal_rowMax [Nonempty κ] (s : κ → EReal) (h : ∀ k, IsReal (s k)) : IsReal (rowMax s) := by
  obtain ⟨k, hk⟩ := exists_rowMax_eq s
  rw [hk]
  exact h k

end RowMax

/-- The row maximum over a key axis of two halves is the larger of the halves' maxima. -/
theorem rowMax_fin_add (n : ℕ) (s : Fin (n + n) → EReal) :
    rowMax s = max (rowMax fun k : Fin n => s (Fin.castAdd n k))
      (rowMax fun k : Fin n => s (Fin.natAdd n k)) := by
  apply le_antisymm
  · refine rowMax_le s _ fun j => ?_
    refine Fin.addCases (fun k => ?_) (fun k => ?_) j
    · exact le_max_of_le_left (le_rowMax (fun k : Fin n => s (Fin.castAdd n k)) k)
    · exact le_max_of_le_right (le_rowMax (fun k : Fin n => s (Fin.natAdd n k)) k)
  · refine max_le ?_ ?_
    · exact rowMax_le _ _ fun k => le_rowMax s (Fin.castAdd n k)
    · exact rowMax_le _ _ fun k => le_rowMax s (Fin.natAdd n k)

/-! ## The update of one block -/

section Online
variable {κ : Type} [Fintype κ]

/-- The running maximum after a block with scores `s`. -/
def mNext (mp : EReal) (s : κ → EReal) : EReal := max mp (Cert.Spec.rowMax s)

/-- The factor that rescales the old denominator and numerators to the new maximum. -/
def alpha (mp : EReal) (s : κ → EReal) : EReal := Ideal.exp (mp - mNext mp s)

/-- The block's unnormalised weights at the new maximum. -/
def pr (mp : EReal) (s : κ → EReal) (k : κ) : EReal := Ideal.exp (s k - mNext mp s)

/-- The running denominator after the block. -/
def lNext (mp lp : EReal) (s : κ → EReal) : EReal := alpha mp s * lp + ∑ k, pr mp s k

/-- The running numerator after the block with values `v`. -/
def accNext (mp ap : EReal) (s v : κ → EReal) : EReal := alpha mp s * ap + ∑ k, pr mp s k * v k

/-- The overall maximum of the two blocks. -/
def mBoth (s0 s1 : κ → EReal) : EReal := max (Cert.Spec.rowMax s0) (Cert.Spec.rowMax s1)

/-- The softmax's denominator over the two blocks. -/
def zBoth (s0 s1 : κ → EReal) : EReal :=
  (∑ k, Ideal.exp (s0 k - mBoth s0 s1)) + ∑ k, Ideal.exp (s1 k - mBoth s0 s1)

/-! ### Real numbers: a change of shift is a common factor -/

/-- Weighted exponentials shifted by `c` are those shifted by `d` times `e^(d - c)`. -/
theorem sum_exp_shift_mul (a w : κ → ℝ) (c d : ℝ) :
    ∑ k, Real.exp (a k - c) * w k = Real.exp (d - c) * ∑ k, Real.exp (a k - d) * w k := by
  rw [Finset.mul_sum]
  refine Finset.sum_congr rfl fun k _ => ?_
  rw [← mul_assoc, ← Real.exp_add]
  congr 2
  ring

/-- Exponentials shifted by `c` are those shifted by `d` times `e^(d - c)`. -/
theorem sum_exp_shift (a : κ → ℝ) (c d : ℝ) :
    ∑ k, Real.exp (a k - c) = Real.exp (d - c) * ∑ k, Real.exp (a k - d) := by
  rw [Finset.mul_sum]
  refine Finset.sum_congr rfl fun k _ => ?_
  rw [← Real.exp_add]
  congr 1
  ring

/-- The two-block recurrence and the softmax, as real numbers.  `p` is the starting maximum,
    `m0` and `m1` the running maxima after the first and the second block, `M` the shift of the
    softmax; the identity holds for any reals in their places. -/
theorem online_real (p m0 m1 M : ℝ) (a0 a1 w0 w1 : κ → ℝ) :
    (Real.exp (m0 - m1) * (Real.exp (p - m0) * 0 + ∑ k, Real.exp (a0 k - m0) * w0 k)
        + ∑ k, Real.exp (a1 k - m1) * w1 k)
      / (Real.exp (m0 - m1) * (Real.exp (p - m0) * 0 + ∑ k, Real.exp (a0 k - m0))
        + ∑ k, Real.exp (a1 k - m1))
    = (∑ k, Real.exp (a0 k - M)
          / ((∑ k, Real.exp (a0 k - M)) + ∑ k, Real.exp (a1 k - M)) * w0 k)
      + ∑ k, Real.exp (a1 k - M)
          / ((∑ k, Real.exp (a0 k - M)) + ∑ k, Real.exp (a1 k - M)) * w1 k := by
  rw [mul_zero, zero_add, zero_add, ← sum_exp_shift_mul a0 w0 m1 m0, ← sum_exp_shift a0 m1 m0]
  rw [sum_exp_shift_mul a0 w0 m1 M, sum_exp_shift_mul a1 w1 m1 M, sum_exp_shift a0 m1 M,
    sum_exp_shift a1 m1 M, ← mul_add, ← mul_add, mul_div_mul_left _ _ (Real.exp_pos _).ne']
  simp only [div_mul_eq_mul_div]
  rw [← Finset.sum_div, ← Finset.sum_div, ← add_div]

/-! ### From the extended reals to the reals -/

/-- The exponential of a difference of reals. -/
theorem exp_coe_sub (x y : ℝ) : Ideal.exp ((x : EReal) - (y : EReal)) = ((Real.exp (x - y) : ℝ) : EReal) := rfl

/-- A sum of exponentials of real differences. -/
theorem sum_exp_coe (s : κ → EReal) (a : κ → ℝ) (c : ℝ) (hs : ∀ k, s k = a k) :
    ∑ k, Ideal.exp (s k - (c : EReal)) = ((∑ k, Real.exp (a k - c) : ℝ) : EReal) := by
  rw [coe_finset_sum]
  refine Finset.sum_congr rfl fun k _ => ?_
  rw [hs k, exp_coe_sub]

/-- A weighted sum of exponentials of real differences. -/
theorem sum_exp_mul_coe (s v : κ → EReal) (a w : κ → ℝ) (c : ℝ) (hs : ∀ k, s k = a k)
    (hv : ∀ k, v k = w k) :
    ∑ k, Ideal.exp (s k - (c : EReal)) * v k = ((∑ k, Real.exp (a k - c) * w k : ℝ) : EReal) := by
  rw [coe_finset_sum]
  refine Finset.sum_congr rfl fun k _ => ?_
  rw [hs k, hv k, exp_coe_sub, EReal.coe_mul]

/-- A weighted sum of normalised exponentials of real differences. -/
theorem sum_div_exp_mul_coe (s v : κ → EReal) (a w : κ → ℝ) (c z : ℝ) (hz : z ≠ 0)
    (hs : ∀ k, s k = a k) (hv : ∀ k, v k = w k) :
    ∑ k, Ideal.div (Ideal.exp (s k - (c : EReal))) (z : EReal) * v k
      = ((∑ k, Real.exp (a k - c) / z * w k : ℝ) : EReal) := by
  rw [coe_finset_sum]
  refine Finset.sum_congr rfl fun k _ => ?_
  rw [hs k, hv k, exp_coe_sub, div_coe_coe _ hz, EReal.coe_mul]

/-- A sum of exponentials over a nonempty key type is positive. -/
theorem sum_exp_pos [Nonempty κ] (a : κ → ℝ) (c : ℝ) : 0 < ∑ k, Real.exp (a k - c) :=
  Finset.sum_pos (fun k _ => Real.exp_pos _) Finset.univ_nonempty

/-- The denominator after a block, with real inputs and a real new maximum `m`. -/
theorem lNext_coe (p l m : ℝ) (s : κ → EReal) (a : κ → ℝ) (hs : ∀ k, s k = a k)
    (hm : mNext (p : EReal) s = m) :
    lNext (p : EReal) (l : EReal) s = ((Real.exp (p - m) * l + ∑ k, Real.exp (a k - m) : ℝ) : EReal) := by
  unfold lNext alpha pr
  rw [hm, exp_coe_sub, sum_exp_coe s a m hs, ← EReal.coe_mul, ← EReal.coe_add]

/-- The numerator after a block, with real inputs and a real new maximum `m`. -/
theorem accNext_coe (p c m : ℝ) (s v : κ → EReal) (a w : κ → ℝ) (hs : ∀ k, s k = a k)
    (hv : ∀ k, v k = w k) (hm : mNext (p : EReal) s = m) :
    accNext (p : EReal) (c : EReal) s v
      = ((Real.exp (p - m) * c + ∑ k, Real.exp (a k - m) * w k : ℝ) : EReal) := by
  unfold accNext alpha pr
  rw [hm, exp_coe_sub, sum_exp_mul_coe s v a w m hs hv, ← EReal.coe_mul, ← EReal.coe_add]

/-- The running maximum of reals is a real. -/
theorem isReal_mNext [Nonempty κ] (mp : EReal) (s : κ → EReal) (hmp : IsReal mp)
    (hs : ∀ k, IsReal (s k)) : IsReal (mNext mp s) :=
  hmp.max (isReal_rowMax s hs)

/-! ### The theorem -/

/-- Two blocks of the online recurrence from a finite starting maximum, zero denominator and zero
    numerator give the softmax of all scores applied to all values. -/
theorem online_two [Nonempty κ] (neg : EReal) (s0 s1 v0 v1 : κ → EReal) (hneg : IsReal neg)
    (hs0 : ∀ k, IsReal (s0 k)) (hs1 : ∀ k, IsReal (s1 k)) (hv0 : ∀ k, IsReal (v0 k))
    (hv1 : ∀ k, IsReal (v1 k)) :
    Ideal.div (accNext (mNext neg s0) (accNext neg 0 s0 v0) s1 v1)
        (lNext (mNext neg s0) (lNext neg 0 s0) s1)
      = (∑ k, Ideal.div (Ideal.exp (s0 k - mBoth s0 s1)) (zBoth s0 s1) * v0 k)
        + ∑ k, Ideal.div (Ideal.exp (s1 k - mBoth s0 s1)) (zBoth s0 s1) * v1 k := by
  obtain ⟨m0, hm0⟩ := isReal_mNext neg s0 hneg hs0
  obtain ⟨m1, hm1⟩ := isReal_mNext (mNext neg s0) s1 (isReal_mNext neg s0 hneg hs0) hs1
  obtain ⟨M, hM⟩ : IsReal (mBoth s0 s1) := (isReal_rowMax s0 hs0).max (isReal_rowMax s1 hs1)
  obtain ⟨p, rfl⟩ := hneg
  have hs0' : ∀ k, ∃ r : ℝ, s0 k = r := hs0
  have hs1' : ∀ k, ∃ r : ℝ, s1 k = r := hs1
  have hv0' : ∀ k, ∃ r : ℝ, v0 k = r := hv0
  have hv1' : ∀ k, ∃ r : ℝ, v1 k = r := hv1
  choose a0 ha0 using hs0'
  choose a1 ha1 using hs1'
  choose w0 hw0 using hv0'
  choose w1 hw1 using hv1'
  -- the softmax's denominator is a positive real
  have hZ : zBoth s0 s1
      = (((∑ k, Real.exp (a0 k - M)) + ∑ k, Real.exp (a1 k - M) : ℝ) : EReal) := by
    unfold zBoth
    rw [hM, sum_exp_coe s0 a0 M ha0, sum_exp_coe s1 a1 M ha1, ← EReal.coe_add]
  have hZpos : (0 : ℝ) < (∑ k, Real.exp (a0 k - M)) + ∑ k, Real.exp (a1 k - M) :=
    add_pos (sum_exp_pos a0 M) (sum_exp_pos a1 M)
  -- the recurrence's denominator is a positive real
  have hLpos : (0 : ℝ) < Real.exp (m0 - m1) * (Real.exp (p - m0) * 0 + ∑ k, Real.exp (a0 k - m0))
      + ∑ k, Real.exp (a1 k - m1) := by
    rw [mul_zero, zero_add]
    exact add_pos (mul_pos (Real.exp_pos _) (sum_exp_pos a0 m0)) (sum_exp_pos a1 m1)
  rw [hm0] at hm1
  rw [hm0, ← EReal.coe_zero, accNext_coe p 0 m0 s0 v0 a0 w0 ha0 hw0 hm0,
    lNext_coe p 0 m0 s0 a0 ha0 hm0, accNext_coe m0 _ m1 s1 v1 a1 w1 ha1 hw1 hm1,
    lNext_coe m0 _ m1 s1 a1 ha1 hm1, div_coe_coe _ hLpos.ne', hM, hZ,
    sum_div_exp_mul_coe s0 v0 a0 w0 M _ hZpos.ne' ha0 hw0,
    sum_div_exp_mul_coe s1 v1 a1 w1 M _ hZpos.ne' ha1 hw1, ← EReal.coe_add]
  exact congrArg _ (online_real p m0 m1 M a0 a1 w0 w1)

end Online

end Cert.Attn

end
-- ==== Proof.KI.Pay1.lean ====
/-
  The attention kernel's payloads read at an index: the score family.

  One step of the online softmax on a block of 512 query rows against a block of 1024 keys.  The
  body forms the scores s = q kᵀ, the new running maximum m' = max m (max s), the rescaling factor
  e^(m - m'), the weights e^(s - m') and the new denominator e^(m - m') l + Σ e^(s - m').  Each of
  these values is stated here at one index, for arbitrary loaded vectors, in terms of the step
  functions of the online recurrence.  The layout operations in between (a cast of a row of maxima
  to a column, a column broadcast along the keys) only move an index; a reduction over the key axis
  is a fold or a sum over that axis's coordinate; the product q kᵀ is a sum over the feature axis.
-/
import proofs.«430366_j13881334301213_3_alg».proof.Proof.Gen.KernelIdeal.Skeleton
import proofs.«430366_j13881334301213_3_alg».proof.Proof.Math
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen
open scoped BigOperators

/-! ## Layout operations at the attention block's shapes -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, a, 1]` column broadcast to `[1, a, b]` reads, at `(u, i, j)`, the column's entry of row `i`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (i : Fin a) (j : Fin b) :
    broadcastTo ⟨3, ![1, a, b]⟩ v h (ix3 u i j) = v (ix3 (0 : Fin 1) i (0 : Fin 1)) := by
  refine broadcastTo_apply v h (ix3 u i j) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

/-- A `[1, 1, b]` row broadcast to `[1, a, b]` reads, at `(u, i, j)`, the row's entry of column `j`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (j : Fin b) :
    broadcastTo ⟨3, ![1, a, b]⟩ v h (ix3 u i j) = v (ix3 (0 : Fin 1) (0 : Fin 1) j) := by
  refine broadcastTo_apply v h (ix3 u i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- Over the reduced index `(0, q)` the source index with `k` on the reduced last axis is `(0, q, k)`. -/
theorem lift_last (h : S1x512x1024.Reduces [2] S1x512) (q : Fin 512) (k : Fin 1024) :
    h.lift (ix2 (0 : Fin 1) q) k = ix3 (0 : Fin 1) q k := by
  funext c
  apply Fin.ext
  match c with
  | ⟨0, _⟩ => rfl
  | ⟨1, _⟩ => rfl
  | ⟨2, _⟩ => rfl

end Layout

/-! ## A reduction over the key axis -/

/-- The maximum over the key axis, from the word of -∞, is the row maximum. -/
theorem rowMax_last (src : FVec Ideal S1x512x1024 .f32) (h : S1x512x1024.Reduces [2] S1x512)
    (hφ : FKind.Formats .f32) (hacc : (0xFF800000#32 : BitVec (FTy.bits .f32)) = FKind.maximumf.neutral .f32 hφ)
    (q : Fin 512) :
    multiReduction .maximumf [2] S1x512 src 0xFF800000#32 h hφ hacc (ix2 (0 : Fin 1) q)
      = Cert.Spec.rowMax fun k : Fin 1024 => src (ix3 (0 : Fin 1) q k) := by
  refine (Ideal.multiReduction_maximumf_single src _ h hφ hacc _).trans ?_
  have hbot : FloatOps.ofBits (F := Ideal) .f32 0xFF800000#32 = (⊥ : EReal) := by
    simp [Ideal.ofBits, Ideal.ieee]
  rw [hbot]
  unfold Cert.Spec.rowMax
  refine congrArg (Finset.fold max ⊥ · Finset.univ) (funext fun k => ?_)
  exact congrArg src (lift_last h q k)

/-- The sum over the key axis, from the zero word, is the sum over the keys. -/
theorem rowSum_last (src : FVec Ideal S1x512x1024 .f32) (h : S1x512x1024.Reduces [2] S1x512)
    (hφ : FKind.Formats .f32) (hacc : (0x00000000#32 : BitVec (FTy.bits .f32)) = FKind.add.neutral .f32 hφ)
    (q : Fin 512) :
    multiReduction .add [2] S1x512 src 0x00000000#32 h hφ hacc (ix2 (0 : Fin 1) q)
      = ∑ k : Fin 1024, src (ix3 (0 : Fin 1) q k) := by
  refine (Ideal.multiReduction_add_single src _ h hφ hacc _).trans ?_
  exact Finset.sum_congr rfl fun k _ => congrArg src (lift_last h q k)

/-! ## The product q kᵀ: contraction over the feature axis of both operands -/

theorem lhs_qk_0 (i : S1x512x1024.Idx) (c : dot_S1x512x1024_S1x1024x1024_S1x512x1024_2_2_1_1_0_0.contr.Idx) :
    (dot_S1x512x1024_S1x1024x1024_S1x512x1024_2_2_1_1_0_0.lhsIdx i c 0).val = (i 0).val := by
  unfold DotDims.lhsIdx
  rw [dif_pos (show (0 : Fin S1x512x1024.rank) ∈ dot_S1x512x1024_S1x1024x1024_S1x512x1024_2_2_1_1_0_0.lhsBatch by decide)]
  rfl
theorem lhs_qk_1 (i : S1x512x1024.Idx) (c : dot_S1x512x1024_S1x1024x1024_S1x512x1024_2_2_1_1_0_0.contr.Idx) :
    (dot_S1x512x1024_S1x1024x1024_S1x512x1024_2_2_1_1_0_0.lhsIdx i c 1).val = (i 1).val := by
  unfold DotDims.lhsIdx
  rw [dif_neg (show ¬(1 : Fin S1x512x1024.rank) ∈ dot_S1x512x1024_S1x1024x1024_S1x512x1024_2_2_1_1_0_0.lhsBatch by decide), dif_pos (show (1 : Fin S1x512x1024.rank) ∈ dot_S1x512x1024_S1x1024x1024_S1x512x1024_2_2_1_1_0_0.lhsNonContracting by decide)]
  rfl
theorem lhs_qk_2 (i : S1x512x1024.Idx) (c : dot_S1x512x1024_S1x1024x1024_S1x512x1024_2_2_1_1_0_0.contr.Idx) :
    (dot_S1x512x1024_S1x1024x1024_S1x512x1024_2_2_1_1_0_0.lhsIdx i c 2).val = (c ⟨0, by decide⟩).val :=
  dot_S1x512x1024_S1x1024x1024_S1x512x1024_2_2_1_1_0_0.lhsIdx_val_of_single rfl i c
theorem rhs_qk_0 (i : S1x512x1024.Idx) (c : dot_S1x512x1024_S1x1024x1024_S1x512x1024_2_2_1_1_0_0.contr.Idx) :
    (dot_S1x512x1024_S1x1024x1024_S1x512x1024_2_2_1_1_0_0.rhsIdx i c 0).val = (i 0).val := by
  unfold DotDims.rhsIdx
  rw [dif_pos (show (0 : Fin S1x1024x1024.rank) ∈ dot_S1x512x1024_S1x1024x1024_S1x512x1024_2_2_1_1_0_0.rhsBatch by decide)]
  rfl
theorem rhs_qk_1 (i : S1x512x1024.Idx) (c : dot_S1x512x1024_S1x1024x1024_S1x512x1024_2_2_1_1_0_0.contr.Idx) :
    (dot_S1x512x1024_S1x1024x1024_S1x512x1024_2_2_1_1_0_0.rhsIdx i c 1).val = (i 2).val := by
  unfold DotDims.rhsIdx
  rw [dif_neg (show ¬(1 : Fin S1x1024x1024.rank) ∈ dot_S1x512x1024_S1x1024x1024_S1x512x1024_2_2_1_1_0_0.rhsBatch by decide), dif_pos (show (1 : Fin S1x1024x1024.rank) ∈ dot_S1x512x1024_S1x1024x1024_S1x512x1024_2_2_1_1_0_0.rhsNonContracting by decide)]
  rfl
theorem rhs_qk_2 (i : S1x512x1024.Idx) (c : dot_S1x512x1024_S1x1024x1024_S1x512x1024_2_2_1_1_0_0.contr.Idx) :
    (dot_S1x512x1024_S1x1024x1024_S1x512x1024_2_2_1_1_0_0.rhsIdx i c 2).val = (c ⟨0, by decide⟩).val :=
  dot_S1x512x1024_S1x1024x1024_S1x512x1024_2_2_1_1_0_0.rhsIdx_val_of_single rfl i c

/-- The product into a zero accumulator, at query row `q` and key `k`: the inner product of the two rows. -/
theorem matmul_qk_apply (a : FVec Ideal S1x512x1024 .bf16) (b : FVec Ideal S1x1024x1024 .bf16) (q : Fin 512) (k : Fin 1024) :
    matmul (F := Ideal) dot_S1x512x1024_S1x1024x1024_S1x512x1024_2_2_1_1_0_0 none a b
        (constant (F := Ideal) S1x512x1024 .f32 0x00000000#32) (ix3 (0 : Fin 1) q k)
      = ∑ e : Fin 1024, a (ix3 (0 : Fin 1) q e) * b (ix3 (0 : Fin 1) k e) := by
  simp only [matmul]
  rw [Ideal.matmul_constant_zero_apply, ← Equiv.sum_comp (contrEquiv1 dot_S1x512x1024_S1x1024x1024_S1x512x1024_2_2_1_1_0_0 1024 rfl rfl).symm]
  refine Finset.sum_congr rfl fun e _ => ?_
  have he := contrEquiv1_symm_val dot_S1x512x1024_S1x1024x1024_S1x512x1024_2_2_1_1_0_0 1024 rfl rfl e
  have el : dot_S1x512x1024_S1x1024x1024_S1x512x1024_2_2_1_1_0_0.lhsIdx (ix3 (0 : Fin 1) q k) ((contrEquiv1 dot_S1x512x1024_S1x1024x1024_S1x512x1024_2_2_1_1_0_0 1024 rfl rfl).symm e) = ix3 (0 : Fin 1) q e := funext fun ax => Fin.ext (by
    match ax with
    | ⟨0, _⟩ => exact lhs_qk_0 _ _
    | ⟨1, _⟩ => exact lhs_qk_1 _ _
    | ⟨2, _⟩ => exact (lhs_qk_2 _ _).trans he)
  have er : dot_S1x512x1024_S1x1024x1024_S1x512x1024_2_2_1_1_0_0.rhsIdx (ix3 (0 : Fin 1) q k) ((contrEquiv1 dot_S1x512x1024_S1x1024x1024_S1x512x1024_2_2_1_1_0_0 1024 rfl rfl).symm e) = ix3 (0 : Fin 1) k e := funext fun ax => Fin.ext (by
    match ax with
    | ⟨0, _⟩ => exact rhs_qk_0 _ _
    | ⟨1, _⟩ => exact rhs_qk_1 _ _
    | ⟨2, _⟩ => exact (rhs_qk_2 _ _).trans he)
  rw [el, er]

/-! ## The score family at an index -/

/-- The scores of query row `q` against the block's keys. -/
abbrev sc (x3 : FVec Ideal S1x512x1024 .bf16) (x4 : FVec Ideal S1x1024x1024 .bf16) (q : Fin 512) : Fin 1024 → EReal :=
  fun k => ∑ e : Fin 1024, x3 (ix3 (0 : Fin 1) q e) * x4 (ix3 (0 : Fin 1) k e)

section Score
variable (x3 : FVec Ideal S1x512x1024 .bf16) (x4 : FVec Ideal S1x1024x1024 .bf16)
  (mp lp : FVec Ideal S1x512x1 .f32) (q : Fin 512) (k : Fin 1024)

/-- The score of query row `q` against key `k`. -/
theorem pay12_apply :
    k1_pay12 (F := Ideal) x3 x4 (ix3 (0 : Fin 1) q k) = ∑ e : Fin 1024, x3 (ix3 (0 : Fin 1) q e) * x4 (ix3 (0 : Fin 1) k e) := by
  unfold k1_pay12 k1_pay10
  simp only [shapeCast_self]
  exact matmul_qk_apply x3 x4 q k

/-- The new running maximum of row `q`. -/
theorem pay13_apply :
    k1_pay13 (F := Ideal) x3 x4 mp (ix3 (0 : Fin 1) q (0 : Fin 1)) = Cert.Attn.mNext (mp (ix3 (0 : Fin 1) q (0 : Fin 1))) (sc x3 x4 q) := by
  unfold k1_pay13 Cert.Attn.mNext
  refine (maximumf_apply _ _ _).trans (congrArg (max _) ?_)
  refine (shapeCast_ab_ab1_apply _ _ (0 : Fin 1) q (0 : Fin 1)).trans ?_
  refine (rowMax_last _ _ _ _ q).trans ?_
  exact congrArg Cert.Spec.rowMax (funext fun k => pay12_apply x3 x4 q k)

/-- The factor that rescales row `q`'s old denominator and numerators. -/
theorem pay14_apply :
    k1_pay14 (F := Ideal) x3 x4 mp (ix3 (0 : Fin 1) q (0 : Fin 1)) = Cert.Attn.alpha (mp (ix3 (0 : Fin 1) q (0 : Fin 1))) (sc x3 x4 q) := by
  unfold k1_pay14 Cert.Attn.alpha
  show Ideal.exp (mp (ix3 (0 : Fin 1) q (0 : Fin 1)) - k1_pay13 (F := Ideal) x3 x4 mp (ix3 (0 : Fin 1) q (0 : Fin 1))) = _
  rw [pay13_apply]

/-- The weight of key `k` for row `q` at the new maximum. -/
theorem pay15_apply :
    k1_pay15 (F := Ideal) x3 x4 mp (ix3 (0 : Fin 1) q k) = Cert.Attn.pr (mp (ix3 (0 : Fin 1) q (0 : Fin 1))) (sc x3 x4 q) k := by
  unfold k1_pay15 Cert.Attn.pr
  show Ideal.exp (k1_pay12 (F := Ideal) x3 x4 (ix3 (0 : Fin 1) q k)
    - broadcastTo S1x512x1024 (k1_pay13 (F := Ideal) x3 x4 mp) broadcasts_S1x512x1_S1x512x1024 (ix3 (0 : Fin 1) q k)) = _
  rw [pay12_apply, broadcastTo_1a1_1ab_apply, pay13_apply]

/-- The same weight after the cast to the narrower format, which keeps an ideal value. -/
theorem pay17_apply :
    k1_pay17 (F := Ideal) x3 x4 mp (ix3 (0 : Fin 1) q k) = Cert.Attn.pr (mp (ix3 (0 : Fin 1) q (0 : Fin 1))) (sc x3 x4 q) k := by
  unfold k1_pay17
  exact pay15_apply x3 x4 mp q k

/-- The new running denominator of row `q`. -/
theorem pay16_apply :
    k1_pay16 (F := Ideal) x3 x4 mp lp (ix3 (0 : Fin 1) q (0 : Fin 1))
      = Cert.Attn.lNext (mp (ix3 (0 : Fin 1) q (0 : Fin 1))) (lp (ix3 (0 : Fin 1) q (0 : Fin 1))) (sc x3 x4 q) := by
  unfold k1_pay16 Cert.Attn.lNext
  simp only [shapeCast_self]
  refine (addf_apply _ _ _).trans ?_
  refine congrArg₂ (· + ·) ?_ ?_
  · refine (mulf_apply _ _ _).trans ?_
    rw [pay14_apply]
  · refine (shapeCast_ab_ab1_apply _ _ (0 : Fin 1) q (0 : Fin 1)).trans ?_
    refine (rowSum_last _ _ _ _ q).trans ?_
    exact Finset.sum_congr rfl fun k _ => pay15_apply x3 x4 mp q k

end Score

/-! ## The stored maximum, and the starting values -/

/-- The running maximum is stored as it is. -/
theorem pay3_apply (v : FVec Ideal S1x512x1 .f32) : k1_pay3 (F := Ideal) v = v := by
  unfold k1_pay3
  exact shapeCast_self v _

/-- The starting maximum is one finite word at every row. -/
theorem pay6_apply (q : Fin 512) :
    (k1_pay6 (F := Ideal)) (ix3 (0 : Fin 1) q (0 : Fin 1)) = Ideal.ofBits .f32 0xFF333332#32 := by
  unfold k1_pay6
  simp only [shapeCast_self]
  rfl

/-- That word is a real number: a normal binary32 pattern. -/
theorem neg_isReal : IdealReal.IsReal (Ideal.ofBits .f32 0xFF333332#32) := by
  refine ⟨-(11744050 * 2 ^ 104 : ℝ), ?_⟩
  simp [Ideal.ofBits, Ideal.ieee, -EReal.coe_mul, -EReal.coe_pow]

/-- The starting denominator is zero. -/
theorem pay7_apply (j : S1x512x1.Idx) : (k1_pay7 (F := Ideal)) j = 0 := by
  unfold k1_pay7
  simp only [shapeCast_self]
  exact Ideal.ofBits_zero_f32

/-- The first starting numerator is zero. -/
theorem pay8_apply (j : S1x512x1024.Idx) : (k1_pay8 (F := Ideal)) j = 0 := by
  unfold k1_pay8
  simp only [shapeCast_self]
  exact Ideal.ofBits_zero_f32

/-- The second starting numerator is zero. -/
theorem pay9_apply (j : S1x512x1024.Idx) : (k1_pay9 (F := Ideal)) j = 0 := by
  unfold k1_pay9
  simp only [shapeCast_self]
  exact Ideal.ofBits_zero_f32

end Cert.KernelIdeal.PayVal

end
-- ==== Proof.KI.Pay2.lean ====
/-
  The attention kernel's payloads read at an index: the products with the values, the
  normalisation and the output projection; and the linear kernel's payload.

  The numerators of a block step are e^(m - m') acc + p v, with p the block's weights: at one
  index, the rescaled old numerator plus the sum over the block's keys of weight times value.  The
  last step divides the numerators by the denominator, row by row, and maps the second quotient
  through the output weights with the bias added: a sum over the feature axis.  The linear kernel's
  payload is a row of its input against a column of its weights, plus the bias.
-/
import proofs.«430366_j13881334301213_3_alg».proof.Proof.Gen.KernelIdeal.Skeleton
import proofs.«430366_j13881334301213_3_alg».proof.Proof.Math
import proofs.«430366_j13881334301213_3_alg».proof.Proof.KI.Pay1
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen
open scoped BigOperators

/-! ## The product p v: contraction of the weights' key axis with the values' row axis -/

theorem lhs_pv_0 (i : S1x512x1024.Idx) (c : dot_S1x512x1024_S1x1024x1024_S1x512x1024_2_1_1_2_0_0.contr.Idx) :
    (dot_S1x512x1024_S1x1024x1024_S1x512x1024_2_1_1_2_0_0.lhsIdx i c 0).val = (i 0).val := by
  unfold DotDims.lhsIdx
  rw [dif_pos (show (0 : Fin S1x512x1024.rank) ∈ dot_S1x512x1024_S1x1024x1024_S1x512x1024_2_1_1_2_0_0.lhsBatch by decide)]
  rfl
theorem lhs_pv_1 (i : S1x512x1024.Idx) (c : dot_S1x512x1024_S1x1024x1024_S1x512x1024_2_1_1_2_0_0.contr.Idx) :
    (dot_S1x512x1024_S1x1024x1024_S1x512x1024_2_1_1_2_0_0.lhsIdx i c 1).val = (i 1).val := by
  unfold DotDims.lhsIdx
  rw [dif_neg (show ¬(1 : Fin S1x512x1024.rank) ∈ dot_S1x512x1024_S1x1024x1024_S1x512x1024_2_1_1_2_0_0.lhsBatch by decide), dif_pos (show (1 : Fin S1x512x1024.rank) ∈ dot_S1x512x1024_S1x1024x1024_S1x512x1024_2_1_1_2_0_0.lhsNonContracting by decide)]
  rfl
theorem lhs_pv_2 (i : S1x512x1024.Idx) (c : dot_S1x512x1024_S1x1024x1024_S1x512x1024_2_1_1_2_0_0.contr.Idx) :
    (dot_S1x512x1024_S1x1024x1024_S1x512x1024_2_1_1_2_0_0.lhsIdx i c 2).val = (c ⟨0, by decide⟩).val :=
  dot_S1x512x1024_S1x1024x1024_S1x512x1024_2_1_1_2_0_0.lhsIdx_val_of_single rfl i c
theorem rhs_pv_0 (i : S1x512x1024.Idx) (c : dot_S1x512x1024_S1x1024x1024_S1x512x1024_2_1_1_2_0_0.contr.Idx) :
    (dot_S1x512x1024_S1x1024x1024_S1x512x1024_2_1_1_2_0_0.rhsIdx i c 0).val = (i 0).val := by
  unfold DotDims.rhsIdx
  rw [dif_pos (show (0 : Fin S1x1024x1024.rank) ∈ dot_S1x512x1024_S1x1024x1024_S1x512x1024_2_1_1_2_0_0.rhsBatch by decide)]
  rfl
theorem rhs_pv_1 (i : S1x512x1024.Idx) (c : dot_S1x512x1024_S1x1024x1024_S1x512x1024_2_1_1_2_0_0.contr.Idx) :
    (dot_S1x512x1024_S1x1024x1024_S1x512x1024_2_1_1_2_0_0.rhsIdx i c 1).val = (c ⟨0, by decide⟩).val :=
  dot_S1x512x1024_S1x1024x1024_S1x512x1024_2_1_1_2_0_0.rhsIdx_val_of_single rfl i c
theorem rhs_pv_2 (i : S1x512x1024.Idx) (c : dot_S1x512x1024_S1x1024x1024_S1x512x1024_2_1_1_2_0_0.contr.Idx) :
    (dot_S1x512x1024_S1x1024x1024_S1x512x1024_2_1_1_2_0_0.rhsIdx i c 2).val = (i 2).val := by
  unfold DotDims.rhsIdx
  rw [dif_neg (show ¬(2 : Fin S1x1024x1024.rank) ∈ dot_S1x512x1024_S1x1024x1024_S1x512x1024_2_1_1_2_0_0.rhsBatch by decide), dif_pos (show (2 : Fin S1x1024x1024.rank) ∈ dot_S1x512x1024_S1x1024x1024_S1x512x1024_2_1_1_2_0_0.rhsNonContracting by decide)]
  rfl

/-- The product into a zero accumulator, at query row `q` and feature `d`: the weights of row `q` against column `d` of the values. -/
theorem matmul_pv_apply (p : FVec Ideal S1x512x1024 .bf16) (v : FVec Ideal S1x1024x1024 .bf16) (q : Fin 512) (d : Fin 1024) :
    matmul (F := Ideal) dot_S1x512x1024_S1x1024x1024_S1x512x1024_2_1_1_2_0_0 none p v
        (constant (F := Ideal) S1x512x1024 .f32 0x00000000#32) (ix3 (0 : Fin 1) q d)
      = ∑ k : Fin 1024, p (ix3 (0 : Fin 1) q k) * v (ix3 (0 : Fin 1) k d) := by
  simp only [matmul]
  rw [Ideal.matmul_constant_zero_apply, ← Equiv.sum_comp (contrEquiv1 dot_S1x512x1024_S1x1024x1024_S1x512x1024_2_1_1_2_0_0 1024 rfl rfl).symm]
  refine Finset.sum_congr rfl fun k _ => ?_
  have hk := contrEquiv1_symm_val dot_S1x512x1024_S1x1024x1024_S1x512x1024_2_1_1_2_0_0 1024 rfl rfl k
  have el : dot_S1x512x1024_S1x1024x1024_S1x512x1024_2_1_1_2_0_0.lhsIdx (ix3 (0 : Fin 1) q d) ((contrEquiv1 dot_S1x512x1024_S1x1024x1024_S1x512x1024_2_1_1_2_0_0 1024 rfl rfl).symm k) = ix3 (0 : Fin 1) q k := funext fun ax => Fin.ext (by
    match ax with
    | ⟨0, _⟩ => exact lhs_pv_0 _ _
    | ⟨1, _⟩ => exact lhs_pv_1 _ _
    | ⟨2, _⟩ => exact (lhs_pv_2 _ _).trans hk)
  have er : dot_S1x512x1024_S1x1024x1024_S1x512x1024_2_1_1_2_0_0.rhsIdx (ix3 (0 : Fin 1) q d) ((contrEquiv1 dot_S1x512x1024_S1x1024x1024_S1x512x1024_2_1_1_2_0_0 1024 rfl rfl).symm k) = ix3 (0 : Fin 1) k d := funext fun ax => Fin.ext (by
    match ax with
    | ⟨0, _⟩ => exact rhs_pv_0 _ _
    | ⟨1, _⟩ => exact (rhs_pv_1 _ _).trans hk
    | ⟨2, _⟩ => exact rhs_pv_2 _ _)
  rw [el, er]

/-! ## The output projection: rows against columns, no batch axis -/

theorem lhs_out_0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_out_1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
theorem rhs_out_0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
theorem rhs_out_1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator, at row `q` and column `d`. -/
theorem matmul_out_apply (a : FVec Ideal S512x1024 .bf16) (w : FVec Ideal S1024x1024 .bf16) (q : Fin 512) (d : Fin 1024) :
    matmul (F := Ideal) dot_S512x1024_S1024x1024_S512x1024_1_0_0_1_n_n none a w
        (constant (F := Ideal) S512x1024 .f32 0x00000000#32) (ix2 q d)
      = ∑ e : Fin 1024, a (ix2 q e) * w (ix2 e d) := by
  simp only [matmul]
  rw [Ideal.matmul_constant_zero_apply, ← Equiv.sum_comp (contrEquiv1 dot_S512x1024_S1024x1024_S512x1024_1_0_0_1_n_n 1024 rfl rfl).symm]
  refine Finset.sum_congr rfl fun e _ => ?_
  have he := contrEquiv1_symm_val dot_S512x1024_S1024x1024_S512x1024_1_0_0_1_n_n 1024 rfl rfl e
  have el : dot_S512x1024_S1024x1024_S512x1024_1_0_0_1_n_n.lhsIdx (ix2 q d) ((contrEquiv1 dot_S512x1024_S1024x1024_S512x1024_1_0_0_1_n_n 1024 rfl rfl).symm e) = ix2 q e := funext fun ax => Fin.ext (by
    match ax with
    | ⟨0, _⟩ => exact lhs_out_0 _ _
    | ⟨1, _⟩ => exact (lhs_out_1 _ _).trans he)
  have er : dot_S512x1024_S1024x1024_S512x1024_1_0_0_1_n_n.rhsIdx (ix2 q d) ((contrEquiv1 dot_S512x1024_S1024x1024_S512x1024_1_0_0_1_n_n 1024 rfl rfl).symm e) = ix2 e d := funext fun ax => Fin.ext (by
    match ax with
    | ⟨0, _⟩ => exact (rhs_out_0 _ _).trans he
    | ⟨1, _⟩ => exact rhs_out_1 _ _)
  rw [el, er]

/-! ## The linear kernel's product -/

theorem lhs_lin_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_lin_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
theorem rhs_lin_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
theorem rhs_lin_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into a zero accumulator, at row `r` and column `e`. -/
theorem matmul_lin_apply (a : FVec Ideal S1024x1024 .bf16) (w : FVec Ideal S1024x1024 .bf16) (r e : Fin 1024) :
    matmul (F := Ideal) dot_S1024x1024_S1024x1024_S1024x1024_1_0_0_1_n_n none a w
        (constant (F := Ideal) S1024x1024 .f32 0x00000000#32) (ix2 r e)
      = ∑ k : Fin 1024, a (ix2 r k) * w (ix2 k e) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r e) ((contrEquiv1 dot_S1024x1024_S1024x1024_S1024x1024_1_0_0_1_n_n 1024 rfl rfl).symm k) = ix2 r k := funext fun ax => Fin.ext (by
    match ax with
    | ⟨0, _⟩ => exact lhs_lin_0 _ _
    | ⟨1, _⟩ => exact (lhs_lin_1 _ _).trans hk)
  have er : dot_S1024x1024_S1024x1024_S1024x1024_1_0_0_1_n_n.rhsIdx (ix2 r e) ((contrEquiv1 dot_S1024x1024_S1024x1024_S1024x1024_1_0_0_1_n_n 1024 rfl rfl).symm k) = ix2 k e := funext fun ax => Fin.ext (by
    match ax with
    | ⟨0, _⟩ => exact (rhs_lin_0 _ _).trans hk
    | ⟨1, _⟩ => exact rhs_lin_1 _ _)
  rw [el, er]

/-! ## The numerators, the quotients and the projected result at an index -/

section Acc
variable (x3 : FVec Ideal S1x512x1024 .bf16) (x4 x5 : FVec Ideal S1x1024x1024 .bf16)
  (mp : FVec Ideal S1x512x1 .f32) (ap : FVec Ideal S1x512x1024 .f32) (q : Fin 512) (d : Fin 1024)

/-- The first numerator after the block: the key block's own rows are the values. -/
theorem pay1_apply :
    k1_pay1 (F := Ideal) (k1_pay10 x4) (k1_pay14 x3 x4 mp) (k1_pay17 x3 x4 mp) ap (ix3 (0 : Fin 1) q d)
      = Cert.Attn.accNext (mp (ix3 (0 : Fin 1) q (0 : Fin 1))) (ap (ix3 (0 : Fin 1) q d)) (sc x3 x4 q)
          (fun k => x4 (ix3 (0 : Fin 1) k d)) := by
  unfold k1_pay1 k1_pay10 Cert.Attn.accNext
  simp only [shapeCast_self]
  refine (addf_apply _ _ _).trans ?_
  refine congrArg₂ (· + ·) ?_ ?_
  · refine (mulf_apply _ _ _).trans ?_
    rw [broadcastTo_1a1_1ab_apply, pay14_apply]
  · refine (matmul_pv_apply _ _ q d).trans ?_
    exact Finset.sum_congr rfl fun k _ => by rw [pay17_apply]

/-- The second numerator after the block, with the second value block. -/
theorem pay2_apply :
    k1_pay2 (F := Ideal) (k1_pay11 x5) (k1_pay14 x3 x4 mp) (k1_pay17 x3 x4 mp) ap (ix3 (0 : Fin 1) q d)
      = Cert.Attn.accNext (mp (ix3 (0 : Fin 1) q (0 : Fin 1))) (ap (ix3 (0 : Fin 1) q d)) (sc x3 x4 q)
          (fun k => x5 (ix3 (0 : Fin 1) k d)) := by
  unfold k1_pay2 k1_pay11 Cert.Attn.accNext
  simp only [shapeCast_self]
  refine (addf_apply _ _ _).trans ?_
  refine congrArg₂ (· + ·) ?_ ?_
  · refine (mulf_apply _ _ _).trans ?_
    rw [broadcastTo_1a1_1ab_apply, pay14_apply]
  · refine (matmul_pv_apply _ _ q d).trans ?_
    exact Finset.sum_congr rfl fun k _ => by rw [pay17_apply]

end Acc

section Final
variable (l : FVec Ideal S1x512x1 .f32) (a : FVec Ideal S1x512x1024 .f32)
  (w : FVec Ideal S1024x1024 .bf16) (bb : FVec Ideal S1x1x1024 .f32) (q : Fin 512) (d : Fin 1024)

/-- The first result: the numerator over the row's denominator. -/
theorem pay4_apply :
    k1_pay4 (F := Ideal) l a (ix3 (0 : Fin 1) q d)
      = Ideal.div (a (ix3 (0 : Fin 1) q d)) (l (ix3 (0 : Fin 1) q (0 : Fin 1))) := by
  unfold k1_pay4
  refine (divf_apply _ _ _).trans ?_
  rw [broadcastTo_1a1_1ab_apply]

/-- The second result: the quotients of row `q` against column `d` of the output weights, plus the bias. -/
theorem pay5_apply :
    k1_pay5 (F := Ideal) l a w bb (ix3 (0 : Fin 1) q d)
      = (∑ e : Fin 1024, Ideal.div (a (ix3 (0 : Fin 1) q e)) (l (ix3 (0 : Fin 1) q (0 : Fin 1))) * w (ix2 e d))
        + bb (ix3 (0 : Fin 1) (0 : Fin 1) d) := by
  unfold k1_pay5
  simp only [shapeCast_self]
  refine (addf_apply _ _ _).trans ?_
  refine congrArg₂ (· + ·) ?_ ?_
  · refine (shapeCast_ab_1ab_apply _ _ (0 : Fin 1) q d).trans ?_
    refine (matmul_out_apply _ _ q d).trans ?_
    refine Finset.sum_congr rfl fun e _ => congrArg (· * w (ix2 e d)) ?_
    refine (shapeCast_1ab_ab_apply _ _ q e).trans ?_
    show Ideal.div (a (ix3 (0 : Fin 1) q e))
      (broadcastTo S1x512x1024 l broadcasts_S1x512x1_S1x512x1024 (ix3 (0 : Fin 1) q e)) = _
    rw [broadcastTo_1a1_1ab_apply]
  · exact broadcastTo_11b_1ab_apply _ _ (0 : Fin 1) q d

end Final

/-! ## The linear kernel's payload at an index -/

/-- Row `r` of the input against column `e` of the weights, plus the bias at `e`. -/
theorem pay0_apply (x0 : FVec Ideal S1024x1024 .f32) (x1 : FVec Ideal S1024x1024 .bf16) (x2 : FVec Ideal S1x1024 .f32)
    (r e : Fin 1024) :
    k0_pay1 (F := Ideal) x0 x1 x2 (ix2 r e)
      = (∑ k : Fin 1024, x0 (ix2 r k) * x1 (ix2 k e)) + x2 (ix2 (0 : Fin 1) e) := by
  unfold k0_pay1
  simp only [shapeCast_self]
  refine (addf_apply _ _ _).trans ?_
  refine congrArg₂ (· + ·) ?_ ?_
  · exact matmul_lin_apply _ _ r e
  · exact broadcastTo_1b_ab_apply _ _ r e

end Cert.KernelIdeal.PayVal

end
-- ==== Proof.KI.Val1.lean ====
/-
  Region 1 (the attention kernel): what its two result arrays hold after the run, index by index.

  Row r of batch b meets its 2048 keys in two blocks of 1024. The kernel keeps, per row, a running maximum m, a
  running denominator l and two running numerators (values: the key array's rows, and the query array's rows). The even
  point of a (batch, query tile) resets them (m to a finite starting value, the others to zero) and updates them with
  the first block; the odd point updates them with the second block, divides the numerators by the denominator, sends
  the second quotient through the output weights and adds the bias, and its two result blocks are written back. The odd
  points' blocks cover the result arrays, so each entry is the two-block update of its row.
-/
import proofs.«430366_j13881334301213_3_alg».proof.Proof.KI.R1
import proofs.«430366_j13881334301213_3_alg».proof.Proof.KI.Val1Blocks
import proofs.«430366_j13881334301213_3_alg».proof.Proof.KI.Val1Pieces
import proofs.«430366_j13881334301213_3_alg».proof.Proof.KI.Pay2
import proofs.«430366_j13881334301213_3_alg».proof.Proof.Math
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand Cert.KernelIdeal.PayVal
open scoped BigOperators

variable (V : (c : Dev nD) → (b : Ref sig .tc) → Buf (Elt Ideal) ((c : Thread nD τ).loc b))

/-- The finite starting value of the running maximum. -/
abbrev neg : EReal := Ideal.ofBits .f32 0xFF333332#32

/-! ## The closed form

Row `r` of batch `b` has 2048 keys, met in two blocks of 1024: key `k` of the first block is key `k` of the array,
key `k` of the second is key `1024 + k`. -/

/-- The scores of row `r` of batch `b` against the first block of keys. -/
def sBlk0 (c : Dev nD) (b : Fin 4) (r : Fin 2048) : Fin 1024 → EReal :=
  fun k => ∑ e : Fin 1024, aQ V c (ix3 b r e) * aK V c (ix3 b (Fin.castAdd 1024 k : Fin 2048) e)

/-- The scores of row `r` of batch `b` against the second block of keys. -/
def sBlk1 (c : Dev nD) (b : Fin 4) (r : Fin 2048) : Fin 1024 → EReal :=
  fun k => ∑ e : Fin 1024, aQ V c (ix3 b r e) * aK V c (ix3 b (Fin.natAdd 1024 k : Fin 2048) e)

/-- The running denominator of row `r` after both blocks. -/
def lBoth (c : Dev nD) (b : Fin 4) (r : Fin 2048) : EReal :=
  Cert.Attn.lNext (Cert.Attn.mNext neg (sBlk0 V c b r)) (Cert.Attn.lNext neg 0 (sBlk0 V c b r)) (sBlk1 V c b r)

/-- The first result at (b, r, d): the two-block numerator over the key array's column `d`, over the denominator. -/
def out5F (c : Dev nD) (b : Fin 4) (r : Fin 2048) (d : Fin 1024) : EReal :=
  Ideal.div (Cert.Attn.accNext (Cert.Attn.mNext neg (sBlk0 V c b r))
      (Cert.Attn.accNext neg 0 (sBlk0 V c b r) (fun k => aK V c (ix3 b (Fin.castAdd 1024 k : Fin 2048) d)))
      (sBlk1 V c b r) (fun k => aK V c (ix3 b (Fin.natAdd 1024 k : Fin 2048) d)))
    (lBoth V c b r)

/-- The normalised second numerator of row `r` at column `e`: the values are the query array's rows. -/
def att2 (c : Dev nD) (b : Fin 4) (r : Fin 2048) (e : Fin 1024) : EReal :=
  Ideal.div (Cert.Attn.accNext (Cert.Attn.mNext neg (sBlk0 V c b r))
      (Cert.Attn.accNext neg 0 (sBlk0 V c b r) (fun k => aQ V c (ix3 b (Fin.castAdd 1024 k : Fin 2048) e)))
      (sBlk1 V c b r) (fun k => aQ V c (ix3 b (Fin.natAdd 1024 k : Fin 2048) e)))
    (lBoth V c b r)

/-- The second result at (b, r, d): the normalised second numerator against column `d` of the weights, plus the bias. -/
def out6F (c : Dev nD) (b : Fin 4) (r : Fin 2048) (d : Fin 1024) : EReal :=
  (∑ e : Fin 1024, att2 V c b r e * aW V c (ix2 e d)) + aB V c (ix3 0 0 d)

/-- The two result arrays as functions of the index. -/
def G5 (c : Dev nD) : FVec Ideal S4x2048x1024 .f32 := fun i => out5F V c (i 0) (i 1) (i 2)
def G6 (c : Dev nD) : FVec Ideal S4x2048x1024 .f32 := fun i => out6F V c (i 0) (i 1) (i 2)

/-! ## The scores a point computes are the array's

At a point of batch `b` and of the query tile that holds row `r`, the scores of the block's row against the block's
keys are the scores of row `r` against the first half of the keys at an even point, the second half at an odd one. -/

theorem sc_even (c : Dev nD) (t : Fin cfg1.N) (h0 : t.val % 2 = 0) (b : Fin 4) (r : Fin 2048) (q : Fin 512)
    (hb : t.val / 8 = b.val) (hr : t.val / 2 % 4 * 512 + q.val = r.val) :
    sc (iblk1 V c 0 t) (iblk1 V c 1 t) q = sBlk0 V c b r := by
  funext k
  have hk : t.val % 2 * 1024 + k.val = (Fin.castAdd 1024 k : Fin 2048).val := by
    have e : (Fin.castAdd 1024 k : Fin 2048).val = k.val := rfl
    omega
  unfold sBlk0
  refine Finset.sum_congr rfl fun e _ => ?_
  rw [qblk_apply V c t b r q e hb hr, kblk_apply V c t b (Fin.castAdd 1024 k : Fin 2048) k e hb hk]

theorem sc_odd (c : Dev nD) (t : Fin cfg1.N) (h1 : ¬t.val % 2 = 0) (b : Fin 4) (r : Fin 2048) (q : Fin 512)
    (hb : t.val / 8 = b.val) (hr : t.val / 2 % 4 * 512 + q.val = r.val) :
    sc (iblk1 V c 0 t) (iblk1 V c 1 t) q = sBlk1 V c b r := by
  funext k
  have hk : t.val % 2 * 1024 + k.val = (Fin.natAdd 1024 k : Fin 2048).val := by
    have e : (Fin.natAdd 1024 k : Fin 2048).val = 1024 + k.val := rfl
    omega
  unfold sBlk1
  refine Finset.sum_congr rfl fun e _ => ?_
  rw [qblk_apply V c t b r q e hb hr, kblk_apply V c t b (Fin.natAdd 1024 k : Fin 2048) k e hb hk]

/-- The first value block's column `d` at an even point is the key array's column over the first half of the keys. -/
theorem kcol_even (c : Dev nD) (t : Fin cfg1.N) (h0 : t.val % 2 = 0) (b : Fin 4) (d : Fin 1024) (hb : t.val / 8 = b.val) :
    (fun k : Fin 1024 => (iblk1 V c 1 t : FVec Ideal S1x1024x1024 .bf16) (ix3 0 k d))
      = fun k => aK V c (ix3 b (Fin.castAdd 1024 k : Fin 2048) d) := by
  funext k
  have hk : t.val % 2 * 1024 + k.val = (Fin.castAdd 1024 k : Fin 2048).val := by
    have e : (Fin.castAdd 1024 k : Fin 2048).val = k.val := rfl
    omega
  exact kblk_apply V c t b (Fin.castAdd 1024 k : Fin 2048) k d hb hk

theorem kcol_odd (c : Dev nD) (t : Fin cfg1.N) (h1 : ¬t.val % 2 = 0) (b : Fin 4) (d : Fin 1024) (hb : t.val / 8 = b.val) :
    (fun k : Fin 1024 => (iblk1 V c 1 t : FVec Ideal S1x1024x1024 .bf16) (ix3 0 k d))
      = fun k => aK V c (ix3 b (Fin.natAdd 1024 k : Fin 2048) d) := by
  funext k
  have hk : t.val % 2 * 1024 + k.val = (Fin.natAdd 1024 k : Fin 2048).val := by
    have e : (Fin.natAdd 1024 k : Fin 2048).val = 1024 + k.val := rfl
    omega
  exact kblk_apply V c t b (Fin.natAdd 1024 k : Fin 2048) k d hb hk

/-- The second value block's column `d` is the query array's column over the same half of the keys. -/
theorem vcol_even (c : Dev nD) (t : Fin cfg1.N) (h0 : t.val % 2 = 0) (b : Fin 4) (d : Fin 1024) (hb : t.val / 8 = b.val) :
    (fun k : Fin 1024 => (iblk1 V c 2 t : FVec Ideal S1x1024x1024 .bf16) (ix3 0 k d))
      = fun k => aQ V c (ix3 b (Fin.castAdd 1024 k : Fin 2048) d) := by
  funext k
  have hk : t.val % 2 * 1024 + k.val = (Fin.castAdd 1024 k : Fin 2048).val := by
    have e : (Fin.castAdd 1024 k : Fin 2048).val = k.val := rfl
    omega
  exact vblk_apply V c t b (Fin.castAdd 1024 k : Fin 2048) k d hb hk

theorem vcol_odd (c : Dev nD) (t : Fin cfg1.N) (h1 : ¬t.val % 2 = 0) (b : Fin 4) (d : Fin 1024) (hb : t.val / 8 = b.val) :
    (fun k : Fin 1024 => (iblk1 V c 2 t : FVec Ideal S1x1024x1024 .bf16) (ix3 0 k d))
      = fun k => aQ V c (ix3 b (Fin.natAdd 1024 k : Fin 2048) d) := by
  funext k
  have hk : t.val % 2 * 1024 + k.val = (Fin.natAdd 1024 k : Fin 2048).val := by
    have e : (Fin.natAdd 1024 k : Fin 2048).val = 1024 + k.val := rfl
    omega
  exact vblk_apply V c t b (Fin.natAdd 1024 k : Fin 2048) k d hb hk

/-! ## The scratch buffers after an even point

An even point resets the running maximum to the finite starting value and the denominator and numerators to zero,
then updates them with the first block of keys. -/

section Even
variable (c : Dev nD) (t : Fin cfg1.N) (h0 : t.val % 2 = 0) (b : Fin 4) (r : Fin 2048) (q : Fin 512)
  (hb : t.val / 8 = b.val) (hr : t.val / 2 % 4 * 512 + q.val = r.val)
include hb hr

theorem sA0_at : sA_0 V c t h0 (ix3 0 q 0) = Cert.Attn.mNext neg (sBlk0 V c b r) := by
  rw [sA_0_eq V c t h0, pay3_apply]
  refine (pay13_apply (iblk1 V c 0 t) (iblk1 V c 1 t) (k1_pay6 (F := Ideal)) q).trans ?_
  rw [pay6_apply q, sc_even V c t h0 b r q hb hr]

theorem sA1_at : sA_1 V c t h0 (ix3 0 q 0) = Cert.Attn.lNext neg 0 (sBlk0 V c b r) := by
  rw [sA_1_eq V c t h0]
  refine (pay16_apply (iblk1 V c 0 t) (iblk1 V c 1 t) (k1_pay6 (F := Ideal)) (k1_pay7 (F := Ideal)) q).trans ?_
  rw [pay6_apply q, pay7_apply, sc_even V c t h0 b r q hb hr]

theorem sA2_at (d : Fin 1024) : sA_2 V c t h0 (ix3 0 q d)
    = Cert.Attn.accNext neg 0 (sBlk0 V c b r) (fun k => aK V c (ix3 b (Fin.castAdd 1024 k : Fin 2048) d)) := by
  rw [sA_2_eq V c t h0]
  refine (pay1_apply (iblk1 V c 0 t) (iblk1 V c 1 t) (k1_pay6 (F := Ideal)) (k1_pay8 (F := Ideal)) q d).trans ?_
  rw [pay6_apply q, pay8_apply, sc_even V c t h0 b r q hb hr]
  exact congrArg (Cert.Attn.accNext neg 0 (sBlk0 V c b r)) (kcol_even V c t h0 b d hb)

theorem sA3_at (d : Fin 1024) : sA_3 V c t h0 (ix3 0 q d)
    = Cert.Attn.accNext neg 0 (sBlk0 V c b r) (fun k => aQ V c (ix3 b (Fin.castAdd 1024 k : Fin 2048) d)) := by
  rw [sA_3_eq V c t h0]
  refine (pay2_apply (iblk1 V c 0 t) (iblk1 V c 1 t) (iblk1 V c 2 t) (k1_pay6 (F := Ideal)) (k1_pay9 (F := Ideal)) q d).trans ?_
  rw [pay6_apply q, pay9_apply, sc_even V c t h0 b r q hb hr]
  exact congrArg (Cert.Attn.accNext neg 0 (sBlk0 V c b r)) (vcol_even V c t h0 b d hb)

end Even

/-! ## The two results after an odd point, over any scratch contents

An odd point updates the scratch contents with the second block of keys, divides the numerators by the
denominator, and projects the second quotient through the output weights. -/

section Odd
variable (c : Dev nD) (t : Fin cfg1.N) (h1 : ¬t.val % 2 = 0) (b : Fin 4) (r : Fin 2048) (q : Fin 512)
  (hb : t.val / 8 = b.val) (hr : t.val / 2 % 4 * 512 + q.val = r.val)
  (xs0 xs1 : FVec Ideal S1x512x1 .f32) (xs2 xs3 : FVec Ideal S1x512x1024 .f32)
include h1 hb hr

theorem l_odd : k1_pay16 (F := Ideal) (iblk1 V c 0 t) (iblk1 V c 1 t) xs0 xs1 (ix3 0 q 0)
    = Cert.Attn.lNext (xs0 (ix3 0 q 0)) (xs1 (ix3 0 q 0)) (sBlk1 V c b r) := by
  refine (pay16_apply (iblk1 V c 0 t) (iblk1 V c 1 t) xs0 xs1 q).trans ?_
  rw [sc_odd V c t h1 b r q hb hr]

theorem oB5_at (d : Fin 1024) : oB_5 V c t h1 xs0 xs1 xs2 xs3 (ix3 0 q d)
    = Ideal.div (Cert.Attn.accNext (xs0 (ix3 0 q 0)) (xs2 (ix3 0 q d)) (sBlk1 V c b r)
          (fun k => aK V c (ix3 b (Fin.natAdd 1024 k : Fin 2048) d)))
        (Cert.Attn.lNext (xs0 (ix3 0 q 0)) (xs1 (ix3 0 q 0)) (sBlk1 V c b r)) := by
  rw [oB_5_eq V c t h1 xs0 xs1 xs2 xs3]
  refine (pay4_apply _ _ q d).trans ?_
  refine congrArg₂ Ideal.div ?_ (l_odd V c t h1 b r q hb hr xs0 xs1)
  refine (pay1_apply (iblk1 V c 0 t) (iblk1 V c 1 t) xs0 xs2 q d).trans ?_
  rw [sc_odd V c t h1 b r q hb hr]
  exact congrArg (Cert.Attn.accNext (xs0 (ix3 0 q 0)) (xs2 (ix3 0 q d)) (sBlk1 V c b r)) (kcol_odd V c t h1 b d hb)

theorem oB6_at (d : Fin 1024) : oB_6 V c t h1 xs0 xs1 xs2 xs3 (ix3 0 q d)
    = (∑ e : Fin 1024, Ideal.div (Cert.Attn.accNext (xs0 (ix3 0 q 0)) (xs3 (ix3 0 q e)) (sBlk1 V c b r)
            (fun k => aQ V c (ix3 b (Fin.natAdd 1024 k : Fin 2048) e)))
          (Cert.Attn.lNext (xs0 (ix3 0 q 0)) (xs1 (ix3 0 q 0)) (sBlk1 V c b r)) * aW V c (ix2 e d))
      + aB V c (ix3 0 0 d) := by
  rw [oB_6_eq V c t h1 xs0 xs1 xs2 xs3]
  refine (pay5_apply _ _ (iblk1 V c 3 t) (iblk1 V c 4 t) q d).trans ?_
  rw [bblk_apply V c t d, l_odd V c t h1 b r q hb hr xs0 xs1]
  congr 1
  refine Finset.sum_congr rfl fun e _ => ?_
  rw [wblk_apply V c t e d]
  congr 2
  refine (pay2_apply (iblk1 V c 0 t) (iblk1 V c 1 t) (iblk1 V c 2 t) xs0 xs3 q e).trans ?_
  rw [sc_odd V c t h1 b r q hb hr]
  exact congrArg (Cert.Attn.accNext (xs0 (ix3 0 q 0)) (xs3 (ix3 0 q e)) (sBlk1 V c b r)) (vcol_odd V c t h1 b e hb)

end Odd

/-! ## The result buffers after an odd point

The point before an odd point is the even point of the same batch and query tile. -/

section Point
variable (c : Dev nD) (t : Fin cfg1.N) (h1 : ¬t.val % 2 = 0) (b : Fin 4) (r : Fin 2048) (q : Fin 512)
  (hb : t.val / 8 = b.val) (hr : t.val / 2 % 4 * 512 + q.val = r.val)
include h1 hb hr

theorem out5_at (d : Fin 1024) : (outsAt1 V c t.val t.isLt).1 (ix3 0 q d) = out5F V c b r d := by
  have ht : t.val - 1 < cfg1.N := Nat.lt_of_le_of_lt (Nat.sub_le _ _) t.isLt
  have h0' : (⟨t.val - 1, ht⟩ : Fin cfg1.N).val % 2 = 0 := by show (t.val - 1) % 2 = 0; omega
  have hb' : (⟨t.val - 1, ht⟩ : Fin cfg1.N).val / 8 = b.val := by show (t.val - 1) / 8 = b.val; omega
  have hr' : (⟨t.val - 1, ht⟩ : Fin cfg1.N).val / 2 % 4 * 512 + q.val = r.val := by
    show (t.val - 1) / 2 % 4 * 512 + q.val = r.val; omega
  have eA : outsAt1 V c (t.val - 1) ht = tupA V c ⟨t.val - 1, ht⟩ h0' := outsAt1_A V c ⟨t.val - 1, ht⟩ h0'
  rw [outsAt1_B V c t h1, eA]
  unfold tupB tupA
  dsimp only
  rw [oB5_at V c t h1 b r q hb hr _ _ _ _ d, sA0_at V c ⟨t.val - 1, ht⟩ h0' b r q hb' hr',
    sA1_at V c ⟨t.val - 1, ht⟩ h0' b r q hb' hr', sA2_at V c ⟨t.val - 1, ht⟩ h0' b r q hb' hr' d]
  rfl

theorem out6_at (d : Fin 1024) : (outsAt1 V c t.val t.isLt).2.1 (ix3 0 q d) = out6F V c b r d := by
  have ht : t.val - 1 < cfg1.N := Nat.lt_of_le_of_lt (Nat.sub_le _ _) t.isLt
  have h0' : (⟨t.val - 1, ht⟩ : Fin cfg1.N).val % 2 = 0 := by show (t.val - 1) % 2 = 0; omega
  have hb' : (⟨t.val - 1, ht⟩ : Fin cfg1.N).val / 8 = b.val := by show (t.val - 1) / 8 = b.val; omega
  have hr' : (⟨t.val - 1, ht⟩ : Fin cfg1.N).val / 2 % 4 * 512 + q.val = r.val := by
    show (t.val - 1) / 2 % 4 * 512 + q.val = r.val; omega
  have eA : outsAt1 V c (t.val - 1) ht = tupA V c ⟨t.val - 1, ht⟩ h0' := outsAt1_A V c ⟨t.val - 1, ht⟩ h0'
  rw [outsAt1_B V c t h1, eA]
  unfold tupB tupA
  dsimp only
  rw [oB6_at V c t h1 b r q hb hr _ _ _ _ d, sA0_at V c ⟨t.val - 1, ht⟩ h0' b r q hb' hr',
    sA1_at V c ⟨t.val - 1, ht⟩ h0' b r q hb' hr']
  have hs : ∀ e : Fin 1024, sA_3 V c ⟨t.val - 1, ht⟩ h0' (ix3 0 q e)
      = Cert.Attn.accNext neg 0 (sBlk0 V c b r) (fun k => aQ V c (ix3 b (Fin.castAdd 1024 k : Fin 2048) e)) :=
    fun e => sA3_at V c ⟨t.val - 1, ht⟩ h0' b r q hb' hr' e
  simp only [hs]
  rfl

end Point

/-! ## What the odd points write back, and the arrays after the run -/

/-- What point `t` writes back into the first result array is block `t` of the closed form. -/
theorem flushed5_eq (c : Dev nD) (t : Fin cfg1.N) (hf : (cfg1.win 5).flush t = true) :
    (dat1 V c).flushed 5 t = ((cfg1.win 5).blk t).view.read (Elt Ideal) (G5 V c) := by
  have h1 : t.val % 2 = 1 := (flush1_5 t).mp hf
  have hN : t.val < 32 := lt_of_lt_of_eq t.isLt (show cfg1.N = 32 from N_1)
  show (cfg1.win 5).cut (grid1.coords t) ((dat1 V c).after 5 t) = _
  rw [after1_5]
  refine funext fun (j : S1x512x1024.Idx) => ?_
  obtain ⟨z, q, d, rfl⟩ : ∃ (z : Fin 1) (q : Fin 512) (d : Fin 1024), j = ix3 z q d := ⟨j 0, j 1, j 2, eq_ix3 j⟩
  obtain rfl : z = 0 := Subsingleton.elim _ _
  have hq := q.isLt
  rw [View.read_apply]
  refine Eq.trans ?_ (congrArg (G5 V c) (oblk5_emb t ⟨t.val / 8, by omega⟩ ⟨t.val / 2 % 4 * 512 + q.val, by omega⟩ q d rfl rfl)).symm
  exact out5_at V c t (by omega) ⟨t.val / 8, by omega⟩ ⟨t.val / 2 % 4 * 512 + q.val, by omega⟩ q rfl rfl d

/-- What point `t` writes back into the second result array is block `t` of the closed form. -/
theorem flushed6_eq (c : Dev nD) (t : Fin cfg1.N) (hf : (cfg1.win 6).flush t = true) :
    (dat1 V c).flushed 6 t = ((cfg1.win 6).blk t).view.read (Elt Ideal) (G6 V c) := by
  have h1 : t.val % 2 = 1 := (flush1_6 t).mp hf
  have hN : t.val < 32 := lt_of_lt_of_eq t.isLt (show cfg1.N = 32 from N_1)
  show (cfg1.win 6).cut (grid1.coords t) ((dat1 V c).after 6 t) = _
  rw [after1_6]
  refine funext fun (j : S1x512x1024.Idx) => ?_
  obtain ⟨z, q, d, rfl⟩ : ∃ (z : Fin 1) (q : Fin 512) (d : Fin 1024), j = ix3 z q d := ⟨j 0, j 1, j 2, eq_ix3 j⟩
  obtain rfl : z = 0 := Subsingleton.elim _ _
  have hq := q.isLt
  rw [View.read_apply]
  refine Eq.trans ?_ (congrArg (G6 V c) (oblk6_emb t ⟨t.val / 8, by omega⟩ ⟨t.val / 2 % 4 * 512 + q.val, by omega⟩ q d rfl rfl)).symm
  exact out6_at V c t (by omega) ⟨t.val / 8, by omega⟩ ⟨t.val / 2 % 4 * 512 + q.val, by omega⟩ q rfl rfl d

/-- The first result array after the run is the closed form: the odd points' blocks cover it. -/
theorem out5_arr (c : Dev nD) : (dat1 V c).arrAt 5 cfg1.N = G5 V c :=
  (dat1 V c).arrAt_eq_of_cover 5 (G5 V c) (fun t hf => flushed5_eq V c t hf) cover5

/-- The second result array after the run is the closed form. -/
theorem out6_arr (c : Dev nD) : (dat1 V c).arrAt 6 cfg1.N = G6 V c :=
  (dat1 V c).arrAt_eq_of_cover 6 (G6 V c) (fun t hf => flushed6_eq V c t hf) cover6

/-- The first result at (b, r, d): the two-block online softmax of row `r`'s scores against the key array's column. -/
theorem out5_val (c : Dev nD) (b : Fin 4) (r : Fin 2048) (d : Fin 1024) :
    (dat1 V c).arrAt 5 cfg1.N (ix3 b r d) = out5F V c b r d :=
  congrFun (out5_arr V c) (ix3 b r d)

/-- The second result at (b, r, d): the normalised second numerator through the output weights, plus the bias. -/
theorem out6_val (c : Dev nD) (b : Fin 4) (r : Fin 2048) (d : Fin 1024) :
    (dat1 V c).arrAt 6 cfg1.N (ix3 b r d) = out6F V c b r d :=
  congrFun (out6_arr V c) (ix3 b r d)

end Cert.KernelIdeal.Val

end
-- ==== Proof.BridgeMath.lean ====
/-
  The softmax-weighted sum over 2048 keys is what the two-block online recurrence computes.

  For one query row with real scores s and real values v, the sum over all keys j of
  exp(s j − max s) / Σ exp(s j' − max s) · v j equals the quotient of the running numerator by the running
  denominator after the keys have been taken in two halves of 1024, starting from a finite stand-in for the
  running maximum, a zero denominator and a zero numerator: the halves' sums and maxima join, and the recurrence is
  the softmax by the invariance of the quotient under a common shift of the exponents.
-/
import proofs.«430366_j13881334301213_3_alg».proof.Proof.Spec
import proofs.«430366_j13881334301213_3_alg».proof.Proof.Math
import Mathlib.Algebra.BigOperators.Fin

noncomputable section

namespace Cert.Bridge

open Idealize.ShloMosaic Cert.Spec Cert.Attn IdealReal
open scoped BigOperators

theorem softmax_sum_two (neg : EReal) (hneg : IsReal neg) (s v : Fin 2048 → EReal)
    (hs : ∀ j, IsReal (s j)) (hv : ∀ j, IsReal (v j)) :
    (∑ j : Fin 2048, Ideal.div (Ideal.exp (s j - rowMax s)) (∑ j' : Fin 2048, Ideal.exp (s j' - rowMax s)) * v j)
      = Ideal.div
          (accNext (mNext neg fun k : Fin 1024 => s (Fin.castAdd 1024 k))
            (accNext neg 0 (fun k : Fin 1024 => s (Fin.castAdd 1024 k)) fun k : Fin 1024 => v (Fin.castAdd 1024 k))
            (fun k : Fin 1024 => s (Fin.natAdd 1024 k)) fun k : Fin 1024 => v (Fin.natAdd 1024 k))
          (lNext (mNext neg fun k : Fin 1024 => s (Fin.castAdd 1024 k))
            (lNext neg 0 fun k : Fin 1024 => s (Fin.castAdd 1024 k))
            fun k : Fin 1024 => s (Fin.natAdd 1024 k)) := by
  rw [online_two neg _ _ _ _ hneg (fun k => hs _) (fun k => hs _) (fun k => hv _) (fun k => hv _)]
  have hM : rowMax s = mBoth (fun k : Fin 1024 => s (Fin.castAdd 1024 k)) (fun k : Fin 1024 => s (Fin.natAdd 1024 k)) :=
    rowMax_fin_add 1024 s
  have hZ : (∑ j' : Fin 2048, Ideal.exp (s j' - rowMax s))
      = zBoth (fun k : Fin 1024 => s (Fin.castAdd 1024 k)) (fun k : Fin 1024 => s (Fin.natAdd 1024 k)) := by
    rw [hM]
    exact Fin.sum_univ_add (a := 1024) (b := 1024) fun j' : Fin (1024 + 1024) => Ideal.exp (s j' - mBoth (fun k : Fin 1024 => s (Fin.castAdd 1024 k)) (fun k : Fin 1024 => s (Fin.natAdd 1024 k)))
  rw [hZ, hM]
  exact Fin.sum_univ_add (a := 1024) (b := 1024) fun j : Fin (1024 + 1024) => Ideal.div (Ideal.exp (s j - mBoth (fun k : Fin 1024 => s (Fin.castAdd 1024 k)) (fun k : Fin 1024 => s (Fin.natAdd 1024 k)))) (zBoth (fun k : Fin 1024 => s (Fin.castAdd 1024 k)) (fun k : Fin 1024 => s (Fin.natAdd 1024 k))) * v j

end Cert.Bridge

end
-- ==== Proof.RefGen.lean ====
/- The generated run of the reference and its read-at-an-index lemmas, gathered under one import. -/
import proofs.«430366_j13881334301213_3_alg».proof.Proof.Gen.ReferenceIdeal.Run
import proofs.«430366_j13881334301213_3_alg».proof.Proof.Gen.ReferenceIdeal.Read
-- ==== Proof.RefIs.lean ====
/-
  The reference program's two results, read index by index on the extended reals, are the
  specification's functions O1 and O2 of the six argument arrays.

  The stages follow the program: t1 is the first product plus the bias; the scores are t1 against
  features_2; the row maximum is a fold of max from the bottom element (the further maximum with the
  bottom element changes nothing); the exponentials of the scores less the row maximum are summed
  from zero; each exponential is divided by its row's sum; the two results are the weights against
  features_2, and the weights against t1 mapped through the second matrix with the second bias added.
-/
import proofs.«430366_j13881334301213_3_alg».proof.Proof.RefGen
import proofs.«430366_j13881334301213_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.RefIs

open Cert.ReferenceIdeal Cert.ReferenceIdeal.Gen Cert.ReferenceIdeal.Read Idealize.ShloMosaic Idealize.ShloMosaic.ValueIdx
open scoped BigOperators

variable (a0 a1 : (⟨S4x2048x1024, .f32⟩ : BufTy).Contents (Elt Ideal))
  (a2 : (⟨S1024x1024, .f32⟩ : BufTy).Contents (Elt Ideal)) (a3 : (⟨S1024, .f32⟩ : BufTy).Contents (Elt Ideal))
  (a4 : (⟨S1024x1024, .f32⟩ : BufTy).Contents (Elt Ideal)) (a5 : (⟨S1024, .f32⟩ : BufTy).Contents (Elt Ideal))

/-! ## The index maps of the stages at literal coordinates -/

theorem lidx_v0 (b : Fin 4) (r : Fin 2048) (e k : Fin 1024) : lidx_main_v0 (ix3 b r e) k = ix3 b r k :=
  funext fun a => Fin.ext (by match a with | ⟨0, _⟩ => rfl | ⟨1, _⟩ => rfl | ⟨2, _⟩ => rfl)

theorem ridx_v0 (b : Fin 4) (r : Fin 2048) (e k : Fin 1024) : ridx_main_v0 (ix3 b r e) k = ix2 e k :=
  funext fun a => Fin.ext (by match a with | ⟨0, _⟩ => rfl | ⟨1, _⟩ => rfl)

theorem idx_v1_v2 (b : Fin 4) (r : Fin 2048) (e : Fin 1024) : idx_main_v1 (idx_main_v2 (ix3 b r e)) = ix1 e :=
  funext fun a => Fin.ext (by match a with | ⟨0, _⟩ => rfl)

/-- t1 at (b, r, e). -/
theorem t1_eq (b : Fin 4) (r : Fin 2048) (e : Fin 1024) :
    val_main_v3 (F := Ideal) a0 a2 a3 (ix3 b r e) = Cert.Spec.T1 a0 a2 a3 b r e := by
  rw [val_main_v3_apply, val_main_v0_apply, val_main_v2_apply, val_main_v1_apply]
  simp only [lidx_v0, ridx_v0, idx_v1_v2, Ideal.addf_def]
  rfl

/-! ## The scores -/

theorem lidx_v4 (b : Fin 4) (r j : Fin 2048) (k : Fin 1024) : lidx_main_v4 (ix3 b r j) k = ix3 b r k :=
  funext fun a => Fin.ext (by match a with | ⟨0, _⟩ => rfl | ⟨1, _⟩ => rfl | ⟨2, _⟩ => rfl)

theorem ridx_v4 (b : Fin 4) (r j : Fin 2048) (k : Fin 1024) : ridx_main_v4 (ix3 b r j) k = ix3 b j k :=
  funext fun a => Fin.ext (by match a with | ⟨0, _⟩ => rfl | ⟨1, _⟩ => rfl | ⟨2, _⟩ => rfl)

/-- The score of query row r against key row j. -/
theorem sc_eq (b : Fin 4) (r j : Fin 2048) :
    val_main_v4 (F := Ideal) a0 a1 a2 a3 (ix3 b r j) = Cert.Spec.Sc a0 a1 a2 a3 b r j := by
  rw [val_main_v4_apply]
  simp only [lidx_v4, ridx_v4, t1_eq]
  rfl

/-! ## The row maximum -/

/-- The reduced index (b, r) with the key coordinate k put back is (b, r, k). -/
theorem lift_ix (h : S4x2048x2048.Reduces [2] S4x2048) (b : Fin 4) (r : Fin 2048) (k : Fin (S4x2048x2048.size 2)) :
    h.lift (ix2 b r) k = ix3 b r (⟨k.val, k.isLt⟩ : Fin 2048) := by
  funext c; apply Fin.ext
  fin_cases c <;> rfl

theorem ofBits_negInf : Ideal.ofBits .f32 0xFF800000#32 = (⊥ : EReal) := by simp [Ideal.ofBits, Ideal.ieee]

/-- The row maximum of the scores. -/
theorem mx_eq (b : Fin 4) (r : Fin 2048) :
    val_main_v7 (F := Ideal) a0 a1 a2 a3 (ix2 b r) = Cert.Spec.Mx a0 a1 a2 a3 b r := by
  have h : S4x2048x2048.Reduces [2] S4x2048 := by decide
  rw [val_main_v7_apply, val_main_v6_apply, val_main_cst_0_apply]
  unfold val_main_v5
  rw [Host.reduce_eq_fold_single FloatOps.maximumf _ _ reducesTo_S4x2048x2048_S4x2048_d2 h h_S_]
  have hf : (val_main_v4 (F := Ideal) a0 a1 a2 a3 ∘ h.lift (ix2 b r)) = fun k : Fin 2048 => Cert.Spec.Sc a0 a1 a2 a3 b r k :=
    funext fun k => (congrArg (val_main_v4 (F := Ideal) a0 a1 a2 a3) (lift_ix h b r k)).trans (sc_eq a0 a1 a2 a3 b r _)
  show max (Ideal.ofBits .f32 0xFF800000#32)
      (Finset.fold max (Ideal.ofBits .f32 0xFF800000#32) (val_main_v4 (F := Ideal) a0 a1 a2 a3 ∘ h.lift (ix2 b r)) (Finset.univ : Finset (Fin 2048)))
    = Finset.fold max ⊥ (fun k : Fin 2048 => Cert.Spec.Sc a0 a1 a2 a3 b r k) (Finset.univ : Finset (Fin 2048))
  rw [hf, ofBits_negInf]
  exact max_bot_left _

/-! ## The exponentials, their row sums and the weights -/

theorem idx_v8_v9 (b : Fin 4) (r j : Fin 2048) : idx_main_v8 (idx_main_v9 (ix3 b r j)) = ix2 b r :=
  funext fun a => Fin.ext (by match a with | ⟨0, _⟩ => rfl | ⟨1, _⟩ => rfl)

/-- The exponential of a score less its row's maximum. -/
theorem ex_eq (b : Fin 4) (r j : Fin 2048) :
    val_main_v11 (F := Ideal) a0 a1 a2 a3 (ix3 b r j)
      = Ideal.exp (Cert.Spec.Sc a0 a1 a2 a3 b r j - Cert.Spec.Mx a0 a1 a2 a3 b r) := by
  rw [val_main_v11_apply, val_main_v10_apply, val_main_v9_apply, val_main_v8_apply]
  simp only [idx_v8_v9, sc_eq, mx_eq, Ideal.subf_def, Ideal.hostUnary_exp_def]

theorem idx_v12 (b : Fin 4) (r k : Fin 2048) : idx_main_v12 (ix2 b r) k = ix3 b r k :=
  funext fun a => Fin.ext (by match a with | ⟨0, _⟩ => rfl | ⟨1, _⟩ => rfl | ⟨2, _⟩ => rfl)

/-- The softmax's denominator: the sum from zero is the sum. -/
theorem zx_eq (b : Fin 4) (r : Fin 2048) :
    val_main_v12 (F := Ideal) a0 a1 a2 a3 (ix2 b r) = Cert.Spec.Zx a0 a1 a2 a3 b r := by
  rw [val_main_v12_apply, val_main_cst_1_apply]
  simp only [idx_v12, ex_eq, Ideal.ofBits_def, Ideal.ofBits_zero_f32, zero_add]
  rfl

theorem idx_v13_v14 (b : Fin 4) (r j : Fin 2048) : idx_main_v13 (idx_main_v14 (ix3 b r j)) = ix2 b r :=
  funext fun a => Fin.ext (by match a with | ⟨0, _⟩ => rfl | ⟨1, _⟩ => rfl)

/-- The attention weight. -/
theorem pr_eq (b : Fin 4) (r j : Fin 2048) :
    val_main_v15 (F := Ideal) a0 a1 a2 a3 (ix3 b r j) = Cert.Spec.Pr a0 a1 a2 a3 b r j := by
  rw [val_main_v15_apply, val_main_v14_apply, val_main_v13_apply]
  simp only [idx_v13_v14, ex_eq, zx_eq, Ideal.hostDivf_def]
  rfl

/-! ## The first result -/

theorem lidx_v16 (b : Fin 4) (r : Fin 2048) (d : Fin 1024) (k : Fin 2048) : lidx_main_v16 (ix3 b r d) k = ix3 b r k :=
  funext fun a => Fin.ext (by match a with | ⟨0, _⟩ => rfl | ⟨1, _⟩ => rfl | ⟨2, _⟩ => rfl)

theorem ridx_v16 (b : Fin 4) (r : Fin 2048) (d : Fin 1024) (k : Fin 2048) : ridx_main_v16 (ix3 b r d) k = ix3 b k d :=
  funext fun a => Fin.ext (by match a with | ⟨0, _⟩ => rfl | ⟨1, _⟩ => rfl | ⟨2, _⟩ => rfl)

/-- The reference's first result at (b, r, d) is the specification's. -/
theorem ref_out0 (b : Fin 4) (r : Fin 2048) (d : Fin 1024) :
    val_main_v16 (F := Ideal) a0 a1 a2 a3 (ix3 b r d) = Cert.Spec.O1 a0 a1 a2 a3 b r d := by
  rw [val_main_v16_apply]
  simp only [lidx_v16, ridx_v16, pr_eq]
  rfl

/-! ## The second result -/

theorem lidx_v17 (b : Fin 4) (r : Fin 2048) (e : Fin 1024) (k : Fin 2048) : lidx_main_v17 (ix3 b r e) k = ix3 b r k :=
  funext fun a => Fin.ext (by match a with | ⟨0, _⟩ => rfl | ⟨1, _⟩ => rfl | ⟨2, _⟩ => rfl)

theorem ridx_v17 (b : Fin 4) (r : Fin 2048) (e : Fin 1024) (k : Fin 2048) : ridx_main_v17 (ix3 b r e) k = ix3 b k e :=
  funext fun a => Fin.ext (by match a with | ⟨0, _⟩ => rfl | ⟨1, _⟩ => rfl | ⟨2, _⟩ => rfl)

/-- t1's rows weighted. -/
theorem a2_eq (b : Fin 4) (r : Fin 2048) (e : Fin 1024) :
    val_main_v17 (F := Ideal) a0 a1 a2 a3 (ix3 b r e) = Cert.Spec.A2 a0 a1 a2 a3 b r e := by
  rw [val_main_v17_apply]
  simp only [lidx_v17, ridx_v17, pr_eq, t1_eq]
  rfl

theorem lidx_v18 (b : Fin 4) (r : Fin 2048) (d k : Fin 1024) : lidx_main_v18 (ix3 b r d) k = ix3 b r k :=
  funext fun a => Fin.ext (by match a with | ⟨0, _⟩ => rfl | ⟨1, _⟩ => rfl | ⟨2, _⟩ => rfl)

theorem ridx_v18 (b : Fin 4) (r : Fin 2048) (d k : Fin 1024) : ridx_main_v18 (ix3 b r d) k = ix2 d k :=
  funext fun a => Fin.ext (by match a with | ⟨0, _⟩ => rfl | ⟨1, _⟩ => rfl)

theorem idx_v19_v20 (b : Fin 4) (r : Fin 2048) (d : Fin 1024) : idx_main_v19 (idx_main_v20 (ix3 b r d)) = ix1 d :=
  funext fun a => Fin.ext (by match a with | ⟨0, _⟩ => rfl)

/-- The reference's second result at (b, r, d) is the specification's. -/
theorem ref_out1 (b : Fin 4) (r : Fin 2048) (d : Fin 1024) :
    val_main_v21 (F := Ideal) a0 a1 a2 a3 a4 a5 (ix3 b r d) = Cert.Spec.O2 a0 a1 a2 a3 a4 a5 b r d := by
  rw [val_main_v21_apply, val_main_v18_apply, val_main_v20_apply, val_main_v19_apply]
  simp only [lidx_v18, ridx_v18, idx_v19_v20, a2_eq, Ideal.addf_def]
  rfl

/-! ## The two results as whole arrays -/

/-- The specification's first result as an array over the result's index type. -/
def O1arr : (⟨3, ![4, 2048, 1024]⟩ : Shape).Idx → EReal :=
  fun i => Cert.Spec.O1 a0 a1 a2 a3 (i 0) (i 1) (i 2)

/-- The specification's second result as an array over the result's index type. -/
def O2arr : (⟨3, ![4, 2048, 1024]⟩ : Shape).Idx → EReal :=
  fun i => Cert.Spec.O2 a0 a1 a2 a3 a4 a5 (i 0) (i 1) (i 2)

theorem O1arr_ix (b : Fin 4) (r : Fin 2048) (d : Fin 1024) :
    O1arr a0 a1 a2 a3 (ix3 b r d) = Cert.Spec.O1 a0 a1 a2 a3 b r d := rfl

theorem O2arr_ix (b : Fin 4) (r : Fin 2048) (d : Fin 1024) :
    O2arr a0 a1 a2 a3 a4 a5 (ix3 b r d) = Cert.Spec.O2 a0 a1 a2 a3 a4 a5 b r d := rfl

/-- The reference's first result is the specification's array. -/
theorem ref_out0_arr : val_main_v16 (F := Ideal) a0 a1 a2 a3 = O1arr a0 a1 a2 a3 := by
  funext i
  rw [eq_ix3 i]
  exact ref_out0 a0 a1 a2 a3 _ _ _

/-- The reference's second result is the specification's array. -/
theorem ref_out1_arr : val_main_v21 (F := Ideal) a0 a1 a2 a3 a4 a5 = O2arr a0 a1 a2 a3 a4 a5 := by
  funext i
  rw [eq_ix3 i]
  exact ref_out1 a0 a1 a2 a3 a4 a5 _ _ _

end Cert.RefIs

end
-- ==== Proof.Finite.lean ====
/-
  The precondition read back: every entry of the six argument arrays is a real number.

  The predicate is the conjunction of six tests, one per array: the test of an array `x` is the
  reduction by `and`, over every axis, of the words `|x i| < +∞`.  A conjunction that is 1 has
  every conjunct 1; a reduction by `and` that is 1 met only 1s; and among the extended reals
  `max x (-x) < ⊤` holds exactly when `x` is neither `⊥` nor `⊤`, that is, when `x` is the
  image of a real.
-/
import proofs.«430366_j13881334301213_3_alg».proof.Pre_finite_inputs
import proofs.«430366_j13881334301213_3_alg».proof.Proof.Gen.Pre_finite_inputs
import proofs.«430366_j13881334301213_3_alg».proof.Proof.LibIdealReal
import proofs.«430366_j13881334301213_3_alg».proof.Defs
import proofs.«430366_j13881334301213_3_alg».proof.Proof.Gen.KernelIdeal
import Idealize.ShloMosaic.Lib.ReduceAll
import Idealize.ShloMosaic.Lib.ValueIdx
import Idealize.ShloMosaic.PureOps.Ideal

namespace Cert.Finite

open Idealize.ShloMosaic Idealize.SL.Sem
open Cert.Pre_finite_inputs (S4x2048x1024 S1024x1024 S1024 S_)

/-- The single-precision pattern with all exponent bits set and no fraction bit denotes `+∞`. -/
theorem inf_eq : Ideal.ofBits .f32 0x7F800000#32 = (⊤ : EReal) := by
  simp [Ideal.ofBits, Ideal.ieee]

/-- An extended real whose absolute value is below `+∞` is a real: at `⊥` and at `⊤` the
    absolute value `max x (-x)` is `⊤`, which is not below itself. -/
theorem isReal_of_abs_lt (x : EReal)
    (h : Ideal.cmp .olt (max x (-x)) (Ideal.ofBits .f32 0x7F800000#32) = 1#1) : IdealReal.IsReal x := by
  rw [inf_eq] at h
  induction x using EReal.rec with
  | bot => simp [Ideal.cmp] at h
  | coe r => exact ⟨r, rfl⟩
  | top => simp [Ideal.cmp] at h

/-- The result shape has exactly one index. -/
instance : Subsingleton S_.Idx := ⟨fun a b => funext fun d => d.elim0⟩

/-- One array's test: if the reduction by `and` of the words `|x i| < +∞` over every axis is 1,
    every entry of `x` is a real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant S_ .f32 0x7F800000#32)))
          (constantI S_ 1 1#1) hr hu j = 1#1)
    (i : s.Idx) : IdealReal.IsReal (x i) :=
  isReal_of_abs_lt (x i) (Host.reduce_andi_all _ _ hr hu j e i)

/-- The precondition, read back: every entry of each of the six arrays is a real. -/
theorem all_real [hP : Cert.Pre_finite_inputs.Facts]
    (a0 a1 : FVec Ideal ⟨3, ![4, 2048, 1024]⟩ .f32) (a2 : FVec Ideal ⟨2, ![1024, 1024]⟩ .f32)
    (a3 : FVec Ideal ⟨1, ![1024]⟩ .f32) (a4 : FVec Ideal ⟨2, ![1024, 1024]⟩ .f32)
    (a5 : FVec Ideal ⟨1, ![1024]⟩ .f32)
    (h : Cert.Pre_finite_inputs.fn (F := Ideal) a0 a1 a2 a3 a4 a5 = (fun _ => 1#1)) :
    (∀ i, IdealReal.IsReal (a0 i)) ∧ (∀ i, IdealReal.IsReal (a1 i)) ∧ (∀ i, IdealReal.IsReal (a2 i)) ∧
    (∀ i, IdealReal.IsReal (a3 i)) ∧ (∀ i, IdealReal.IsReal (a4 i)) ∧ (∀ i, IdealReal.IsReal (a5 i)) := by
  have h0 := congrFun h ValueIdx.ix0
  dsimp only [Cert.Pre_finite_inputs.fn, Cert.Pre_finite_inputs.fn_part1, andi] at h0
  obtain ⟨h0123, e5⟩ := IntOp.andi_eq_one.1 h0
  obtain ⟨h0123', e4⟩ := IntOp.andi_eq_one.1 h0123
  obtain ⟨h012, e3⟩ := IntOp.andi_eq_one.1 h0123'
  obtain ⟨h01, e2⟩ := IntOp.andi_eq_one.1 h012
  obtain ⟨e0, e1⟩ := IntOp.andi_eq_one.1 h01
  exact ⟨isReal_of_all a0 _ _ _ _ e0, isReal_of_all a1 _ _ _ _ e1, isReal_of_all a2 _ _ _ _ e2,
    isReal_of_all a3 _ _ _ _ e3, isReal_of_all a4 _ _ _ _ e4, isReal_of_all a5 _ _ _ _ e5⟩

/-- The precondition of the idealized kernel, at a device: every entry of its six argument buffers is a real. -/
theorem of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IdealReal.IsReal (m ((c.tc : Thread Cert.KernelIdeal.nD Cert.KernelIdeal.τ).loc Cert.KernelIdeal.main_arg0) i)) ∧
    (∀ i, IdealReal.IsReal (m ((c.tc : Thread Cert.KernelIdeal.nD Cert.KernelIdeal.τ).loc Cert.KernelIdeal.main_arg1) i)) ∧
    (∀ i, IdealReal.IsReal (m ((c.tc : Thread Cert.KernelIdeal.nD Cert.KernelIdeal.τ).loc Cert.KernelIdeal.main_arg2) i)) ∧
    (∀ i, IdealReal.IsReal (m ((c.tc : Thread Cert.KernelIdeal.nD Cert.KernelIdeal.τ).loc Cert.KernelIdeal.main_arg3) i)) ∧
    (∀ i, IdealReal.IsReal (m ((c.tc : Thread Cert.KernelIdeal.nD Cert.KernelIdeal.τ).loc Cert.KernelIdeal.main_arg4) i)) ∧
    (∀ i, IdealReal.IsReal (m ((c.tc : Thread Cert.KernelIdeal.nD Cert.KernelIdeal.τ).loc Cert.KernelIdeal.main_arg5) i)) :=
  all_real _ _ _ _ _ _ (h c)

end Cert.Finite
-- ==== Proof.Bridge.lean ====
/-
  The kernel's two result arrays, as its pipelines leave them, are the specification's two functions of the six
  argument arrays, when every argument entry is a real number.

  Region 1 is entered with t1 (region 0's result, re-laid), features_2, W2 transposed and b2; its first result at
  (b, r, d) is the two-block online softmax of row r's scores against the 2048 keys, weighted over features_2's
  column d, which is the softmax-weighted sum; the second is the same over t1's columns, mapped through W2ᵀ, plus b2.
-/
import proofs.«430366_j13881334301213_3_alg».proof.Proof.KI.Val0
import proofs.«430366_j13881334301213_3_alg».proof.Proof.KI.Val1
import proofs.«430366_j13881334301213_3_alg».proof.Proof.BridgeMath
import proofs.«430366_j13881334301213_3_alg».proof.Proof.RefIs
import proofs.«430366_j13881334301213_3_alg».proof.Proof.Finite

noncomputable section

namespace Cert.Bridge

open Idealize.ShloMosaic Idealize.ShloMosaic.TcCoe Idealize.ShloMosaic.ValueIdx Idealize.SL.Sem
open Cert.KernelIdeal Cert.KernelIdeal.Hand Cert.KernelIdeal.Lin Cert.KernelIdeal.Val Cert.KernelIdeal.PayVal Cert.Spec Cert.Attn IdealReal
open scoped BigOperators

/-- t1 is real when the arguments are. -/
theorem isReal_T1 {f1 : (⟨3, ![4, 2048, 1024]⟩ : Shape).Idx → EReal} {W1 : (⟨2, ![1024, 1024]⟩ : Shape).Idx → EReal}
    {b1 : (⟨1, ![1024]⟩ : Shape).Idx → EReal} (h0 : ∀ i, IsReal (f1 i)) (h2 : ∀ i, IsReal (W1 i)) (h3 : ∀ i, IsReal (b1 i))
    (b : Fin 4) (r : Fin 2048) (e : Fin 1024) : IsReal (T1 f1 W1 b1 b r e) :=
  (IsReal.sum_mul _ _ _ (fun _ _ => h0 _) (fun _ _ => h2 _)).add (h3 _)

/-- So is every score. -/
theorem isReal_Sc {f1 f2 : (⟨3, ![4, 2048, 1024]⟩ : Shape).Idx → EReal} {W1 : (⟨2, ![1024, 1024]⟩ : Shape).Idx → EReal}
    {b1 : (⟨1, ![1024]⟩ : Shape).Idx → EReal} (h0 : ∀ i, IsReal (f1 i)) (h1 : ∀ i, IsReal (f2 i)) (h2 : ∀ i, IsReal (W1 i)) (h3 : ∀ i, IsReal (b1 i))
    (b : Fin 4) (r j : Fin 2048) : IsReal (Sc f1 f2 W1 b1 b r j) :=
  IsReal.sum_mul _ _ _ (fun _ _ => isReal_T1 h0 h2 h3 _ _ _) (fun _ _ => h1 _)

variable (m : (ℓ : Loc nD τ sig) → Buf (Elt Ideal) ℓ) (c : Dev nD)

/-! ## What region 1 is entered with -/

theorem aQ_E3 (b : Fin 4) (r : Fin 2048) (e : Fin 1024) : aQ (E3 m) c (ix3 b r e) = T1 (a0 m c) (a2 m c) (a3 m c) b r e := E3_v6 m c b r e
theorem aK_E3 (b : Fin 4) (j : Fin 2048) (e : Fin 1024) : aK (E3 m) c (ix3 b j e) = a1 m c (ix3 b j e) := E3_v3 m c b j e
theorem aW_E3 (e d : Fin 1024) : aW (E3 m) c (ix2 e d) = a4 m c (ix2 d e) := E3_v8 m c e d
theorem aB_E3 (d : Fin 1024) : aB (E3 m) c (ix3 (0 : Fin 1) (0 : Fin 1) d) = a5 m c (ix1 d) := E3_v9 m c d

/-- Region 1's scores of query row r against the keys of the first block are the specification's. -/
theorem sBlk0_E3 (b : Fin 4) (r : Fin 2048) :
    sBlk0 (E3 m) c b r = fun k : Fin 1024 => Sc (a0 m c) (a1 m c) (a2 m c) (a3 m c) b r (Fin.castAdd 1024 k) := by
  funext k; unfold sBlk0 Sc
  exact Finset.sum_congr rfl fun e _ => by rw [aQ_E3, aK_E3]

theorem sBlk1_E3 (b : Fin 4) (r : Fin 2048) :
    sBlk1 (E3 m) c b r = fun k : Fin 1024 => Sc (a0 m c) (a1 m c) (a2 m c) (a3 m c) b r (Fin.natAdd 1024 k) := by
  funext k; unfold sBlk1 Sc
  exact Finset.sum_congr rfl fun e _ => by rw [aQ_E3, aK_E3]

variable (hR : (∀ i, IsReal (a0 m c i)) ∧ (∀ i, IsReal (a1 m c i)) ∧ (∀ i, IsReal (a2 m c i)) ∧ (∀ i, IsReal (a3 m c i)) ∧ (∀ i, IsReal (a4 m c i)) ∧ (∀ i, IsReal (a5 m c i)))

include hR in
/-- The first result at an index. -/
theorem X10_0_val (b : Fin 4) (r : Fin 2048) (d : Fin 1024) :
    (X10_0 m c : S4x2048x1024.Idx → EReal) (ix3 b r d) = O1 (a0 m c) (a1 m c) (a2 m c) (a3 m c) b r d := by
  unfold X10_0
  rw [out5_val (E3 m) c b r d]
  unfold out5F lBoth
  rw [sBlk0_E3, sBlk1_E3]
  rw [show (fun k : Fin 1024 => aK (E3 m) c (ix3 b (Fin.castAdd 1024 k : Fin 2048) d)) = fun k : Fin 1024 => a1 m c (ix3 b (Fin.castAdd 1024 k : Fin 2048) d)
      from funext fun k => aK_E3 m c b _ d,
    show (fun k : Fin 1024 => aK (E3 m) c (ix3 b (Fin.natAdd 1024 k : Fin 2048) d)) = fun k : Fin 1024 => a1 m c (ix3 b (Fin.natAdd 1024 k : Fin 2048) d)
      from funext fun k => aK_E3 m c b _ d]
  unfold O1 Pr Zx Mx
  exact (softmax_sum_two neg neg_isReal (Sc (a0 m c) (a1 m c) (a2 m c) (a3 m c) b r) (fun j => a1 m c (ix3 b j d))
    (fun j => isReal_Sc hR.1 hR.2.1 hR.2.2.1 hR.2.2.2.1 b r j) (fun j => hR.2.1 _)).symm

include hR in
/-- The second result at an index. -/
theorem X10_1_val (b : Fin 4) (r : Fin 2048) (d : Fin 1024) :
    (X10_1 m c : S4x2048x1024.Idx → EReal) (ix3 b r d) = O2 (a0 m c) (a1 m c) (a2 m c) (a3 m c) (a4 m c) (a5 m c) b r d := by
  unfold X10_1
  rw [out6_val (E3 m) c b r d]
  unfold out6F
  rw [aB_E3]
  unfold O2
  refine congrArg (· + a5 m c (ix1 d)) (Finset.sum_congr rfl fun e _ => ?_)
  rw [aW_E3]
  refine congrArg (· * a4 m c (ix2 d e)) ?_
  unfold att2 lBoth
  rw [sBlk0_E3, sBlk1_E3]
  rw [show (fun k : Fin 1024 => aQ (E3 m) c (ix3 b (Fin.castAdd 1024 k : Fin 2048) e)) = fun k : Fin 1024 => T1 (a0 m c) (a2 m c) (a3 m c) b (Fin.castAdd 1024 k : Fin 2048) e
      from funext fun k => aQ_E3 m c b _ e,
    show (fun k : Fin 1024 => aQ (E3 m) c (ix3 b (Fin.natAdd 1024 k : Fin 2048) e)) = fun k : Fin 1024 => T1 (a0 m c) (a2 m c) (a3 m c) b (Fin.natAdd 1024 k : Fin 2048) e
      from funext fun k => aQ_E3 m c b _ e]
  unfold A2 Pr Zx Mx
  exact (softmax_sum_two neg neg_isReal (Sc (a0 m c) (a1 m c) (a2 m c) (a3 m c) b r) (fun j => T1 (a0 m c) (a2 m c) (a3 m c) b j e)
    (fun j => isReal_Sc hR.1 hR.2.1 hR.2.2.1 hR.2.2.2.1 b r j) (fun j => isReal_T1 hR.1 hR.2.2.1 hR.2.2.2.1 _ _ _)).symm

omit hR

/-- Under the precondition the kernel's first result array is the specification's. -/
theorem X10_0_eq (hpre : Cert.Pre_KernelIdeal m) :
    X10_0 m c = Cert.RefIs.O1arr (a0 m c) (a1 m c) (a2 m c) (a3 m c) := by
  funext i
  obtain ⟨b, r, d, rfl⟩ : ∃ (b : Fin 4) (r : Fin 2048) (d : Fin 1024), i = ix3 b r d := ⟨i 0, i 1, i 2, eq_ix3 i⟩
  exact (X10_0_val m c (Cert.Finite.of_pre m hpre c) b r d).trans (Cert.RefIs.O1arr_ix _ _ _ _ b r d).symm

/-- And the second. -/
theorem X10_1_eq (hpre : Cert.Pre_KernelIdeal m) :
    X10_1 m c = Cert.RefIs.O2arr (a0 m c) (a1 m c) (a2 m c) (a3 m c) (a4 m c) (a5 m c) := by
  funext i
  obtain ⟨b, r, d, rfl⟩ : ∃ (b : Fin 4) (r : Fin 2048) (d : Fin 1024), i = ix3 b r d := ⟨i 0, i 1, i 2, eq_ix3 i⟩
  exact (X10_1_val m c (Cert.Finite.of_pre m hpre c) b r d).trans (Cert.RefIs.O2arr_ix _ _ _ _ _ _ b r d).symm

end Cert.Bridge

end
-- ==== Proof.lean ====
/-
  The certificate's five claims.

  The kernel is a linear layer followed by a flash-attention kernel that takes the 2048 keys in two blocks of
  1024, keeping a running maximum (started at a finite stand-in), a running denominator and running numerators;
  the reference is a plain softmax attention. On the extended reals the two agree wherever every input is a real
  number: the online recurrence is the softmax by the invariance of a quotient of exponential sums under a common
  shift. The frames (each program runs to the end, faults nowhere and leaves its arguments as launched) come from
  the two regions' body obligations for the kernel and from the reference's run; the ideal pass rewrote nothing.
-/
import proofs.«430366_j13881334301213_3_alg».proof.Defs
import proofs.«430366_j13881334301213_3_alg».proof.Proof.Gen.Kernel
import proofs.«430366_j13881334301213_3_alg».proof.Proof.Gen.KernelIdeal
import proofs.«430366_j13881334301213_3_alg».proof.Proof.Gen.ReferenceIdeal
import proofs.«430366_j13881334301213_3_alg».proof.Proof.Gen.Pre_finite_inputs
import proofs.«430366_j13881334301213_3_alg».proof.Proof.K.Run
import proofs.«430366_j13881334301213_3_alg».proof.Proof.KI.Run
import proofs.«430366_j13881334301213_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's two arrays of the (agreeing) arguments. -/
theorem algebraic : Cert.algebraic_KernelIdeal_ReferenceIdeal := by
  intro m ρ m' ρ' hpre hagree
  refine ⟨fun c => Cert.RefIs.O1arr (Cert.KernelIdeal.Lin.a0 m c) (Cert.KernelIdeal.Lin.a1 m c) (Cert.KernelIdeal.Lin.a2 m c) (Cert.KernelIdeal.Lin.a3 m c),
    fun c => Cert.RefIs.O2arr (Cert.KernelIdeal.Lin.a0 m c) (Cert.KernelIdeal.Lin.a1 m c) (Cert.KernelIdeal.Lin.a2 m c) (Cert.KernelIdeal.Lin.a3 m c) (Cert.KernelIdeal.Lin.a4 m c) (Cert.KernelIdeal.Lin.a5 m c), ?_, ?_⟩
  · exact (θ_run Cert.KernelIdeal.defs _ _).mono
      (fun _ h c => ⟨(h c).1.trans (Cert.Bridge.X10_0_eq m c hpre), (h c).2.1.trans (Cert.Bridge.X10_1_eq m c hpre), (h c).2.2⟩)
      (Cert.KernelIdeal.Hand.run_outs (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v16_eq, Cert.RefIs.ref_out0_arr, (hagree c).1, (hagree c).2.1, (hagree c).2.2.1, (hagree c).2.2.2.1]
    · rw [(h c).2.1, Cert.ReferenceIdeal.Read.val_main_v21_eq, Cert.RefIs.ref_out1_arr, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
